-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S100000x512 : Shape := ⟨2, ![100000, 512]⟩
abbrev S50000x512 : Shape := ⟨2, ![50000, 512]⟩
abbrev S512x1024 : Shape := ⟨2, ![512, 1024]⟩
abbrev S512 : Shape := ⟨1, ![512]⟩
abbrev S512x512 : Shape := ⟨2, ![512, 512]⟩
abbrev S1x512 : Shape := ⟨2, ![1, 512]⟩
abbrev S1 : Shape := ⟨1, ![1]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S50000x512 : S_.BroadcastsInDim S50000x512 (![] : Fin 0 → Fin S50000x512.rank)
  reducesTo_S50000x512_S_d0_1 : S50000x512.ReducesTo [0, 1] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_
  bcast_S_S16384 : S_.BroadcastsInDim S16384 (![] : Fin 0 → Fin S16384.rank)
  reducesTo_S16384_S_d0 : S16384.ReducesTo [0] S_

variable [Facts]

def fn_part6 {F : FTy → Type} [FloatOps F] (main_arg0 : IVec S16384 32) (main_arg1 : IVec S16384 32) (main_v98 : IVec S_ 1) (main_v100 : IVec S16384 1) (main_v101 : IVec S16384 32) : IVec S_ 1 :=
  let main_v102 : IVec S16384 1 := cmpi .slt main_arg0 main_v101
  let main_v103 : IVec S16384 1 := andi main_v100 main_v102
  let main_c_40 : IVec S_ 1 := constantI S_ 1 1#1
  let main_v104 : IVec S_ 1 := (fun x v => Host.reduce IntOp.andi x v reducesTo_S16384_S_d0 h_S_) main_v103 main_c_40
  let main_v105 : IVec S_ 1 := andi main_v98 main_v104
  let main_c_41 : IVec S_ 32 := constantI S_ 32 4294917296#32
  let main_v106 : IVec S16384 32 := broadcastInDim S16384 ![] bcast_S_S16384 main_c_41
  let main_v107 : IVec S16384 1 := cmpi .sge main_arg1 main_v106
  let main_c_42 : IVec S_ 32 := constantI S_ 32 50000#32
  let main_v108 : IVec S16384 32 := broadcastInDim S16384 ![] bcast_S_S16384 main_c_42
  let main_v109 : IVec S16384 1 := cmpi .slt main_arg1 main_v108
  let main_v110 : IVec S16384 1 := andi main_v107 main_v109
  let main_c_43 : IVec S_ 1 := constantI S_ 1 1#1
  let main_v111 : IVec S_ 1 := (fun x v => Host.reduce IntOp.andi x v reducesTo_S16384_S_d0 h_S_) main_v110 main_c_43
  let main_v112 : IVec S_ 1 := andi main_v105 main_v111
  main_v112

def fn_part5 {F : FTy → Type} [FloatOps F] (main_arg0 : IVec S16384 32) (main_arg1 : IVec S16384 32) (main_arg20 : FVec F S1x512 .f32) (main_arg21 : FVec F S1 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S1x512 .f32 := Host.absf main_arg20
  let main_cst_34 : FVec F S_ .f32 := constant S_ .f32 0x7F800000#32
  let main_v90 : FVec F S1x512 .f32 := broadcastInDim S1x512 ![] bcast_S_S1x512 main_cst_34
  let main_v91 : IVec S1x512 1 := cmpf .olt main_v89 main_v90
  let main_c_35 : IVec S_ 1 := constantI S_ 1 1#1
  let main_v92 : IVec S_ 1 := (fun x v => Host.reduce IntOp.andi x v reducesTo_S1x512_S_d0_1 h_S_) main_v91 main_c_35
  let main_v93 : IVec S_ 1 := andi main_v88 main_v92
  let main_v94 : FVec F S1 .f32 := Host.absf main_arg21
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_c_38 : IVec S_ 32 := constantI S_ 32 4294867296#32
  let main_v99 : IVec S16384 32 := broadcastInDim S16384 ![] bcast_S_S16384 main_c_38
  let main_v100 : IVec S16384 1 := cmpi .sge main_arg0 main_v99
  let main_c_39 : IVec S_ 32 := constantI S_ 32 100000#32
  let main_v101 : IVec S16384 32 := broadcastInDim S16384 ![] bcast_S_S16384 main_c_39
  fn_part6 (F := F) main_arg0 main_arg1 main_v98 main_v100 main_v101

def fn_part4 {F : FTy → Type} [FloatOps F] (main_arg0 : IVec S16384 32) (main_arg1 : IVec S16384 32) (main_arg16 : FVec F S512 .f32) (main_arg17 : FVec F S512 .f32) (main_arg18 : FVec F S512 .f32) (main_arg19 : FVec F S512 .f32) (main_arg20 : FVec F S1x512 .f32) (main_arg21 : FVec F S1 .f32) (main_v63 : IVec S_ 1) (main_v67 : IVec S_ 1) : IVec S_ 1 :=
  let main_v68 : IVec S_ 1 := andi main_v63 main_v67
  let main_v69 : FVec F S512 .f32 := Host.absf main_arg16
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512 .f32 := Host.absf main_arg17
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512 .f32 := Host.absf main_arg18
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512 .f32 := Host.absf main_arg19
  let main_cst_32 : FVec F S_ .f32 := constant S_ .f32 0x7F800000#32
  fn_part5 (F := F) main_arg0 main_arg1 main_arg20 main_arg21 main_v83 main_v84 main_cst_32

def fn_part3 {F : FTy → Type} [FloatOps F] (main_arg0 : IVec S16384 32) (main_arg1 : IVec S16384 32) (main_arg13 : FVec F S1 .f32) (main_arg14 : FVec F S512x1024 .f32) (main_arg15 : FVec F S512 .f32) (main_arg16 : FVec F S512 .f32) (main_arg17 : FVec F S512 .f32) (main_arg18 : FVec F S512 .f32) (main_arg19 : FVec F S512 .f32) (main_arg20 : FVec F S1x512 .f32) (main_arg21 : FVec F S1 .f32) (main_v48 : IVec S_ 1) (main_v49 : FVec F S1x512 .f32) (main_v50 : FVec F S1x512 .f32) : IVec S_ 1 :=
  let main_v51 : IVec S1x512 1 := cmpf .olt main_v49 main_v50
  let main_c_19 : IVec S_ 1 := constantI S_ 1 1#1
  let main_v52 : IVec S_ 1 := (fun x v => Host.reduce IntOp.andi x v reducesTo_S1x512_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S512x1024 .f32 := Host.absf main_arg14
  let main_cst_22 : FVec F S_ .f32 := constant S_ .f32 0x7F800000#32
  let main_v60 : FVec F S512x1024 .f32 := broadcastInDim S512x1024 ![] bcast_S_S512x1024 main_cst_22
  let main_v61 : IVec S512x1024 1 := cmpf .olt main_v59 main_v60
  let main_c_23 : IVec S_ 1 := constantI S_ 1 1#1
  let main_v62 : IVec S_ 1 := (fun x v => Host.reduce IntOp.andi x v reducesTo_S512x1024_S_d0_1 h_S_) main_v61 main_c_23
  let main_v63 : IVec S_ 1 := andi main_v58 main_v62
  let main_v64 : FVec F S512 .f32 := Host.absf main_arg15
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg0 main_arg1 main_arg16 main_arg17 main_arg18 main_arg19 main_arg20 main_arg21 main_v63 main_v67

def fn_part2 {F : FTy → Type} [FloatOps F] (main_arg0 : IVec S16384 32) (main_arg1 : IVec S16384 32) (main_arg9 : FVec F S512 .f32) (main_arg10 : FVec F S512x512 .f32) (main_arg11 : FVec F S512 .f32) (main_arg12 : FVec F S1x512 .f32) (main_arg13 : FVec F S1 .f32) (main_arg14 : FVec F S512x1024 .f32) (main_arg15 : FVec F S512 .f32) (main_arg16 : FVec F S512 .f32) (main_arg17 : FVec F S512 .f32) (main_arg18 : FVec F S512 .f32) (main_arg19 : FVec F S512 .f32) (main_arg20 : FVec F S1x512 .f32) (main_arg21 : FVec F S1 .f32) (main_v33 : IVec S_ 1) : IVec S_ 1 :=
  let main_v34 : FVec F S512 .f32 := Host.absf main_arg9
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg10
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg11
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S1x512 .f32 := Host.absf main_arg12
  let main_cst_18 : FVec F S_ .f32 := constant S_ .f32 0x7F800000#32
  let main_v50 : FVec F S1x512 .f32 := broadcastInDim S1x512 ![] bcast_S_S1x512 main_cst_18
  fn_part3 (F := F) main_arg0 main_arg1 main_arg13 main_arg14 main_arg15 main_arg16 main_arg17 main_arg18 main_arg19 main_arg20 main_arg21 main_v48 main_v49 main_v50

def fn_part1 {F : FTy → Type} [FloatOps F] (main_arg0 : IVec S16384 32) (main_arg1 : IVec S16384 32) (main_arg6 : FVec F S50000x512 .f32) (main_arg7 : FVec F S50000x512 .f32) (main_arg8 : FVec F S512x1024 .f32) (main_arg9 : FVec F S512 .f32) (main_arg10 : FVec F S512x512 .f32) (main_arg11 : FVec F S512 .f32) (main_arg12 : FVec F S1x512 .f32) (main_arg13 : FVec F S1 .f32) (main_arg14 : FVec F S512x1024 .f32) (main_arg15 : FVec F S512 .f32) (main_arg16 : FVec F S512 .f32) (main_arg17 : FVec F S512 .f32) (main_arg18 : FVec F S512 .f32) (main_arg19 : FVec F S512 .f32) (main_arg20 : FVec F S1x512 .f32) (main_arg21 : FVec F S1 .f32) (main_v13 : IVec S_ 1) (main_v16 : IVec S50000x512 1) : IVec S_ 1 :=
  let main_c_5 : IVec S_ 1 := constantI S_ 1 1#1
  let main_v17 : IVec S_ 1 := (fun x v => Host.reduce IntOp.andi x v reducesTo_S50000x512_S_d0_1 h_S_) main_v16 main_c_5
  let main_v18 : IVec S_ 1 := andi main_v13 main_v17
  let main_v19 : FVec F S50000x512 .f32 := Host.absf main_arg6
  let main_cst_6 : FVec F S_ .f32 := constant S_ .f32 0x7F800000#32
  let main_v20 : FVec F S50000x512 .f32 := broadcastInDim S50000x512 ![] bcast_S_S50000x512 main_cst_6
  let main_v21 : IVec S50000x512 1 := cmpf .olt main_v19 main_v20
  let main_c_7 : IVec S_ 1 := constantI S_ 1 1#1
  let main_v22 : IVec S_ 1 := (fun x v => Host.reduce IntOp.andi x v reducesTo_S50000x512_S_d0_1 h_S_) main_v21 main_c_7
  let main_v23 : IVec S_ 1 := andi main_v18 main_v22
  let main_v24 : FVec F S50000x512 .f32 := Host.absf main_arg7
  let main_cst_8 : FVec F S_ .f32 := constant S_ .f32 0x7F800000#32
  let main_v25 : FVec F S50000x512 .f32 := broadcastInDim S50000x512 ![] bcast_S_S50000x512 main_cst_8
  let main_v26 : IVec S50000x512 1 := cmpf .olt main_v24 main_v25
  let main_c_9 : IVec S_ 1 := constantI S_ 1 1#1
  let main_v27 : IVec S_ 1 := (fun x v => Host.reduce IntOp.andi x v reducesTo_S50000x512_S_d0_1 h_S_) main_v26 main_c_9
  let main_v28 : IVec S_ 1 := andi main_v23 main_v27
  let main_v29 : FVec F S512x1024 .f32 := Host.absf main_arg8
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg0 main_arg1 main_arg9 main_arg10 main_arg11 main_arg12 main_arg13 main_arg14 main_arg15 main_arg16 main_arg17 main_arg18 main_arg19 main_arg20 main_arg21 main_v33

def fn {F : FTy → Type} [FloatOps F] (main_arg0 : IVec S16384 32) (main_arg1 : IVec S16384 32) (main_arg2 : FVec F S100000x512 .f32) (main_arg3 : FVec F S100000x512 .f32) (main_arg4 : FVec F S100000x512 .f32) (main_arg5 : FVec F S50000x512 .f32) (main_arg6 : FVec F S50000x512 .f32) (main_arg7 : FVec F S50000x512 .f32) (main_arg8 : FVec F S512x1024 .f32) (main_arg9 : FVec F S512 .f32) (main_arg10 : FVec F S512x512 .f32) (main_arg11 : FVec F S512 .f32) (main_arg12 : FVec F S1x512 .f32) (main_arg13 : FVec F S1 .f32) (main_arg14 : FVec F S512x1024 .f32) (main_arg15 : FVec F S512 .f32) (main_arg16 : FVec F S512 .f32) (main_arg17 : FVec F S512 .f32) (main_arg18 : FVec F S512 .f32) (main_arg19 : FVec F S512 .f32) (main_arg20 : FVec F S1x512 .f32) (main_arg21 : FVec F S1 .f32) : IVec S_ 1 :=
  let main_v0 : FVec F S100000x512 .f32 := Host.absf main_arg2
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S100000x512 .f32 := Host.absf main_arg3
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_v9 : FVec F S100000x512 .f32 := Host.absf main_arg4
  let main_cst_2 : FVec F S_ .f32 := constant S_ .f32 0x7F800000#32
  let main_v10 : FVec F S100000x512 .f32 := broadcastInDim S100000x512 ![] bcast_S_S100000x512 main_cst_2
  let main_v11 : IVec S100000x512 1 := cmpf .olt main_v9 main_v10
  let main_c_3 : IVec S_ 1 := constantI S_ 1 1#1
  let main_v12 : IVec S_ 1 := (fun x v => Host.reduce IntOp.andi x v reducesTo_S100000x512_S_d0_1 h_S_) main_v11 main_c_3
  let main_v13 : IVec S_ 1 := andi main_v8 main_v12
  let main_v14 : FVec F S50000x512 .f32 := Host.absf main_arg5
  let main_cst_4 : FVec F S_ .f32 := constant S_ .f32 0x7F800000#32
  let main_v15 : FVec F S50000x512 .f32 := broadcastInDim S50000x512 ![] bcast_S_S50000x512 main_cst_4
  let main_v16 : IVec S50000x512 1 := cmpf .olt main_v14 main_v15
  fn_part1 (F := F) main_arg0 main_arg1 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S16384 : Shape := ⟨1, ![16384]⟩
abbrev S100000x512 : Shape := ⟨2, ![100000, 512]⟩
abbrev S50000x512 : Shape := ⟨2, ![50000, 512]⟩
abbrev S512x1024 : Shape := ⟨2, ![512, 1024]⟩
abbrev S512 : Shape := ⟨1, ![512]⟩
abbrev S512x512 : Shape := ⟨2, ![512, 512]⟩
abbrev S1x512 : Shape := ⟨2, ![1, 512]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x512 : Shape := ⟨2, ![16384, 512]⟩
abbrev S1024x512 : Shape := ⟨2, ![1024, 512]⟩
abbrev S512x1 : Shape := ⟨2, ![512, 1]⟩
abbrev S1024x1 : Shape := ⟨2, ![1024, 1]⟩
abbrev S2048x512 : Shape := ⟨2, ![2048, 512]⟩
abbrev S2048x1 : Shape := ⟨2, ![2048, 1]⟩

abbrev nBuf : Space → Nat
  | .hbm => 187
  | .vmem => 28
  | .smem => 0
  | _ => 0

abbrev hbmTy0_0 (i : Nat) : BufTy := match i % 128 with
  | 0 => ⟨S16384, .i32⟩
  | 1 => ⟨S16384, .i32⟩
  | 2 => ⟨S100000x512, .f32⟩
  | 3 => ⟨S100000x512, .f32⟩
  | 4 => ⟨S100000x512, .f32⟩
  | 5 => ⟨S50000x512, .f32⟩
  | 6 => ⟨S50000x512, .f32⟩
  | 7 => ⟨S50000x512, .f32⟩
  | 8 => ⟨S512x1024, .f32⟩
  | 9 => ⟨S512, .f32⟩
  | 10 => ⟨S512x512, .f32⟩
  | 11 => ⟨S512, .f32⟩
  | 12 => ⟨S1x512, .f32⟩
  | 13 => ⟨S1, .f32⟩
  | 14 => ⟨S512x1024, .f32⟩
  | 15 => ⟨S512, .f32⟩
  | 16 => ⟨S512, .f32⟩
  | 17 => ⟨S512, .f32⟩
  | 18 => ⟨S512, .f32⟩
  | 19 => ⟨S512, .f32⟩
  | 20 => ⟨S1x512, .f32⟩
  | 21 => ⟨S1, .f32⟩
  | 22 => ⟨S_, .i32⟩
  | 23 => ⟨S16384, .i32⟩
  | 24 => ⟨S16384, .i1⟩
  | 25 => ⟨S_, .i32⟩
  | 26 => ⟨S16384, .i32⟩
  | 27 => ⟨S16384, .i32⟩
  | 28 => ⟨S16384, .i32⟩
  | 29 => ⟨S16384x1, .i32⟩
  | 30 => ⟨S1, .i32⟩
  | 31 => ⟨S_, .i32⟩
  | 32 => ⟨S16384x1, .i32⟩
  | 33 => ⟨S16384x1, .i1⟩
  | 34 => ⟨S1x1, .i32⟩
  | 35 => ⟨S16384x1, .i32⟩
  | 36 => ⟨S16384x1, .i1⟩
  | 37 => ⟨S16384x1, .i1⟩
  | 38 => ⟨S_, .i1⟩
  | 39 => ⟨S16384, .i1⟩
  | 40 => ⟨S16384x512, .f32⟩
  | 41 => ⟨S16384x512, .i1⟩
  | 42 => ⟨S_, .f32⟩
  | 43 => ⟨S16384x512, .f32⟩
  | 44 => ⟨S16384x512, .f32⟩
  | 45 => ⟨S16384x512, .bf16⟩
  | 46 => ⟨S_, .i32⟩
  | 47 => ⟨S16384, .i32⟩
  | 48 => ⟨S16384, .i1⟩
  | 49 => ⟨S_, .i32⟩
  | 50 => ⟨S16384, .i32⟩
  | 51 => ⟨S16384, .i32⟩
  | 52 => ⟨S16384, .i32⟩
  | 53 => ⟨S16384x1, .i32⟩
  | 54 => ⟨S1, .i32⟩
  | 55 => ⟨S_, .i32⟩
  | 56 => ⟨S16384x1, .i32⟩
  | 57 => ⟨S16384x1, .i1⟩
  | 58 => ⟨S1x1, .i32⟩
  | 59 => ⟨S16384x1, .i32⟩
  | 60 => ⟨S16384x1, .i1⟩
  | 61 => ⟨S16384x1, .i1⟩
  | 62 => ⟨S_, .i1⟩
  | 63 => ⟨S16384, .i1⟩
  | 64 => ⟨S16384x512, .f32⟩
  | 65 => ⟨S16384x512, .i1⟩
  | 66 => ⟨S_, .f32⟩
  | 67 => ⟨S16384x512, .f32⟩
  | 68 => ⟨S16384x512, .f32⟩
  | 69 => ⟨S16384x512, .bf16⟩
  | 70 => ⟨S_, .i32⟩
  | 71 => ⟨S16384, .i32⟩
  | 72 => ⟨S16384, .i1⟩
  | 73 => ⟨S_, .i32⟩
  | 74 => ⟨S16384, .i32⟩
  | 75 => ⟨S16384, .i32⟩
  | 76 => ⟨S16384, .i32⟩
  | 77 => ⟨S16384x1, .i32⟩
  | 78 => ⟨S1, .i32⟩
  | 79 => ⟨S_, .i32⟩
  | 80 => ⟨S16384x1, .i32⟩
  | 81 => ⟨S16384x1, .i1⟩
  | 82 => ⟨S1x1, .i32⟩
  | 83 => ⟨S16384x1, .i32⟩
  | 84 => ⟨S16384x1, .i1⟩
  | 85 => ⟨S16384x1, .i1⟩
  | 86 => ⟨S_, .i1⟩
  | 87 => ⟨S16384, .i1⟩
  | 88 => ⟨S16384x512, .f32⟩
  | 89 => ⟨S16384x512, .i1⟩
  | 90 => ⟨S_, .f32⟩
  | 91 => ⟨S16384x512, .f32⟩
  | 92 => ⟨S16384x512, .f32⟩
  | 93 => ⟨S16384x512, .bf16⟩
  | 94 => ⟨S_, .i32⟩
  | 95 => ⟨S16384, .i32⟩
  | 96 => ⟨S16384, .i1⟩
  | 97 => ⟨S_, .i32⟩
  | 98 => ⟨S16384, .i32⟩
  | 99 => ⟨S16384, .i32⟩
  | 100 => ⟨S16384, .i32⟩
  | 101 => ⟨S16384x1, .i32⟩
  | 102 => ⟨S1, .i32⟩
  | 103 => ⟨S_, .i32⟩
  | 104 => ⟨S16384x1, .i32⟩
  | 105 => ⟨S16384x1, .i1⟩
  | 106 => ⟨S1x1, .i32⟩
  | 107 => ⟨S16384x1, .i32⟩
  | 108 => ⟨S16384x1, .i1⟩
  | 109 => ⟨S16384x1, .i1⟩
  | 110 => ⟨S_, .i1⟩
  | 111 => ⟨S16384, .i1⟩
  | 112 => ⟨S16384x512, .f32⟩
  | 113 => ⟨S16384x512, .i1⟩
  | 114 => ⟨S_, .f32⟩
  | 115 => ⟨S16384x512, .f32⟩
  | 116 => ⟨S16384x512, .f32⟩
  | 117 => ⟨S16384x512, .bf16⟩
  | 118 => ⟨S_, .i32⟩
  | 119 => ⟨S16384, .i32⟩
  | 120 => ⟨S16384, .i1⟩
  | 121 => ⟨S_, .i32⟩
  | 122 => ⟨S16384, .i32⟩
  | 123 => ⟨S16384, .i32⟩
  | 124 => ⟨S16384, .i32⟩
  | 125 => ⟨S16384x1, .i32⟩
  | 126 => ⟨S1, .i32⟩
  | 127 => ⟨S_, .i32⟩
  | _ => ⟨S16384, .i32⟩

abbrev hbmTy0_1 (i : Nat) : BufTy := match i % 128 with
  | 0 => ⟨S16384x1, .i32⟩
  | 1 => ⟨S16384x1, .i1⟩
  | 2 => ⟨S1x1, .i32⟩
  | 3 => ⟨S16384x1, .i32⟩
  | 4 => ⟨S16384x1, .i1⟩
  | 5 => ⟨S16384x1, .i1⟩
  | 6 => ⟨S_, .i1⟩
  | 7 => ⟨S16384, .i1⟩
  | 8 => ⟨S16384x512, .f32⟩
  | 9 => ⟨S16384x512, .i1⟩
  | 10 => ⟨S_, .f32⟩
  | 11 => ⟨S16384x512, .f32⟩
  | 12 => ⟨S16384x512, .f32⟩
  | 13 => ⟨S16384x512, .bf16⟩
  | 14 => ⟨S_, .i32⟩
  | 15 => ⟨S16384, .i32⟩
  | 16 => ⟨S16384, .i1⟩
  | 17 => ⟨S_, .i32⟩
  | 18 => ⟨S16384, .i32⟩
  | 19 => ⟨S16384, .i32⟩
  | 20 => ⟨S16384, .i32⟩
  | 21 => ⟨S16384x1, .i32⟩
  | 22 => ⟨S1, .i32⟩
  | 23 => ⟨S_, .i32⟩
  | 24 => ⟨S16384x1, .i32⟩
  | 25 => ⟨S16384x1, .i1⟩
  | 26 => ⟨S1x1, .i32⟩
  | 27 => ⟨S16384x1, .i32⟩
  | 28 => ⟨S16384x1, .i1⟩
  | 29 => ⟨S16384x1, .i1⟩
  | 30 => ⟨S_, .i1⟩
  | 31 => ⟨S16384, .i1⟩
  | 32 => ⟨S16384x512, .f32⟩
  | 33 => ⟨S16384x512, .i1⟩
  | 34 => ⟨S_, .f32⟩
  | 35 => ⟨S16384x512, .f32⟩
  | 36 => ⟨S16384x512, .f32⟩
  | 37 => ⟨S16384x512, .bf16⟩
  | 38 => ⟨S1024x512, .f32⟩
  | 39 => ⟨S1024x512, .bf16⟩
  | 40 => ⟨S512x512, .f32⟩
  | 41 => ⟨S512x512, .bf16⟩
  | 42 => ⟨S512x1, .f32⟩
  | 43 => ⟨S512x1, .bf16⟩
  | 44 => ⟨S1024x512, .f32⟩
  | 45 => ⟨S1024x512, .bf16⟩
  | 46 => ⟨S512x1, .f32⟩
  | 47 => ⟨S512x1, .bf16⟩
  | 48 => ⟨S1x512, .f32⟩
  | 49 => ⟨S1x512, .f32⟩
  | 50 => ⟨S1x1, .f32⟩
  | 51 => ⟨S1x512, .f32⟩
  | 52 => ⟨S1x512, .f32⟩
  | 53 => ⟨S1x512, .f32⟩
  | 54 => ⟨S1x512, .f32⟩
  | 55 => ⟨S1x512, .f32⟩
  | 56 => ⟨S1x1, .f32⟩
  | 57 => ⟨S16384x1, .f32⟩
  | 58 => ⟨S16384, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1x512, .f32⟩
  | .local _ .vmem, ⟨14, _⟩ => ⟨S512x512, .bf16⟩
  | .local _ .vmem, ⟨15, _⟩ => ⟨S1x512, .f32⟩
  | .local _ .vmem, ⟨16, _⟩ => ⟨S512x1, .bf16⟩
  | .local _ .vmem, ⟨17, _⟩ => ⟨S1x1, .f32⟩
  | .local _ .vmem, ⟨18, _⟩ => ⟨S1024x512, .bf16⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S512x1, .bf16⟩
  | .local _ .vmem, ⟨25, _⟩ => ⟨S1x1, .f32⟩
  | .local _ .vmem, ⟨26, _⟩ => ⟨S1024x1, .f32⟩
  | .local _ .vmem, ⟨27, _⟩ => ⟨S1024x1, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v0 : Ref sig .tc := ⟨.hbm, 44, rfl⟩
abbrev main_v1 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v2 : Ref sig .tc := ⟨.hbm, 68, rfl⟩
abbrev main_v3 : Ref sig .tc := ⟨.hbm, 69, rfl⟩
abbrev main_call2_c : Ref sig .tc := ⟨.hbm, 70, rfl⟩
abbrev main_call2_v0 : Ref sig .tc := ⟨.hbm, 71, rfl⟩
abbrev main_call2_v1 : Ref sig .tc := ⟨.hbm, 72, rfl⟩
abbrev main_call2_c_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_c_1 : Ref sig .tc := ⟨.hbm, 78, rfl⟩
abbrev main_call2_c_2 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_call2_c_3 : Ref sig .tc := ⟨.hbm, 86, rfl⟩
abbrev main_call2_v12 : Ref sig .tc := ⟨.hbm, 87, rfl⟩
abbrev main_call2_v13 : Ref sig .tc := ⟨.hbm, 88, rfl⟩
abbrev main_call2_v14 : Ref sig .tc := ⟨.hbm, 89, rfl⟩
abbrev main_call2_cst : Ref sig .tc := ⟨.hbm, 90, rfl⟩
abbrev main_call2_v15 : Ref sig .tc := ⟨.hbm, 91, rfl⟩
abbrev main_v4 : Ref sig .tc := ⟨.hbm, 92, rfl⟩
abbrev main_v5 : Ref sig .tc := ⟨.hbm, 93, rfl⟩
abbrev main_call3_c : Ref sig .tc := ⟨.hbm, 94, rfl⟩
abbrev main_call3_v0 : Ref sig .tc := ⟨.hbm, 95, rfl⟩
abbrev main_call3_v1 : Ref sig .tc := ⟨.hbm, 96, rfl⟩
abbrev main_call3_c_0 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_v5 : Ref sig .tc := ⟨.hbm, 101, rfl⟩
abbrev main_call3_c_1 : Ref sig .tc := ⟨.hbm, 102, rfl⟩
abbrev main_call3_c_2 : Ref sig .tc := ⟨.hbm, 103, rfl⟩
abbrev main_call3_v6 : Ref sig .tc := ⟨.hbm, 104, rfl⟩
abbrev main_call3_v7 : Ref sig .tc := ⟨.hbm, 105, rfl⟩
abbrev main_call3_v8 : Ref sig .tc := ⟨.hbm, 106, rfl⟩
abbrev main_call3_v9 : Ref sig .tc := ⟨.hbm, 107, rfl⟩
abbrev main_call3_v10 : Ref sig .tc := ⟨.hbm, 108, rfl⟩
abbrev main_call3_v11 : Ref sig .tc := ⟨.hbm, 109, rfl⟩
abbrev main_call3_c_3 : Ref sig .tc := ⟨.hbm, 110, rfl⟩
abbrev main_call3_v12 : Ref sig .tc := ⟨.hbm, 111, rfl⟩
abbrev main_call3_v13 : Ref sig .tc := ⟨.hbm, 112, rfl⟩
abbrev main_call3_v14 : Ref sig .tc := ⟨.hbm, 113, rfl⟩
abbrev main_call3_cst : Ref sig .tc := ⟨.hbm, 114, rfl⟩
abbrev main_call3_v15 : Ref sig .tc := ⟨.hbm, 115, rfl⟩
abbrev main_v6 : Ref sig .tc := ⟨.hbm, 116, rfl⟩
abbrev main_v7 : Ref sig .tc := ⟨.hbm, 117, rfl⟩
abbrev main_call4_c : Ref sig .tc := ⟨.hbm, 118, rfl⟩
abbrev main_call4_v0 : Ref sig .tc := ⟨.hbm, 119, rfl⟩
abbrev main_call4_v1 : Ref sig .tc := ⟨.hbm, 120, rfl⟩
abbrev main_call4_c_0 : Ref sig .tc := ⟨.hbm, 121, rfl⟩
abbrev main_call4_v2 : Ref sig .tc := ⟨.hbm, 122, rfl⟩
abbrev main_call4_v3 : Ref sig .tc := ⟨.hbm, 123, rfl⟩
abbrev main_call4_v4 : Ref sig .tc := ⟨.hbm, 124, rfl⟩
abbrev main_call4_v5 : Ref sig .tc := ⟨.hbm, 125, rfl⟩
abbrev main_call4_c_1 : Ref sig .tc := ⟨.hbm, 126, rfl⟩
abbrev main_call4_c_2 : Ref sig .tc := ⟨.hbm, 127, rfl⟩
abbrev main_call4_v6 : Ref sig .tc := ⟨.hbm, 128, rfl⟩
abbrev main_call4_v7 : Ref sig .tc := ⟨.hbm, 129, rfl⟩
abbrev main_call4_v8 : Ref sig .tc := ⟨.hbm, 130, rfl⟩
abbrev main_call4_v9 : Ref sig .tc := ⟨.hbm, 131, rfl⟩
abbrev main_call4_v10 : Ref sig .tc := ⟨.hbm, 132, rfl⟩
abbrev main_call4_v11 : Ref sig .tc := ⟨.hbm, 133, rfl⟩
abbrev main_call4_c_3 : Ref sig .tc := ⟨.hbm, 134, rfl⟩
abbrev main_call4_v12 : Ref sig .tc := ⟨.hbm, 135, rfl⟩
abbrev main_call4_v13 : Ref sig .tc := ⟨.hbm, 136, rfl⟩
abbrev main_call4_v14 : Ref sig .tc := ⟨.hbm, 137, rfl⟩
abbrev main_call4_cst : Ref sig .tc := ⟨.hbm, 138, rfl⟩
abbrev main_call4_v15 : Ref sig .tc := ⟨.hbm, 139, rfl⟩
abbrev main_v8 : Ref sig .tc := ⟨.hbm, 140, rfl⟩
abbrev main_v9 : Ref sig .tc := ⟨.hbm, 141, rfl⟩
abbrev main_call5_c : Ref sig .tc := ⟨.hbm, 142, rfl⟩
abbrev main_call5_v0 : Ref sig .tc := ⟨.hbm, 143, rfl⟩
abbrev main_call5_v1 : Ref sig .tc := ⟨.hbm, 144, rfl⟩
abbrev main_call5_c_0 : Ref sig .tc := ⟨.hbm, 145, rfl⟩
abbrev main_call5_v2 : Ref sig .tc := ⟨.hbm, 146, rfl⟩
abbrev main_call5_v3 : Ref sig .tc := ⟨.hbm, 147, rfl⟩
abbrev main_call5_v4 : Ref sig .tc := ⟨.hbm, 148, rfl⟩
abbrev main_call5_v5 : Ref sig .tc := ⟨.hbm, 149, rfl⟩
abbrev main_call5_c_1 : Ref sig .tc := ⟨.hbm, 150, rfl⟩
abbrev main_call5_c_2 : Ref sig .tc := ⟨.hbm, 151, rfl⟩
abbrev main_call5_v6 : Ref sig .tc := ⟨.hbm, 152, rfl⟩
abbrev main_call5_v7 : Ref sig .tc := ⟨.hbm, 153, rfl⟩
abbrev main_call5_v8 : Ref sig .tc := ⟨.hbm, 154, rfl⟩
abbrev main_call5_v9 : Ref sig .tc := ⟨.hbm, 155, rfl⟩
abbrev main_call5_v10 : Ref sig .tc := ⟨.hbm, 156, rfl⟩
abbrev main_call5_v11 : Ref sig .tc := ⟨.hbm, 157, rfl⟩
abbrev main_call5_c_3 : Ref sig .tc := ⟨.hbm, 158, rfl⟩
abbrev main_call5_v12 : Ref sig .tc := ⟨.hbm, 159, rfl⟩
abbrev main_call5_v13 : Ref sig .tc := ⟨.hbm, 160, rfl⟩
abbrev main_call5_v14 : Ref sig .tc := ⟨.hbm, 161, rfl⟩
abbrev main_call5_cst : Ref sig .tc := ⟨.hbm, 162, rfl⟩
abbrev main_call5_v15 : Ref sig .tc := ⟨.hbm, 163, rfl⟩
abbrev main_v10 : Ref sig .tc := ⟨.hbm, 164, rfl⟩
abbrev main_v11 : Ref sig .tc := ⟨.hbm, 165, rfl⟩
abbrev main_v12 : Ref sig .tc := ⟨.hbm, 166, rfl⟩
abbrev main_v13 : Ref sig .tc := ⟨.hbm, 167, rfl⟩
abbrev main_v14 : Ref sig .tc := ⟨.hbm, 168, rfl⟩
abbrev main_v15 : Ref sig .tc := ⟨.hbm, 169, rfl⟩
abbrev main_v16 : Ref sig .tc := ⟨.hbm, 170, rfl⟩
abbrev main_v17 : Ref sig .tc := ⟨.hbm, 171, rfl⟩
abbrev main_v18 : Ref sig .tc := ⟨.hbm, 172, rfl⟩
abbrev main_v19 : Ref sig .tc := ⟨.hbm, 173, rfl⟩
abbrev main_v20 : Ref sig .tc := ⟨.hbm, 174, rfl⟩
abbrev main_v21 : Ref sig .tc := ⟨.hbm, 175, rfl⟩
abbrev main_v22 : Ref sig .tc := ⟨.hbm, 176, rfl⟩
abbrev main_v23 : Ref sig .tc := ⟨.hbm, 177, rfl⟩
abbrev main_v24 : Ref sig .tc := ⟨.hbm, 178, rfl⟩
abbrev main_v25 : Ref sig .tc := ⟨.hbm, 179, rfl⟩
abbrev main_v26 : Ref sig .tc := ⟨.hbm, 180, rfl⟩
abbrev main_v27 : Ref sig .tc := ⟨.hbm, 181, rfl⟩
abbrev main_v28 : Ref sig .tc := ⟨.hbm, 182, rfl⟩
abbrev main_v29 : Ref sig .tc := ⟨.hbm, 183, rfl⟩
abbrev main_v30 : Ref sig .tc := ⟨.hbm, 184, rfl⟩
abbrev main_v31 : Ref sig .tc := ⟨.hbm, 185, rfl⟩
abbrev main_v32 : Ref sig .tc := ⟨.hbm, 186, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg20_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem20_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x1 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S1024x1 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x512_0 : S16384.BroadcastsInDim S16384x512 (![0] : Fin 1 → Fin S16384x512.rank)
  bcast_S_S16384x512 : S_.BroadcastsInDim S16384x512 (![] : Fin 0 → Fin S16384x512.rank)
  bitsLt_bf16_f32 : FTy.bits .bf16 < FTy.bits .f32
  transposes_S512x1024_S1024x512_1_0 : S512x1024.Transposes [1, 0] S1024x512
  transposes_S512x512_S512x512_1_0 : S512x512.Transposes [1, 0] S512x512
  transposes_S1x512_S512x1_1_0 : S1x512.Transposes [1, 0] S512x1
  shapeCasts_S512_S1x512 : S512.ShapeCasts S1x512
  shapeCasts_S1_S1x1 : S1.ShapeCasts S1x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  slices_S1024x512_o0_0_S512x512 : S1024x512.Slices ![0, 0] S512x512
  slices_S1024x512_o512_0_S512x512 : S1024x512.Slices ![512, 0] S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  concatenates_S1024x512_S1024x512_S2048x512_d0 : Shape.Concatenates [S1024x512, S1024x512] S2048x512 0
  slices_S2048x512_o0_0_S1024x512 : S2048x512.Slices ![0, 0] S1024x512
  broadcasts_S1x512_S1024x512 : S1x512.Broadcasts S1024x512
  slices_S2048x512_o1024_0_S1024x512 : S2048x512.Slices ![1024, 0] S1024x512
  broadcasts_S1x512_S2048x512 : S1x512.Broadcasts S2048x512
  broadcasts_S1x1_S2048x1 : S1x1.Broadcasts S2048x1
  slices_S2048x1_o0_0_S1024x1 : S2048x1.Slices ![0, 0] S1024x1
  slices_S2048x1_o1024_0_S1024x1 : S2048x1.Slices ![1024, 0] S1024x1
  broadcasts_S1024x1_S1024x512 : S1024x1.Broadcasts S1024x512
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  shapeCasts_S16384x1_S16384 : S16384x1.ShapeCasts S16384
  gather_S100000x512_S16384x1_S16384x512_1_0_n_n_0_1_1512_wf : GatherDims.WF S100000x512 S16384x1 S16384x512 [1] [0] [] [0] [] 1 ![1, 512]
  gather_S50000x512_S16384x1_S16384x512_1_0_n_n_0_1_1512_wf : GatherDims.WF S50000x512 S16384x1 S16384x512 [1] [0] [] [0] [] 1 ![1, 512]
  dot_S1024x512_S512x512_S1024x512_1_0_0_1_n_n_wf : DotDims.WF S1024x512 S512x512 S1024x512 [1] [0] [0] [1] [] []
  dot_S2048x512_S512x512_S2048x512_1_0_0_1_n_n_wf : DotDims.WF S2048x512 S512x512 S2048x512 [1] [0] [0] [1] [] []
  dot_S2048x512_S512x1_S2048x1_1_0_0_1_n_n_wf : DotDims.WF S2048x512 S512x1 S2048x1 [1] [0] [0] [1] [] []
  dot_S1024x512_S512x1_S1024x1_1_0_0_1_n_n_wf : DotDims.WF S1024x512 S512x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .bf16 = 32 ∨ (Rect.block (s := S16384x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .bf16 = 32 ∨ (Rect.block (s := S16384x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S16384x512.size a
  hwx0_2 : ∀ i : grid0.Coords, EltTy.bits .bf16 = 32 ∨ (Rect.block (s := S16384x512) S1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S16384x512.size a
  hwx0_3 : ∀ i : grid0.Coords, EltTy.bits .bf16 = 32 ∨ (Rect.block (s := S16384x512) S1024x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S16384x512.size a
  hwx0_4 : ∀ i : grid0.Coords, EltTy.bits .bf16 = 32 ∨ (Rect.block (s := S16384x512) S1024x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S16384x512.size a
  hwx0_5 : ∀ i : grid0.Coords, EltTy.bits .bf16 = 32 ∨ (Rect.block (s := S16384x512) S1024x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S1024x512.size a
  hwx0_6 : ∀ i : grid0.Coords, EltTy.bits .bf16 = 32 ∨ (Rect.block (s := S1024x512) S1024x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .bf16 = 32 ∨ (Rect.block (s := S512x512) S512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x1.size a ≤ S512x1.size a
  hwx0_10 : ∀ i : grid0.Coords, EltTy.bits .bf16 = 32 ∨ (Rect.block (s := S512x1) S512x1.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x512.size a ≤ S1024x512.size a
  hwx0_12 : ∀ i : grid0.Coords, EltTy.bits .bf16 = 32 ∨ (Rect.block (s := S1024x512) S1024x512.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x512.size a ≤ S1x512.size a
  hwx0_13 : ∀ i : grid0.Coords, EltTy.bits .f32 = 32 ∨ (Rect.block (s := S1x512) S1x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x512.size a ≤ S1x512.size a
  hwx0_14 : ∀ i : grid0.Coords, EltTy.bits .f32 = 32 ∨ (Rect.block (s := S1x512) S1x512.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x512.size a ≤ S1x512.size a
  hwx0_15 : ∀ i : grid0.Coords, EltTy.bits .f32 = 32 ∨ (Rect.block (s := S1x512) S1x512.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x512.size a ≤ S1x512.size a
  hwx0_16 : ∀ i : grid0.Coords, EltTy.bits .f32 = 32 ∨ (Rect.block (s := S1x512) S1x512.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x512.size a ≤ S1x512.size a
  hwx0_17 : ∀ i : grid0.Coords, EltTy.bits .f32 = 32 ∨ (Rect.block (s := S1x512) S1x512.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S512x1.size a ≤ S512x1.size a
  hwx0_18 : ∀ i : grid0.Coords, EltTy.bits .bf16 = 32 ∨ (Rect.block (s := S512x1) S512x1.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x1.size a ≤ S1x1.size a
  hwx0_19 : ∀ i : grid0.Coords, EltTy.bits .f32 = 32 ∨ (Rect.block (s := S1x1) S1x1.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S1024x1.size a ≤ S16384x1.size a
  hwx0_20 : ∀ i : grid0.Coords, EltTy.bits .f32 = 32 ∨ (Rect.block (s := S16384x1) S1024x1.size (cc0_transform_20 i) (hinb0_20 i)).WholeWords (EltTy.packing .f32)

variable [Facts₀]

def gather_S100000x512_S16384x1_S16384x512_1_0_n_n_0_1_1512 : GatherDims S100000x512 S16384x1 S16384x512 where
  offsetDims := [1]
  collapsedSliceDims := [0]
  operandBatchingDims := []
  startIndicesBatchingDims := []
  startIndexMap := [0]
  indexVectorDim := 1
  sliceSizes := ![1, 512]
  wf := gather_S100000x512_S16384x1_S16384x512_1_0_n_n_0_1_1512_wf
def gather_S50000x512_S16384x1_S16384x512_1_0_n_n_0_1_1512 : GatherDims S50000x512 S16384x1 S16384x512 where
  offsetDims := [1]
  collapsedSliceDims := [0]
  operandBatchingDims := []
  startIndicesBatchingDims := []
  startIndexMap := [0]
  indexVectorDim := 1
  sliceSizes := ![1, 512]
  wf := gather_S50000x512_S16384x1_S16384x512_1_0_n_n_0_1_1512_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x1_S2048x1_1_0_0_1_n_n : DotDims S2048x512 S512x1 S2048x1 where
  lhsContracting := [1]
  rhsContracting := [0]
  lhsNonContracting := [0]
  rhsNonContracting := [1]
  lhsBatch := []
  rhsBatch := []
  wf := dot_S2048x512_S512x1_S2048x1_1_0_0_1_n_n_wf
def dot_S1024x512_S512x1_S1024x1_1_0_0_1_n_n : DotDims S1024x512 S512x1 S1024x1 where
  lhsContracting := [1]
  rhsContracting := [0]
  lhsNonContracting := [0]
  rhsNonContracting := [1]
  lhsBatch := []
  rhsBatch := []
  wf := dot_S1024x512_S512x1_S1024x1_1_0_0_1_n_n_wf

abbrev win0_0 : Pipeline.Window sig grid0 :=
  Pipeline.Window.ofSpec (Memref.whole main_v1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1024x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1024x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17) S512x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v24) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v19) S1024x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v25) S1x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v26) S1x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v27) S1x512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v28) S1x512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v29) S1x512.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v21) S512x1.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v30) S1x1.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v31) S1024x1.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S16384 : Shape := ⟨1, ![16384]⟩
abbrev S100000x512 : Shape := ⟨2, ![100000, 512]⟩
abbrev S50000x512 : Shape := ⟨2, ![50000, 512]⟩
abbrev S512x1024 : Shape := ⟨2, ![512, 1024]⟩
abbrev S512 : Shape := ⟨1, ![512]⟩
abbrev S512x512 : Shape := ⟨2, ![512, 512]⟩
abbrev S1x512 : Shape := ⟨2, ![1, 512]⟩
abbrev S1 : Shape := ⟨1, ![1]⟩
abbrev S_ : Shape := ⟨0, ![]⟩
abbrev S16384x1 : Shape := ⟨2, ![16384, 1]⟩
abbrev S16384x512 : Shape := ⟨2, ![16384, 512]⟩
abbrev S16384x1024 : Shape := ⟨2, ![16384, 1024]⟩
abbrev S1024x512 : Shape := ⟨2, ![1024, 512]⟩
abbrev S512x1 : Shape := ⟨2, ![512, 1]⟩
abbrev S1x1 : Shape := ⟨2, ![1, 1]⟩
abbrev S16384x2 : Shape := ⟨2, ![16384, 2]⟩

abbrev nBuf : Space → Nat
  | .hbm => 239
  | .vmem => 0
  | .smem => 0
  | _ => 0

abbrev hbmTy0_0 (i : Nat) : BufTy := match i % 128 with
  | 0 => ⟨S16384, .i32⟩
  | 1 => ⟨S16384, .i32⟩
  | 2 => ⟨S100000x512, .f32⟩
  | 3 => ⟨S100000x512, .f32⟩
  | 4 => ⟨S100000x512, .f32⟩
  | 5 => ⟨S50000x512, .f32⟩
  | 6 => ⟨S50000x512, .f32⟩
  | 7 => ⟨S50000x512, .f32⟩
  | 8 => ⟨S512x1024, .f32⟩
  | 9 => ⟨S512, .f32⟩
  | 10 => ⟨S512x512, .f32⟩
  | 11 => ⟨S512, .f32⟩
  | 12 => ⟨S1x512, .f32⟩
  | 13 => ⟨S1, .f32⟩
  | 14 => ⟨S512x1024, .f32⟩
  | 15 => ⟨S512, .f32⟩
  | 16 => ⟨S512, .f32⟩
  | 17 => ⟨S512, .f32⟩
  | 18 => ⟨S512, .f32⟩
  | 19 => ⟨S512, .f32⟩
  | 20 => ⟨S1x512, .f32⟩
  | 21 => ⟨S1, .f32⟩
  | 22 => ⟨S_, .i32⟩
  | 23 => ⟨S16384, .i32⟩
  | 24 => ⟨S16384, .i1⟩
  | 25 => ⟨S_, .i32⟩
  | 26 => ⟨S16384, .i32⟩
  | 27 => ⟨S16384, .i32⟩
  | 28 => ⟨S16384, .i32⟩
  | 29 => ⟨S16384x1, .i32⟩
  | 30 => ⟨S16384x512, .f32⟩
  | 31 => ⟨S_, .i32⟩
  | 32 => ⟨S16384, .i32⟩
  | 33 => ⟨S16384, .i1⟩
  | 34 => ⟨S_, .i32⟩
  | 35 => ⟨S16384, .i32⟩
  | 36 => ⟨S16384, .i32⟩
  | 37 => ⟨S16384, .i32⟩
  | 38 => ⟨S16384x1, .i32⟩
  | 39 => ⟨S16384x512, .f32⟩
  | 40 => ⟨S_, .i32⟩
  | 41 => ⟨S16384, .i32⟩
  | 42 => ⟨S16384, .i1⟩
  | 43 => ⟨S_, .i32⟩
  | 44 => ⟨S16384, .i32⟩
  | 45 => ⟨S16384, .i32⟩
  | 46 => ⟨S16384, .i32⟩
  | 47 => ⟨S16384x1, .i32⟩
  | 48 => ⟨S16384x512, .f32⟩
  | 49 => ⟨S16384x1024, .f32⟩
  | 50 => ⟨S1024x512, .f32⟩
  | 51 => ⟨S16384x512, .f32⟩
  | 52 => ⟨S1x512, .f32⟩
  | 53 => ⟨S16384x512, .f32⟩
  | 54 => ⟨S16384x512, .f32⟩
  | 55 => ⟨S_, .f32⟩
  | 56 => ⟨S16384x512, .f32⟩
  | 57 => ⟨S16384x512, .f32⟩
  | 58 => ⟨S512x512, .f32⟩
  | 59 => ⟨S16384x512, .f32⟩
  | 60 => ⟨S1x512, .f32⟩
  | 61 => ⟨S16384x512, .f32⟩
  | 62 => ⟨S16384x512, .f32⟩
  | 63 => ⟨S_, .f32⟩
  | 64 => ⟨S16384x512, .f32⟩
  | 65 => ⟨S16384x512, .f32⟩
  | 66 => ⟨S512x1, .f32⟩
  | 67 => ⟨S16384x1, .f32⟩
  | 68 => ⟨S1x1, .f32⟩
  | 69 => ⟨S16384x1, .f32⟩
  | 70 => ⟨S16384x1, .f32⟩
  | 71 => ⟨S16384x1024, .f32⟩
  | 72 => ⟨S1024x512, .f32⟩
  | 73 => ⟨S16384x512, .f32⟩
  | 74 => ⟨S1x512, .f32⟩
  | 75 => ⟨S16384x512, .f32⟩
  | 76 => ⟨S16384x512, .f32⟩
  | 77 => ⟨S_, .f32⟩
  | 78 => ⟨S16384x512, .f32⟩
  | 79 => ⟨S16384x512, .f32⟩
  | 80 => ⟨S512x512, .f32⟩
  | 81 => ⟨S16384x512, .f32⟩
  | 82 => ⟨S1x512, .f32⟩
  | 83 => ⟨S16384x512, .f32⟩
  | 84 => ⟨S16384x512, .f32⟩
  | 85 => ⟨S_, .f32⟩
  | 86 => ⟨S16384x512, .f32⟩
  | 87 => ⟨S16384x512, .f32⟩
  | 88 => ⟨S512x1, .f32⟩
  | 89 => ⟨S16384x1, .f32⟩
  | 90 => ⟨S1x1, .f32⟩
  | 91 => ⟨S16384x1, .f32⟩
  | 92 => ⟨S16384x1, .f32⟩
  | 93 => ⟨S16384x2, .f32⟩
  | 94 => ⟨S_, .f32⟩
  | 95 => ⟨S16384, .f32⟩
  | 96 => ⟨S_, .f32⟩
  | 97 => ⟨S16384, .f32⟩
  | 98 => ⟨S16384, .f32⟩
  | 99 => ⟨S16384x1, .f32⟩
  | 100 => ⟨S16384x2, .f32⟩
  | 101 => ⟨S16384x2, .f32⟩
  | 102 => ⟨S16384x2, .f32⟩
  | 103 => ⟨S_, .f32⟩
  | 104 => ⟨S16384, .f32⟩
  | 105 => ⟨S16384x1, .f32⟩
  | 106 => ⟨S16384x2, .f32⟩
  | 107 => ⟨S16384x2, .f32⟩
  | 108 => ⟨S16384x1, .f32⟩
  | 109 => ⟨S16384x512, .f32⟩
  | 110 => ⟨S16384x512, .f32⟩
  | 111 => ⟨S16384x1, .f32⟩
  | 112 => ⟨S16384x512, .f32⟩
  | 113 => ⟨S16384x512, .f32⟩
  | 114 => ⟨S16384x512, .f32⟩
  | 115 => ⟨S_, .i32⟩
  | 116 => ⟨S16384, .i32⟩
  | 117 => ⟨S16384, .i1⟩
  | 118 => ⟨S_, .i32⟩
  | 119 => ⟨S16384, .i32⟩
  | 120 => ⟨S16384, .i32⟩
  | 121 => ⟨S16384, .i32⟩
  | 122 => ⟨S16384x1, .i32⟩
  | 123 => ⟨S16384x512, .f32⟩
  | 124 => ⟨S_, .i32⟩
  | 125 => ⟨S16384, .i32⟩
  | 126 => ⟨S16384, .i1⟩
  | 127 => ⟨S_, .i32⟩
  | _ => ⟨S16384, .i32⟩

abbrev hbmTy0_1 (i : Nat) : BufTy := match i % 128 with
  | 0 => ⟨S16384, .i32⟩
  | 1 => ⟨S16384, .i32⟩
  | 2 => ⟨S16384, .i32⟩
  | 3 => ⟨S16384x1, .i32⟩
  | 4 => ⟨S16384x512, .f32⟩
  | 5 => ⟨S_, .i32⟩
  | 6 => ⟨S16384, .i32⟩
  | 7 => ⟨S16384, .i1⟩
  | 8 => ⟨S_, .i32⟩
  | 9 => ⟨S16384, .i32⟩
  | 10 => ⟨S16384, .i32⟩
  | 11 => ⟨S16384, .i32⟩
  | 12 => ⟨S16384x1, .i32⟩
  | 13 => ⟨S16384x512, .f32⟩
  | 14 => ⟨S16384x1024, .f32⟩
  | 15 => ⟨S1024x512, .f32⟩
  | 16 => ⟨S16384x512, .f32⟩
  | 17 => ⟨S1x512, .f32⟩
  | 18 => ⟨S16384x512, .f32⟩
  | 19 => ⟨S16384x512, .f32⟩
  | 20 => ⟨S_, .f32⟩
  | 21 => ⟨S16384x512, .f32⟩
  | 22 => ⟨S16384x512, .f32⟩
  | 23 => ⟨S512x512, .f32⟩
  | 24 => ⟨S16384x512, .f32⟩
  | 25 => ⟨S1x512, .f32⟩
  | 26 => ⟨S16384x512, .f32⟩
  | 27 => ⟨S16384x512, .f32⟩
  | 28 => ⟨S_, .f32⟩
  | 29 => ⟨S16384x512, .f32⟩
  | 30 => ⟨S16384x512, .f32⟩
  | 31 => ⟨S512x1, .f32⟩
  | 32 => ⟨S16384x1, .f32⟩
  | 33 => ⟨S1x1, .f32⟩
  | 34 => ⟨S16384x1, .f32⟩
  | 35 => ⟨S16384x1, .f32⟩
  | 36 => ⟨S16384x1024, .f32⟩
  | 37 => ⟨S1024x512, .f32⟩
  | 38 => ⟨S16384x512, .f32⟩
  | 39 => ⟨S1x512, .f32⟩
  | 40 => ⟨S16384x512, .f32⟩
  | 41 => ⟨S16384x512, .f32⟩
  | 42 => ⟨S_, .f32⟩
  | 43 => ⟨S16384x512, .f32⟩
  | 44 => ⟨S16384x512, .f32⟩
  | 45 => ⟨S512x512, .f32⟩
  | 46 => ⟨S16384x512, .f32⟩
  | 47 => ⟨S1x512, .f32⟩
  | 48 => ⟨S16384x512, .f32⟩
  | 49 => ⟨S16384x512, .f32⟩
  | 50 => ⟨S_, .f32⟩
  | 51 => ⟨S16384x512, .f32⟩
  | 52 => ⟨S16384x512, .f32⟩
  | 53 => ⟨S512x1, .f32⟩
  | 54 => ⟨S16384x1, .f32⟩
  | 55 => ⟨S1x1, .f32⟩
  | 56 => ⟨S16384x1, .f32⟩
  | 57 => ⟨S16384x1, .f32⟩
  | 58 => ⟨S16384x2, .f32⟩
  | 59 => ⟨S_, .f32⟩
  | 60 => ⟨S16384, .f32⟩
  | 61 => ⟨S_, .f32⟩
  | 62 => ⟨S16384, .f32⟩
  | 63 => ⟨S16384, .f32⟩
  | 64 => ⟨S16384x1, .f32⟩
  | 65 => ⟨S16384x2, .f32⟩
  | 66 => ⟨S16384x2, .f32⟩
  | 67 => ⟨S16384x2, .f32⟩
  | 68 => ⟨S_, .f32⟩
  | 69 => ⟨S16384, .f32⟩
  | 70 => ⟨S16384x1, .f32⟩
  | 71 => ⟨S16384x2, .f32⟩
  | 72 => ⟨S16384x2, .f32⟩
  | 73 => ⟨S16384x1, .f32⟩
  | 74 => ⟨S16384x512, .f32⟩
  | 75 => ⟨S16384x512, .f32⟩
  | 76 => ⟨S16384x1, .f32⟩
  | 77 => ⟨S16384x512, .f32⟩
  | 78 => ⟨S16384x512, .f32⟩
  | 79 => ⟨S16384x512, .f32⟩
  | 80 => ⟨S16384x1024, .f32⟩
  | 81 => ⟨S1024x512, .f32⟩
  | 82 => ⟨S16384x512, .f32⟩
  | 83 => ⟨S1x512, .f32⟩
  | 84 => ⟨S16384x512, .f32⟩
  | 85 => ⟨S16384x512, .f32⟩
  | 86 => ⟨S1x512, .f32⟩
  | 87 => ⟨S16384x512, .f32⟩
  | 88 => ⟨S16384x512, .f32⟩
  | 89 => ⟨S1x512, .f32⟩
  | 90 => ⟨S16384x512, .f32⟩
  | 91 => ⟨S16384x512, .f32⟩
  | 92 => ⟨S_, .f32⟩
  | 93 => ⟨S512, .f32⟩
  | 94 => ⟨S512, .f32⟩
  | 95 => ⟨S512, .f32⟩
  | 96 => ⟨S1x512, .f32⟩
  | 97 => ⟨S16384x512, .f32⟩
  | 98 => ⟨S16384x512, .f32⟩
  | 99 => ⟨S1x512, .f32⟩
  | 100 => ⟨S16384x512, .f32⟩
  | 101 => ⟨S16384x512, .f32⟩
  | 102 => ⟨S_, .f32⟩
  | 103 => ⟨S16384x512, .f32⟩
  | 104 => ⟨S16384x512, .f32⟩
  | 105 => ⟨S512x1, .f32⟩
  | 106 => ⟨S16384x1, .f32⟩
  | 107 => ⟨S1x1, .f32⟩
  | 108 => ⟨S16384x1, .f32⟩
  | 109 => ⟨S16384x1, .f32⟩
  | 110 => ⟨S16384, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_c_1 : Ref sig .tc := ⟨.hbm, 31, rfl⟩
abbrev main_v7 : Ref sig .tc := ⟨.hbm, 32, rfl⟩
abbrev main_v8 : Ref sig .tc := ⟨.hbm, 33, rfl⟩
abbrev main_c_2 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_c_3 : Ref sig .tc := ⟨.hbm, 40, rfl⟩
abbrev main_v14 : Ref sig .tc := ⟨.hbm, 41, rfl⟩
abbrev main_v15 : Ref sig .tc := ⟨.hbm, 42, rfl⟩
abbrev main_c_4 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_call0_cst : Ref sig .tc := ⟨.hbm, 55, rfl⟩
abbrev main_call0_v0 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_call1_cst : Ref sig .tc := ⟨.hbm, 63, rfl⟩
abbrev main_call1_v0 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_call2_cst : Ref sig .tc := ⟨.hbm, 77, rfl⟩
abbrev main_call2_v0 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_call3_cst : Ref sig .tc := ⟨.hbm, 85, rfl⟩
abbrev main_call3_v0 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst : Ref sig .tc := ⟨.hbm, 94, rfl⟩
abbrev main_v58 : Ref sig .tc := ⟨.hbm, 95, rfl⟩
abbrev main_cst_5 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_6 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_c_7 : Ref sig .tc := ⟨.hbm, 115, rfl⟩
abbrev main_v76 : Ref sig .tc := ⟨.hbm, 116, rfl⟩
abbrev main_v77 : Ref sig .tc := ⟨.hbm, 117, rfl⟩
abbrev main_c_8 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_c_9 : Ref sig .tc := ⟨.hbm, 124, rfl⟩
abbrev main_v83 : Ref sig .tc := ⟨.hbm, 125, rfl⟩
abbrev main_v84 : Ref sig .tc := ⟨.hbm, 126, rfl⟩
abbrev main_c_10 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_c_11 : Ref sig .tc := ⟨.hbm, 133, rfl⟩
abbrev main_v90 : Ref sig .tc := ⟨.hbm, 134, rfl⟩
abbrev main_v91 : Ref sig .tc := ⟨.hbm, 135, rfl⟩
abbrev main_c_12 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_call4_cst : Ref sig .tc := ⟨.hbm, 148, rfl⟩
abbrev main_call4_v0 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_call5_cst : Ref sig .tc := ⟨.hbm, 156, rfl⟩
abbrev main_call5_v0 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_call6_cst : Ref sig .tc := ⟨.hbm, 170, rfl⟩
abbrev main_call6_v0 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_call7_cst : Ref sig .tc := ⟨.hbm, 178, rfl⟩
abbrev main_call7_v0 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_cst_13 : Ref sig .tc := ⟨.hbm, 187, rfl⟩
abbrev main_v134 : Ref sig .tc := ⟨.hbm, 188, rfl⟩
abbrev main_cst_14 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_cst_15 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_cst_16 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_call8_cst : Ref sig .tc := ⟨.hbm, 230, rfl⟩
abbrev main_call8_v0 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  concatenates_S16384x512_S16384x512_S16384x1024_d1 : Shape.Concatenates [S16384x512, S16384x512] S16384x1024 1
  transposes_S512x1024_S1024x512_1_0 : S512x1024.Transposes [1, 0] S1024x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  transposes_S512x512_S512x512_1_0 : S512x512.Transposes [1, 0] S512x512
  transposes_S1x512_S512x1_1_0 : S1x512.Transposes [1, 0] S512x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  concatenates_S16384x1_S16384x1_S16384x2_d1 : Shape.Concatenates [S16384x1, S16384x1] S16384x2 1
  reducesTo_S16384x2_S16384_d1 : S16384x2.ReducesTo [1] S16384
  h_S_ : 0 < S_.numel
  bcast_S16384x1_S16384x2_0_1 : S16384x1.BroadcastsInDim S16384x2 (![0, 1] : Fin 2 → Fin S16384x2.rank)
  slices_S16384x2_S16384x1_0_0 : S16384x2.Slices ![0, 0] S16384x1
  bcast_S16384x1_S16384x512_0_1 : S16384x1.BroadcastsInDim S16384x512 (![0, 1] : Fin 2 → Fin S16384x512.rank)
  slices_S16384x2_S16384x1_0_1 : S16384x2.Slices ![0, 1] S16384x1
  bcast_S_S512 : S_.BroadcastsInDim S512 (![] : Fin 0 → Fin S512.rank)
  shapeCasts_S16384x1_S16384 : S16384x1.ShapeCasts S16384
  gather_S100000x512_S16384x1_S16384x512_1_0_n_n_0_1_1512_wf : GatherDims.WF S100000x512 S16384x1 S16384x512 [1] [0] [] [0] [] 1 ![1, 512]
  dot_S16384x1024_S1024x512_S16384x512_1_0_0_1_n_n_wf : DotDims.WF S16384x1024 S1024x512 S16384x512 [1] [0] [0] [1] [] []
  dot_S16384x512_S512x512_S16384x512_1_0_0_1_n_n_wf : DotDims.WF S16384x512 S512x512 S16384x512 [1] [0] [0] [1] [] []
  dot_S16384x512_S512x1_S16384x1_1_0_0_1_n_n_wf : DotDims.WF S16384x512 S512x1 S16384x1 [1] [0] [0] [1] [] []
  gather_S50000x512_S16384x1_S16384x512_1_0_n_n_0_1_1512_wf : GatherDims.WF S50000x512 S16384x1 S16384x512 [1] [0] [] [0] [] 1 ![1, 512]

variable [Facts₀]

def gather_S100000x512_S16384x1_S16384x512_1_0_n_n_0_1_1512 : GatherDims S100000x512 S16384x1 S16384x512 where
  offsetDims := [1]
  collapsedSliceDims := [0]
  operandBatchingDims := []
  startIndicesBatchingDims := []
  startIndexMap := [0]
  indexVectorDim := 1
  sliceSizes := ![1, 512]
  wf := gather_S100000x512_S16384x1_S16384x512_1_0_n_n_0_1_1512_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S16384x512_S512x1_S16384x1_1_0_0_1_n_n : DotDims S16384x512 S512x1 S16384x1 where
  lhsContracting := [1]
  rhsContracting := [0]
  lhsNonContracting := [0]
  rhsNonContracting := [1]
  lhsBatch := []
  rhsBatch := []
  wf := dot_S16384x512_S512x1_S16384x1_1_0_0_1_n_n_wf
def gather_S50000x512_S16384x1_S16384x512_1_0_n_n_0_1_1512 : GatherDims S50000x512 S16384x1 S16384x512 where
  offsetDims := [1]
  collapsedSliceDims := [0]
  operandBatchingDims := []
  startIndicesBatchingDims := []
  startIndexMap := [0]
  indexVectorDim := 1
  sliceSizes := ![1, 512]
  wf := gather_S50000x512_S16384x1_S16384x512_1_0_n_n_0_1_1512_wf

class Facts : Prop extends Facts₀ where

variable [Facts]
-- ==== Proof.Spec.lean ====
/-
  The function that both programs compute, written once on the extended reals, one batch row at a time.

  A row of the batch carries six gathered embedding rows of width 512: for the user side `z`, `c` and the "full"
  row `f`, and the same three for the item side. An attention score of a row `x` beside `f` is a three-layer
  perceptron of the concatenation `x ++ f` (width 1024): two relu layers of width 512 and a linear read-out. The
  first layer's product with the 512 × 1024 weight is written here as the sum of its two halves — the columns that
  meet `x` and the columns that meet `f` —, which is how one of the programs computes it; `sum_halves` is the
  law that joins it to a single sum over 1024. The two scores of a side, `s_z` and `s_c`, become softmax weights
  `e^{s - m} / (e^{s_z - m} + e^{s_c - m})` with `m = max s_z s_c`, and the fused row is the weighted sum of `z`
  and `c`. The head applies a linear layer of the concatenation `u ++ v` of the two fused rows (again as two
  halves), an affine normalisation `γ · (h − μ) · rsqrt (σ² + ε) + β`, a relu, and a linear read-out to one score.
-/
import Idealize.ShloMosaic.PureOps.Ideal
import Idealize.ShloMosaic.Lib.ValueIdx
import Mathlib.Algebra.BigOperators.Fin

noncomputable section

namespace Cert.Spec

open Idealize.ShloMosaic
open Idealize.ShloMosaic.ValueIdx (ix1 ix2)
open scoped BigOperators

/-- A sum of 1024 terms is the sum of the first 512 plus the sum of the last 512. Only commutativity and
    associativity of addition are used, so it holds on the extended reals with no finiteness. -/
theorem sum_halves {M : Type} [AddCommMonoid M] (g : Fin 1024 → M) :
    ∑ k : Fin 1024, g k = ∑ k : Fin 512, g (Fin.castAdd 512 k) + ∑ k : Fin 512, g (Fin.natAdd 512 k) :=
  Fin.sum_univ_add (a := 512) (b := 512) g

/-- The attention score of the row `x` beside the row `f`. `A1 l p` is the first layer's weight from input
    column `p` (of 1024: the first 512 meet `x`, the last 512 meet `f`) to hidden unit `l`. -/
def attScore (A1 : Fin 512 → Fin 1024 → EReal) (a1 : Fin 512 → EReal) (A2 : Fin 512 → Fin 512 → EReal)
    (a2 : Fin 512 → EReal) (A3 : Fin 512 → EReal) (a3 : EReal) (x f : Fin 512 → EReal) : EReal :=
  (∑ k : Fin 512,
      max ((∑ l : Fin 512,
          max (((∑ p : Fin 512, x p * A1 l (Fin.castAdd 512 p)) + ∑ p : Fin 512, f p * A1 l (Fin.natAdd 512 p)) + a1 l) 0
            * A2 k l) + a2 k) 0 * A3 k) + a3

/-- The fused row of one side: the softmax-weighted sum of `z` and `c`, the weights from their two scores. -/
def fuseRow (A1 : Fin 512 → Fin 1024 → EReal) (a1 : Fin 512 → EReal) (A2 : Fin 512 → Fin 512 → EReal)
    (a2 : Fin 512 → EReal) (A3 : Fin 512 → EReal) (a3 : EReal) (z c f : Fin 512 → EReal) : Fin 512 → EReal :=
  fun d =>
    Ideal.div (Ideal.exp (attScore A1 a1 A2 a2 A3 a3 z f - max (attScore A1 a1 A2 a2 A3 a3 z f) (attScore A1 a1 A2 a2 A3 a3 c f)))
        (Ideal.exp (attScore A1 a1 A2 a2 A3 a3 z f - max (attScore A1 a1 A2 a2 A3 a3 z f) (attScore A1 a1 A2 a2 A3 a3 c f))
          + Ideal.exp (attScore A1 a1 A2 a2 A3 a3 c f - max (attScore A1 a1 A2 a2 A3 a3 z f) (attScore A1 a1 A2 a2 A3 a3 c f))) * z d
    + Ideal.div (Ideal.exp (attScore A1 a1 A2 a2 A3 a3 c f - max (attScore A1 a1 A2 a2 A3 a3 z f) (attScore A1 a1 A2 a2 A3 a3 c f)))
        (Ideal.exp (attScore A1 a1 A2 a2 A3 a3 z f - max (attScore A1 a1 A2 a2 A3 a3 z f) (attScore A1 a1 A2 a2 A3 a3 c f))
          + Ideal.exp (attScore A1 a1 A2 a2 A3 a3 c f - max (attScore A1 a1 A2 a2 A3 a3 z f) (attScore A1 a1 A2 a2 A3 a3 c f))) * c d

/-- The score head of one row: a linear layer of `u ++ v`, the affine normalisation, a relu, a linear read-out. -/
def headRow (W1 : Fin 512 → Fin 1024 → EReal) (b1 γ β μ σ2 : Fin 512 → EReal) (ε : EReal) (W2 : Fin 512 → EReal)
    (b2 : EReal) (u v : Fin 512 → EReal) : EReal :=
  (∑ j : Fin 512,
      max (γ j * ((((∑ k : Fin 512, u k * W1 j (Fin.castAdd 512 k)) + ∑ k : Fin 512, v k * W1 j (Fin.natAdd 512 k)) + b1 j) - μ j)
            * Ideal.rsqrt (σ2 j + ε) + β j) 0 * W2 j) + b2

/-- The whole result: the score of every batch row, from the six gathered arrays (one 512-wide row per batch row
    each) and the weights in the shapes the programs receive them. -/
def G (zu cu fu zv cv fv : (⟨2, ![16384, 512]⟩ : Shape).Idx → EReal)
    (aw1 : (⟨2, ![512, 1024]⟩ : Shape).Idx → EReal) (ab1 : (⟨1, ![512]⟩ : Shape).Idx → EReal)
    (aw2 : (⟨2, ![512, 512]⟩ : Shape).Idx → EReal) (ab2 : (⟨1, ![512]⟩ : Shape).Idx → EReal)
    (aw3 : (⟨2, ![1, 512]⟩ : Shape).Idx → EReal) (ab3 : (⟨1, ![1]⟩ : Shape).Idx → EReal)
    (w1 : (⟨2, ![512, 1024]⟩ : Shape).Idx → EReal) (b1 g be mu va : (⟨1, ![512]⟩ : Shape).Idx → EReal)
    (w2 : (⟨2, ![1, 512]⟩ : Shape).Idx → EReal) (b2 : (⟨1, ![1]⟩ : Shape).Idx → EReal) :
    (⟨1, ![16384]⟩ : Shape).Idx → EReal := fun i =>
  headRow (fun j k => w1 (ix2 j k)) (fun j => b1 (ix1 j)) (fun j => g (ix1 j)) (fun j => be (ix1 j)) (fun j => mu (ix1 j))
    (fun j => va (ix1 j)) (Ideal.ofBits .f32 0x3727C5AC#32) (fun j => w2 (ix2 (0 : Fin 1) j)) (b2 (ix1 (0 : Fin 1)))
    (fuseRow (fun l p => aw1 (ix2 l p)) (fun l => ab1 (ix1 l)) (fun k l => aw2 (ix2 k l)) (fun k => ab2 (ix1 k))
      (fun k => aw3 (ix2 (0 : Fin 1) k)) (ab3 (ix1 (0 : Fin 1)))
      (fun d => zu (ix2 (i 0) d)) (fun d => cu (ix2 (i 0) d)) (fun d => fu (ix2 (i 0) d)))
    (fuseRow (fun l p => aw1 (ix2 l p)) (fun l => ab1 (ix1 l)) (fun k l => aw2 (ix2 k l)) (fun k => ab2 (ix1 k))
      (fun k => aw3 (ix2 (0 : Fin 1) k)) (ab3 (ix1 (0 : Fin 1)))
      (fun d => zv (ix2 (i 0) d)) (fun d => cv (ix2 (i 0) d)) (fun d => fv (ix2 (i 0) d)))

end Cert.Spec

end
-- ==== Proof.RefHead.lean ====
/-
  The reference's score head read at a batch row: the product of the concatenated fused rows u ++ v with the whole
  512 × 1024 head weight (split into the half that meets u and the half that meets v), the bias, the affine
  normalisation γ · (h − μ) · rsqrt (σ² + ε) + β, the relu and the read-out to one score.
-/
import proofs.«418101_j13168369729717_3_alg».proof.Proof.RefRead
import proofs.«418101_j13168369729717_3_alg».proof.Proof.Spec

noncomputable section

namespace Cert.ReferenceIdeal.RefValue

open Cert.ReferenceIdeal Cert.ReferenceIdeal.Gen Cert.ReferenceIdeal.ReadP Idealize.ShloMosaic Idealize.SL.Sem
open Idealize.ShloMosaic.ValueIdx (ix1 ix2)
open scoped BigOperators

attribute [local irreducible] val_main_v75 val_main_v151

variable {α : Type}

/-- Two arrays of 512 columns set side by side: column k of the first 512 columns is column k of the first array. -/
private theorem cat_left (a b : S16384x512.Idx → α) (r : Fin 16384) (k : Fin 512) :
    concatenate S16384x1024 1 [⟨S16384x512, a⟩, ⟨S16384x512, b⟩] concatenates_S16384x512_S16384x512_S16384x1024_d1
        (ix2 r (Fin.castAdd 512 k)) = a (ix2 r k) :=
  concatenate_pair_apply_left 1 a b concatenates_S16384x512_S16384x512_S16384x1024_d1 _ rfl (ix2 r k)
    (fun b => by match b with | ⟨0, _⟩ => rfl | ⟨1, _⟩ => rfl)

/-- Column 512 + k of the two arrays set side by side is column k of the second array. -/
private theorem cat_right (a b : S16384x512.Idx → α) (r : Fin 16384) (k : Fin 512) :
    concatenate S16384x1024 1 [⟨S16384x512, a⟩, ⟨S16384x512, b⟩] concatenates_S16384x512_S16384x512_S16384x1024_d1
        (ix2 r (Fin.natAdd 512 k)) = b (ix2 r k) :=
  concatenate_pair_apply_right 1 a b concatenates_S16384x512_S16384x512_S16384x1024_d1 _ rfl rfl (ix2 r k)
    (fun b hb => by match b with | ⟨0, _⟩ => rfl | ⟨1, _⟩ => exact absurd rfl hb)
    (by show k.val + 512 = 512 + k.val; omega)

section Stages

variable (x0 x1 : (⟨S16384, .i32⟩ : BufTy).Contents (Elt Ideal)) (x2 x3 x4 : (⟨S100000x512, .f32⟩ : BufTy).Contents (Elt Ideal)) (x5 x6 x7 : (⟨S50000x512, .f32⟩ : BufTy).Contents (Elt Ideal)) (x8 : (⟨S512x1024, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x12 : (⟨S1x512, .f32⟩ : BufTy).Contents (Elt Ideal)) (x13 : (⟨S1, .f32⟩ : BufTy).Contents (Elt Ideal))
  (x14 : (⟨S512x1024, .f32⟩ : BufTy).Contents (Elt Ideal)) (x15 x16 x17 x18 x19 : (⟨S512, .f32⟩ : BufTy).Contents (Elt Ideal)) (x20 : (⟨S1x512, .f32⟩ : BufTy).Contents (Elt Ideal)) (x21 : (⟨S1, .f32⟩ : BufTy).Contents (Elt Ideal))
  (R : Fin 16384) (j : Fin 512)

/-- The first layer's bias b1, repeated down the batch rows, read at (R, j). -/
private theorem bias : val_main_v156 (F := Ideal) x15 (ix2 R j) = x15 (ix1 j) := by
  rewrite [val_main_v156_apply, val_main_v155_apply]
  exact congrArg x15 (funext fun a => Fin.ext (by match a with | ⟨0, _⟩ => rfl))

/-- The normalisation's mean μ, repeated down the batch rows, read at (R, j). -/
private theorem mean : val_main_v159 (F := Ideal) x18 (ix2 R j) = x18 (ix1 j) := by
  rewrite [val_main_v159_apply, val_main_v158_apply]
  exact congrArg x18 (funext fun a => Fin.ext (by match a with | ⟨0, _⟩ => rfl))

/-- The normalisation's gain γ, repeated down the batch rows, read at (R, j). -/
private theorem gamma : val_main_v162 (F := Ideal) x16 (ix2 R j) = x16 (ix1 j) := by
  rewrite [val_main_v162_apply, val_main_v161_apply]
  exact congrArg x16 (funext fun a => Fin.ext (by match a with | ⟨0, _⟩ => rfl))

/-- The normalisation's offset β, repeated down the batch rows, read at (R, j). -/
private theorem beta : val_main_v171 (F := Ideal) x17 (ix2 R j) = x17 (ix1 j) := by
  rewrite [val_main_v171_apply, val_main_v170_apply]
  exact congrArg x17 (funext fun a => Fin.ext (by match a with | ⟨0, _⟩ => rfl))

/-- The normalisation's scale rsqrt (σ² + ε), computed once per hidden unit and repeated down the batch rows. -/
private theorem scale : (val_main_v168 (F := Ideal) x19 (ix2 R j) : EReal) = Ideal.rsqrt (x19 (ix1 j) + Ideal.ofBits .f32 0x3727C5AC#32) := by
  rewrite [val_main_v168_apply, val_main_v167_apply, val_main_v166_apply, val_main_v165_apply, val_main_v164_apply,
    val_main_cst_16_apply,
    show idx_main_v167 (idx_main_v168 (ix2 R j)) = ix1 j from funext fun a => Fin.ext (by match a with | ⟨0, _⟩ => rfl)]
  rfl

/-- The relu's threshold is the real number zero at every entry. -/
private theorem zero : (val_main_call8_v0 (F := Ideal) (ix2 R j) : EReal) = 0 := by
  rewrite [val_main_call8_v0_apply, val_main_call8_cst_apply]
  exact Ideal.ofBits_zero_f32

/-- The first layer's product at (R, j): the single sum over the 1024 columns of the concatenated row u ++ v is the
    sum over the 512 columns that meet u plus the sum over the 512 columns that meet v, and the transposed weight at
    (column, j) is the weight at (j, column). -/
private theorem dot154 : (val_main_v154 (F := Ideal) x0 x1 x2 x3 x4 x5 x6 x7 x8 x9 x10 x11 x12 x13 x14 (ix2 R j) : EReal)
      = ((∑ k : Fin 512, (val_main_v75 (F := Ideal) x0 x2 x3 x4 x8 x9 x10 x11 x12 x13 (ix2 R k) : EReal) * x14 (ix2 j (Fin.castAdd 512 k)))
        + ∑ k : Fin 512, (val_main_v151 (F := Ideal) x1 x5 x6 x7 x8 x9 x10 x11 x12 x13 (ix2 R k) : EReal) * x14 (ix2 j (Fin.natAdd 512 k))) := by
  rewrite [val_main_v154_apply, Cert.Spec.sum_halves]
  refine congr (congrArg HAdd.hAdd ?_) ?_
  · refine Finset.sum_congr rfl fun k _ => ?_
    rewrite [val_main_v153_apply,
      show lidx_main_v154 (ix2 R j) (Fin.castAdd 512 k) = ix2 R (Fin.castAdd 512 k) from funext fun a => Fin.ext (by match a with | ⟨0, _⟩ => rfl | ⟨1, _⟩ => rfl),
      show idx_main_v153 (ridx_main_v154 (ix2 R j) (Fin.castAdd 512 k)) = ix2 j (Fin.castAdd 512 k) from
        funext fun a => Fin.ext (by match a with | ⟨0, _⟩ => rfl | ⟨1, _⟩ => rfl)]
    unfold val_main_v152
    rw [cat_left]
  · refine Finset.sum_congr rfl fun k _ => ?_
    rewrite [val_main_v153_apply,
      show lidx_main_v154 (ix2 R j) (Fin.natAdd 512 k) = ix2 R (Fin.natAdd 512 k) from funext fun a => Fin.ext (by match a with | ⟨0, _⟩ => rfl | ⟨1, _⟩ => rfl),
      show idx_main_v153 (ridx_main_v154 (ix2 R j) (Fin.natAdd 512 k)) = ix2 j (Fin.natAdd 512 k) from
        funext fun a => Fin.ext (by match a with | ⟨0, _⟩ => rfl | ⟨1, _⟩ => rfl)]
    unfold val_main_v152
    rw [cat_right]

/-- The hidden layer at (R, j): γ · (h − μ) · rsqrt (σ² + ε) + β of the first layer's output h, then the relu. -/
private theorem act : (val_main_v173 (F := Ideal) x0 x1 x2 x3 x4 x5 x6 x7 x8 x9 x10 x11 x12 x13 x14 x15 x16 x17 x18 x19 (ix2 R j) : EReal)
      = max (x16 (ix1 j) * ((((∑ k : Fin 512, (val_main_v75 (F := Ideal) x0 x2 x3 x4 x8 x9 x10 x11 x12 x13 (ix2 R k) : EReal) * x14 (ix2 j (Fin.castAdd 512 k)))
        + ∑ k : Fin 512, (val_main_v151 (F := Ideal) x1 x5 x6 x7 x8 x9 x10 x11 x12 x13 (ix2 R k) : EReal) * x14 (ix2 j (Fin.natAdd 512 k))) + x15 (ix1 j)) - x18 (ix1 j))
          * Ideal.rsqrt (x19 (ix1 j) + Ideal.ofBits .f32 0x3727C5AC#32) + x17 (ix1 j)) 0 := by
  rewrite [val_main_v173_apply, val_main_v172_apply, val_main_v169_apply, val_main_v163_apply, val_main_v160_apply,
    val_main_v157_apply, dot154, bias, mean, gamma, beta, scale, zero]
  rfl

/-- The transposed read-out weight at (j, 0) is the weight at (0, j). -/
private theorem wout : val_main_v174 (F := Ideal) x20 (ix2 j (0 : Fin 1)) = x20 (ix2 (0 : Fin 1) j) := by
  rewrite [val_main_v174_apply]
  exact congrArg x20 (funext fun a => Fin.ext (by match a with | ⟨0, _⟩ => rfl | ⟨1, _⟩ => rfl))

/-- The read-out bias b2, repeated down the batch rows. -/
private theorem bout : val_main_v177 (F := Ideal) x21 (ix2 R (0 : Fin 1)) = x21 (ix1 (0 : Fin 1)) := by
  rewrite [val_main_v177_apply, val_main_v176_apply]
  exact congrArg x21 (funext fun a => Fin.ext (by match a with | ⟨0, _⟩ => rfl))

end Stages

/-- The reference's result at batch row R is the score head of row R of its two fused arrays. -/
theorem head (x0 x1 : (⟨S16384, .i32⟩ : BufTy).Contents (Elt Ideal)) (x2 x3 x4 : (⟨S100000x512, .f32⟩ : BufTy).Contents (Elt Ideal)) (x5 x6 x7 : (⟨S50000x512, .f32⟩ : BufTy).Contents (Elt Ideal)) (x8 : (⟨S512x1024, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x12 : (⟨S1x512, .f32⟩ : BufTy).Contents (Elt Ideal)) (x13 : (⟨S1, .f32⟩ : BufTy).Contents (Elt Ideal))
    (x14 : (⟨S512x1024, .f32⟩ : BufTy).Contents (Elt Ideal)) (x15 x16 x17 x18 x19 : (⟨S512, .f32⟩ : BufTy).Contents (Elt Ideal)) (x20 : (⟨S1x512, .f32⟩ : BufTy).Contents (Elt Ideal)) (x21 : (⟨S1, .f32⟩ : BufTy).Contents (Elt Ideal))
    (R : Fin 16384) :
    val_main_v179 (F := Ideal) x0 x1 x2 x3 x4 x5 x6 x7 x8 x9 x10 x11 x12 x13 x14 x15 x16 x17 x18 x19 x20 x21 (ix1 R)
      = Cert.Spec.headRow (fun j k => x14 (ix2 j k)) (fun j => x15 (ix1 j)) (fun j => x16 (ix1 j)) (fun j => x17 (ix1 j))
          (fun j => x18 (ix1 j)) (fun j => x19 (ix1 j)) (Ideal.ofBits .f32 0x3727C5AC#32) (fun j => x20 (ix2 (0 : Fin 1) j))
          (x21 (ix1 (0 : Fin 1)))
          (fun k => val_main_v75 (F := Ideal) x0 x2 x3 x4 x8 x9 x10 x11 x12 x13 (ix2 R k))
          (fun k => val_main_v151 (F := Ideal) x1 x5 x6 x7 x8 x9 x10 x11 x12 x13 (ix2 R k)) := by
  rewrite [val_main_v179_apply,
    show idx_main_v179 (ix1 R) = ix2 R (0 : Fin 1) from
      funext fun a => Fin.ext (by match a with | ⟨0, _⟩ => exact Nat.div_one _ | ⟨1, _⟩ => rfl),
    val_main_v178_apply, val_main_v175_apply, bout]
  simp only [Cert.Spec.headRow, Ideal.addf_def]
  refine congrArg (· + _) ?_
  refine Finset.sum_congr rfl fun k _ => ?_
  rw [show lidx_main_v175 (ix2 R (0 : Fin 1)) k = ix2 R k from funext fun a => Fin.ext (by match a with | ⟨0, _⟩ => rfl | ⟨1, _⟩ => rfl),
    show ridx_main_v175 (ix2 R (0 : Fin 1)) k = ix2 k (0 : Fin 1) from funext fun a => Fin.ext (by match a with | ⟨0, _⟩ => rfl | ⟨1, _⟩ => rfl),
    act, wout]

end Cert.ReferenceIdeal.RefValue

end
-- ==== Proof.RefFuseU.lean ====
/-
  The reference's fused row of the user side, read at an entry: the two attention scores of the gathered rows z and c
  beside the gathered "full" row (a product with the whole 512 × 1024 first-layer weight over the concatenated row,
  split into its two halves of 512), their two-way softmax, and the weighted sum of z and c.
-/
import proofs.«418101_j13168369729717_3_alg».proof.Proof.RefRead
import proofs.«418101_j13168369729717_3_alg».proof.Proof.Spec

noncomputable section

namespace Cert.ReferenceIdeal.RefValue

open Cert.ReferenceIdeal Cert.ReferenceIdeal.Gen Cert.ReferenceIdeal.ReadP Idealize.ShloMosaic Idealize.SL.Sem
open Idealize.ShloMosaic.ValueIdx (ix1 ix2)
open scoped BigOperators

/-! ## Layout facts, over any arrays -/

section Layout
variable {α : Type}

/-- Two rows of width 512 laid side by side: column p of the first 512 columns is the first row's column p. -/
private theorem side_left (A B : S16384x512.Idx → α) (r : Fin 16384) (p : Fin 512) :
    concatenate S16384x1024 1 [⟨S16384x512, A⟩, ⟨S16384x512, B⟩] concatenates_S16384x512_S16384x512_S16384x1024_d1
        (ix2 (n1 := 1024) r (Fin.castAdd 512 p)) = A (ix2 r p) :=
  concatenate_pair_apply_left 1 A B concatenates_S16384x512_S16384x512_S16384x1024_d1 _ rfl (ix2 r p)
    (fun b => by match b with | ⟨0, _⟩ => rfl | ⟨1, _⟩ => rfl)

/-- Two rows of width 512 laid side by side: column 512 + p is the second row's column p. -/
private theorem side_right (A B : S16384x512.Idx → α) (r : Fin 16384) (p : Fin 512) :
    concatenate S16384x1024 1 [⟨S16384x512, A⟩, ⟨S16384x512, B⟩] concatenates_S16384x512_S16384x512_S16384x1024_d1
        (ix2 (n1 := 1024) r (Fin.natAdd 512 p)) = B (ix2 r p) :=
  concatenate_pair_apply_right 1 A B concatenates_S16384x512_S16384x512_S16384x1024_d1 _ rfl rfl (ix2 r p)
    (fun b hb => by match b with | ⟨0, _⟩ => rfl | ⟨1, _⟩ => exact absurd rfl hb)
    (by show p.val + 512 = 512 + p.val; omega)

/-- Two columns laid side by side: column 0 is the first. -/
private theorem pair_left (A B : S16384x1.Idx → α) (r : Fin 16384) :
    concatenate S16384x2 1 [⟨S16384x1, A⟩, ⟨S16384x1, B⟩] concatenates_S16384x1_S16384x1_S16384x2_d1
        (ix2 r (0 : Fin 2)) = A (ix2 r (0 : Fin 1)) :=
  concatenate_pair_apply_left 1 A B concatenates_S16384x1_S16384x1_S16384x2_d1 _ rfl (ix2 r (0 : Fin 1))
    (fun b => by match b with | ⟨0, _⟩ => rfl | ⟨1, _⟩ => rfl)

/-- Two columns laid side by side: column 1 is the second. -/
private theorem pair_right (A B : S16384x1.Idx → α) (r : Fin 16384) :
    concatenate S16384x2 1 [⟨S16384x1, A⟩, ⟨S16384x1, B⟩] concatenates_S16384x1_S16384x1_S16384x2_d1
        (ix2 r (1 : Fin 2)) = B (ix2 r (0 : Fin 1)) :=
  concatenate_pair_apply_right 1 A B concatenates_S16384x1_S16384x1_S16384x2_d1 _ rfl rfl (ix2 r (0 : Fin 1))
    (fun b hb => by match b with | ⟨0, _⟩ => rfl | ⟨1, _⟩ => exact absurd rfl hb)
    rfl

/-- A fold of a commutative, associative operation over two values. -/
private theorem fold_two (f : α → α → α) [Std.Commutative f] [Std.Associative f] (b : α) (g : Fin 2 → α) :
    (Finset.univ : Finset (Fin 2)).fold f b g = f (g 0) (f (g 1) b) := by
  have e : (Finset.univ : Finset (Fin 2)) = insert 0 {1} := by decide
  rw [e, Finset.fold_insert (by decide), Finset.fold_singleton]

/-- Row r of the reduced array with the column k put back is the entry (r, k). -/
private theorem lift_col (h : S16384x2.Reduces [1] S16384) (r : Fin 16384) (k : Fin 2) :
    h.lift (ix1 r) k = ix2 r k := by
  funext c; apply Fin.ext
  match c with
  | ⟨0, _⟩ => rfl
  | ⟨1, _⟩ => rfl

end Layout

/-- The word of minus infinity denotes the least extended real. -/
private theorem neg_inf : Ideal.ofBits .f32 0xFF800000#32 = (⊥ : EReal) := by simp [Ideal.ofBits, Ideal.ieee]

/-- From minus infinity, the maximum over the two columns of row r is the larger of the row's two entries. -/
private theorem rowmax (x : S16384x2.Idx → Ideal .f32) (r : Fin 16384) :
    Host.reduce FloatOps.maximumf x (val_main_cst (F := Ideal)) reducesTo_S16384x2_S16384_d1 h_S_ (ix1 r)
      = max (x (ix2 r (0 : Fin 2))) (x (ix2 r (1 : Fin 2))) := by
  have h : S16384x2.Reduces [1] S16384 := by decide
  have hf : (x ∘ h.lift (ix1 r)) = fun k : Fin 2 => x (ix2 r k) := funext fun k => congrArg x (lift_col h r k)
  rw [Host.reduce_eq_fold_single FloatOps.maximumf x _ reducesTo_S16384x2_S16384_d1 h h_S_, hf]
  refine (fold_two (FloatOps.maximumf (F := Ideal) (φ := .f32)) _ _).trans ?_
  show max (x (ix2 r (0 : Fin 2))) (max (x (ix2 r (1 : Fin 2))) (Ideal.ofBits .f32 0xFF800000#32)) = _
  rw [neg_inf, max_bot_right]

/-! ## The attention score of the row z beside the row f -/

section ScoreZ
variable (x0 : (⟨S16384, .i32⟩ : BufTy).Contents (Elt Ideal)) (x2 x4 : (⟨S100000x512, .f32⟩ : BufTy).Contents (Elt Ideal))
  (x8 : (⟨S512x1024, .f32⟩ : BufTy).Contents (Elt Ideal)) (x9 : (⟨S512, .f32⟩ : BufTy).Contents (Elt Ideal))
  (x10 : (⟨S512x512, .f32⟩ : BufTy).Contents (Elt Ideal)) (x11 : (⟨S512, .f32⟩ : BufTy).Contents (Elt Ideal))
  (x12 : (⟨S1x512, .f32⟩ : BufTy).Contents (Elt Ideal)) (x13 : (⟨S1, .f32⟩ : BufTy).Contents (Elt Ideal))

/-- First layer before its relu: the product with the 512 × 1024 weight over the 1024 columns of z ++ f, split into the
    columns that meet z and the columns that meet f, plus the bias. -/
private theorem z_pre1 (r : Fin 16384) (l : Fin 512) :
    val_main_v26 (F := Ideal) x0 x2 x4 x8 x9 (ix2 r l)
      = (((∑ p : Fin 512, val_main_v6 (F := Ideal) x0 x2 (ix2 r p) * x8 (ix2 l (Fin.castAdd 512 p)))
          + ∑ p : Fin 512, val_main_v20 (F := Ideal) x0 x4 (ix2 r p) * x8 (ix2 l (Fin.natAdd 512 p))) + x9 (ix1 l) : EReal) := by
  have e1 : ∀ k : Fin 1024, lidx_main_v23 (ix2 r l) k = ix2 r k := fun k =>
    funext fun a => Fin.ext (by match a with | ⟨0, _⟩ => rfl | ⟨1, _⟩ => rfl)
  have e2 : ∀ k : Fin 1024, idx_main_v22 (ridx_main_v23 (ix2 r l) k) = ix2 l k := fun k =>
    funext fun a => Fin.ext (by match a with | ⟨0, _⟩ => rfl | ⟨1, _⟩ => rfl)
  have e3 : idx_main_v24 (idx_main_v25 (ix2 r l)) = ix1 l :=
    funext fun a => Fin.ext (by match a with | ⟨0, _⟩ => rfl)
  have hL : ∀ p : Fin 512, val_main_v21 (F := Ideal) x0 x2 x4 (ix2 (n1 := 1024) r (Fin.castAdd 512 p))
      = val_main_v6 (F := Ideal) x0 x2 (ix2 r p) := fun p => side_left _ _ r p
  have hR : ∀ p : Fin 512, val_main_v21 (F := Ideal) x0 x2 x4 (ix2 (n1 := 1024) r (Fin.natAdd 512 p))
      = val_main_v20 (F := Ideal) x0 x4 (ix2 r p) := fun p => side_right _ _ r p
  rw [val_main_v26_apply, val_main_v23_apply, val_main_v25_apply, val_main_v24_apply, Ideal.addf_def, Cert.Spec.sum_halves]
  simp only [val_main_v22_apply, e1, e2, e3, hL, hR]

/-- First layer: the relu. -/
private theorem z_h1 (r : Fin 16384) (l : Fin 512) :
    val_main_v27 (F := Ideal) x0 x2 x4 x8 x9 (ix2 r l)
      = (max (val_main_v26 (F := Ideal) x0 x2 x4 x8 x9 (ix2 r l)) 0 : EReal) := by
  rw [val_main_v27_apply, val_main_call0_v0_apply, val_main_call0_cst_apply]
  simp only [Ideal.maximumf_def, Ideal.ofBits_def, Ideal.ofBits_zero_f32]

/-- Second layer before its relu: the product with the 512 × 512 weight, plus the bias. -/
private theorem z_pre2 (r : Fin 16384) (k : Fin 512) :
    val_main_v32 (F := Ideal) x0 x2 x4 x8 x9 x10 x11 (ix2 r k)
      = ((∑ l : Fin 512, val_main_v27 (F := Ideal) x0 x2 x4 x8 x9 (ix2 r l) * x10 (ix2 k l)) + x11 (ix1 k) : EReal) := by
  have e1 : ∀ l : Fin 512, lidx_main_v29 (ix2 r k) l = ix2 r l := fun l =>
    funext fun a => Fin.ext (by match a with | ⟨0, _⟩ => rfl | ⟨1, _⟩ => rfl)
  have e2 : ∀ l : Fin 512, idx_main_v28 (ridx_main_v29 (ix2 r k) l) = ix2 k l := fun l =>
    funext fun a => Fin.ext (by match a with | ⟨0, _⟩ => rfl | ⟨1, _⟩ => rfl)
  have e3 : idx_main_v30 (idx_main_v31 (ix2 r k)) = ix1 k :=
    funext fun a => Fin.ext (by match a with | ⟨0, _⟩ => rfl)
  rw [val_main_v32_apply, val_main_v29_apply, val_main_v31_apply, val_main_v30_apply, Ideal.addf_def]
  simp only [val_main_v28_apply, e1, e2, e3]

/-- Second layer: the relu. -/
private theorem z_h2 (r : Fin 16384) (k : Fin 512) :
    val_main_v33 (F := Ideal) x0 x2 x4 x8 x9 x10 x11 (ix2 r k)
      = (max (val_main_v32 (F := Ideal) x0 x2 x4 x8 x9 x10 x11 (ix2 r k)) 0 : EReal) := by
  rw [val_main_v33_apply, val_main_call1_v0_apply, val_main_call1_cst_apply]
  simp only [Ideal.maximumf_def, Ideal.ofBits_def, Ideal.ofBits_zero_f32]

/-- The read-out: the product with the 1 × 512 weight, plus the bias. -/
private theorem z_out (r : Fin 16384) :
    val_main_v38 (F := Ideal) x0 x2 x4 x8 x9 x10 x11 x12 x13 (ix2 r (0 : Fin 1))
      = ((∑ k : Fin 512, val_main_v33 (F := Ideal) x0 x2 x4 x8 x9 x10 x11 (ix2 r k) * x12 (ix2 (0 : Fin 1) k))
          + x13 (ix1 (0 : Fin 1)) : EReal) := by
  have e1 : ∀ k : Fin 512, lidx_main_v35 (ix2 r (0 : Fin 1)) k = ix2 r k := fun k =>
    funext fun a => Fin.ext (by match a with | ⟨0, _⟩ => rfl | ⟨1, _⟩ => rfl)
  have e2 : ∀ k : Fin 512, idx_main_v34 (ridx_main_v35 (ix2 r (0 : Fin 1)) k) = ix2 (0 : Fin 1) k := fun k =>
    funext fun a => Fin.ext (by match a with | ⟨0, _⟩ => rfl | ⟨1, _⟩ => rfl)
  have e3 : idx_main_v36 (idx_main_v37 (ix2 r (0 : Fin 1))) = ix1 (0 : Fin 1) :=
    funext fun a => Fin.ext (by match a with | ⟨0, _⟩ => rfl)
  rw [val_main_v38_apply, val_main_v35_apply, val_main_v37_apply, val_main_v36_apply, Ideal.addf_def]
  simp only [val_main_v34_apply, e1, e2, e3]

/-- The score of z beside f, at row r, is the specification's attention score of the two gathered rows r. -/
private theorem z_att (r : Fin 16384) :
    val_main_v38 (F := Ideal) x0 x2 x4 x8 x9 x10 x11 x12 x13 (ix2 r (0 : Fin 1))
      = Cert.Spec.attScore (fun l p => x8 (ix2 l p)) (fun l => x9 (ix1 l)) (fun k l => x10 (ix2 k l)) (fun k => x11 (ix1 k))
          (fun k => x12 (ix2 (0 : Fin 1) k)) (x13 (ix1 (0 : Fin 1)))
          (fun e => val_main_v6 (F := Ideal) x0 x2 (ix2 r e)) (fun e => val_main_v20 (F := Ideal) x0 x4 (ix2 r e)) := by
  rw [z_out]
  simp only [z_h2, z_pre2, z_h1, z_pre1, Cert.Spec.attScore]

end ScoreZ

/-! ## The attention score of the row c beside the row f -/

section ScoreC
variable (x0 : (⟨S16384, .i32⟩ : BufTy).Contents (Elt Ideal)) (x3 x4 : (⟨S100000x512, .f32⟩ : BufTy).Contents (Elt Ideal))
  (x8 : (⟨S512x1024, .f32⟩ : BufTy).Contents (Elt Ideal)) (x9 : (⟨S512, .f32⟩ : BufTy).Contents (Elt Ideal))
  (x10 : (⟨S512x512, .f32⟩ : BufTy).Contents (Elt Ideal)) (x11 : (⟨S512, .f32⟩ : BufTy).Contents (Elt Ideal))
  (x12 : (⟨S1x512, .f32⟩ : BufTy).Contents (Elt Ideal)) (x13 : (⟨S1, .f32⟩ : BufTy).Contents (Elt Ideal))

/-- First layer before its relu: the product with the 512 × 1024 weight over the 1024 columns of c ++ f, split into the
    columns that meet c and the columns that meet f, plus the bias. -/
private theorem c_pre1 (r : Fin 16384) (l : Fin 512) :
    val_main_v44 (F := Ideal) x0 x3 x4 x8 x9 (ix2 r l)
      = (((∑ p : Fin 512, val_main_v13 (F := Ideal) x0 x3 (ix2 r p) * x8 (ix2 l (Fin.castAdd 512 p)))
          + ∑ p : Fin 512, val_main_v20 (F := Ideal) x0 x4 (ix2 r p) * x8 (ix2 l (Fin.natAdd 512 p))) + x9 (ix1 l) : EReal) := by
  have e1 : ∀ k : Fin 1024, lidx_main_v41 (ix2 r l) k = ix2 r k := fun k =>
    funext fun a => Fin.ext (by match a with | ⟨0, _⟩ => rfl | ⟨1, _⟩ => rfl)
  have e2 : ∀ k : Fin 1024, idx_main_v40 (ridx_main_v41 (ix2 r l) k) = ix2 l k := fun k =>
    funext fun a => Fin.ext (by match a with | ⟨0, _⟩ => rfl | ⟨1, _⟩ => rfl)
  have e3 : idx_main_v42 (idx_main_v43 (ix2 r l)) = ix1 l :=
    funext fun a => Fin.ext (by match a with | ⟨0, _⟩ => rfl)
  have hL : ∀ p : Fin 512, val_main_v39 (F := Ideal) x0 x3 x4 (ix2 (n1 := 1024) r (Fin.castAdd 512 p))
      = val_main_v13 (F := Ideal) x0 x3 (ix2 r p) := fun p => side_left _ _ r p
  have hR : ∀ p : Fin 512, val_main_v39 (F := Ideal) x0 x3 x4 (ix2 (n1 := 1024) r (Fin.natAdd 512 p))
      = val_main_v20 (F := Ideal) x0 x4 (ix2 r p) := fun p => side_right _ _ r p
  rw [val_main_v44_apply, val_main_v41_apply, val_main_v43_apply, val_main_v42_apply, Ideal.addf_def, Cert.Spec.sum_halves]
  simp only [val_main_v40_apply, e1, e2, e3, hL, hR]

/-- First layer: the relu. -/
private theorem c_h1 (r : Fin 16384) (l : Fin 512) :
    val_main_v45 (F := Ideal) x0 x3 x4 x8 x9 (ix2 r l)
      = (max (val_main_v44 (F := Ideal) x0 x3 x4 x8 x9 (ix2 r l)) 0 : EReal) := by
  rw [val_main_v45_apply, val_main_call2_v0_apply, val_main_call2_cst_apply]
  simp only [Ideal.maximumf_def, Ideal.ofBits_def, Ideal.ofBits_zero_f32]

/-- Second layer before its relu: the product with the 512 × 512 weight, plus the bias. -/
private theorem c_pre2 (r : Fin 16384) (k : Fin 512) :
    val_main_v50 (F := Ideal) x0 x3 x4 x8 x9 x10 x11 (ix2 r k)
      = ((∑ l : Fin 512, val_main_v45 (F := Ideal) x0 x3 x4 x8 x9 (ix2 r l) * x10 (ix2 k l)) + x11 (ix1 k) : EReal) := by
  have e1 : ∀ l : Fin 512, lidx_main_v47 (ix2 r k) l = ix2 r l := fun l =>
    funext fun a => Fin.ext (by match a with | ⟨0, _⟩ => rfl | ⟨1, _⟩ => rfl)
  have e2 : ∀ l : Fin 512, idx_main_v46 (ridx_main_v47 (ix2 r k) l) = ix2 k l := fun l =>
    funext fun a => Fin.ext (by match a with | ⟨0, _⟩ => rfl | ⟨1, _⟩ => rfl)
  have e3 : idx_main_v48 (idx_main_v49 (ix2 r k)) = ix1 k :=
    funext fun a => Fin.ext (by match a with | ⟨0, _⟩ => rfl)
  rw [val_main_v50_apply, val_main_v47_apply, val_main_v49_apply, val_main_v48_apply, Ideal.addf_def]
  simp only [val_main_v46_apply, e1, e2, e3]

/-- Second layer: the relu. -/
private theorem c_h2 (r : Fin 16384) (k : Fin 512) :
    val_main_v51 (F := Ideal) x0 x3 x4 x8 x9 x10 x11 (ix2 r k)
      = (max (val_main_v50 (F := Ideal) x0 x3 x4 x8 x9 x10 x11 (ix2 r k)) 0 : EReal) := by
  rw [val_main_v51_apply, val_main_call3_v0_apply, val_main_call3_cst_apply]
  simp only [Ideal.maximumf_def, Ideal.ofBits_def, Ideal.ofBits_zero_f32]

/-- The read-out: the product with the 1 × 512 weight, plus the bias. -/
private theorem c_out (r : Fin 16384) :
    val_main_v56 (F := Ideal) x0 x3 x4 x8 x9 x10 x11 x12 x13 (ix2 r (0 : Fin 1))
      = ((∑ k : Fin 512, val_main_v51 (F := Ideal) x0 x3 x4 x8 x9 x10 x11 (ix2 r k) * x12 (ix2 (0 : Fin 1) k))
          + x13 (ix1 (0 : Fin 1)) : EReal) := by
  have e1 : ∀ k : Fin 512, lidx_main_v53 (ix2 r (0 : Fin 1)) k = ix2 r k := fun k =>
    funext fun a => Fin.ext (by match a with | ⟨0, _⟩ => rfl | ⟨1, _⟩ => rfl)
  have e2 : ∀ k : Fin 512, idx_main_v52 (ridx_main_v53 (ix2 r (0 : Fin 1)) k) = ix2 (0 : Fin 1) k := fun k =>
    funext fun a => Fin.ext (by match a with | ⟨0, _⟩ => rfl | ⟨1, _⟩ => rfl)
  have e3 : idx_main_v54 (idx_main_v55 (ix2 r (0 : Fin 1))) = ix1 (0 : Fin 1) :=
    funext fun a => Fin.ext (by match a with | ⟨0, _⟩ => rfl)
  rw [val_main_v56_apply, val_main_v53_apply, val_main_v55_apply, val_main_v54_apply, Ideal.addf_def]
  simp only [val_main_v52_apply, e1, e2, e3]

/-- The score of c beside f, at row r, is the specification's attention score of the two gathered rows r. -/
private theorem c_att (r : Fin 16384) :
    val_main_v56 (F := Ideal) x0 x3 x4 x8 x9 x10 x11 x12 x13 (ix2 r (0 : Fin 1))
      = Cert.Spec.attScore (fun l p => x8 (ix2 l p)) (fun l => x9 (ix1 l)) (fun k l => x10 (ix2 k l)) (fun k => x11 (ix1 k))
          (fun k => x12 (ix2 (0 : Fin 1) k)) (x13 (ix1 (0 : Fin 1)))
          (fun e => val_main_v13 (F := Ideal) x0 x3 (ix2 r e)) (fun e => val_main_v20 (F := Ideal) x0 x4 (ix2 r e)) := by
  rw [c_out]
  simp only [c_h2, c_pre2, c_h1, c_pre1, Cert.Spec.attScore]

end ScoreC

/-! ## The two-way softmax of the two scores and the weighted sum -/

section Soft
variable (x0 : (⟨S16384, .i32⟩ : BufTy).Contents (Elt Ideal)) (x2 x3 x4 : (⟨S100000x512, .f32⟩ : BufTy).Contents (Elt Ideal))
  (x8 : (⟨S512x1024, .f32⟩ : BufTy).Contents (Elt Ideal)) (x9 : (⟨S512, .f32⟩ : BufTy).Contents (Elt Ideal))
  (x10 : (⟨S512x512, .f32⟩ : BufTy).Contents (Elt Ideal)) (x11 : (⟨S512, .f32⟩ : BufTy).Contents (Elt Ideal))
  (x12 : (⟨S1x512, .f32⟩ : BufTy).Contents (Elt Ideal)) (x13 : (⟨S1, .f32⟩ : BufTy).Contents (Elt Ideal))
  (r : Fin 16384) {sz sc : EReal}
  (hz : val_main_v38 (F := Ideal) x0 x2 x4 x8 x9 x10 x11 x12 x13 (ix2 r (0 : Fin 1)) = sz)
  (hc : val_main_v56 (F := Ideal) x0 x3 x4 x8 x9 x10 x11 x12 x13 (ix2 r (0 : Fin 1)) = sc)
include hz hc

/-- The two scores side by side: column 0 is the score of z. -/
private theorem two0 : val_main_v57 (F := Ideal) x0 x2 x3 x4 x8 x9 x10 x11 x12 x13 (ix2 r (0 : Fin 2)) = sz := by
  rw [← hz]; unfold val_main_v57; exact pair_left _ _ r

/-- The two scores side by side: column 1 is the score of c. -/
private theorem two1 : val_main_v57 (F := Ideal) x0 x2 x3 x4 x8 x9 x10 x11 x12 x13 (ix2 r (1 : Fin 2)) = sc := by
  rw [← hc]; unfold val_main_v57; exact pair_right _ _ r

/-- The row's maximum, taken from minus infinity and joined once more with minus infinity, is the larger score. -/
private theorem mx : val_main_v60 (F := Ideal) x0 x2 x3 x4 x8 x9 x10 x11 x12 x13 (ix1 r) = max sz sc := by
  have h58 : val_main_v58 (F := Ideal) x0 x2 x3 x4 x8 x9 x10 x11 x12 x13 (ix1 r)
      = max (val_main_v57 (F := Ideal) x0 x2 x3 x4 x8 x9 x10 x11 x12 x13 (ix2 r (0 : Fin 2))) (val_main_v57 (F := Ideal) x0 x2 x3 x4 x8 x9 x10 x11 x12 x13 (ix2 r (1 : Fin 2))) := by
    unfold val_main_v58
    exact rowmax _ r
  rw [val_main_v60_apply, val_main_v59_apply, val_main_cst_5_apply, h58, two0 x0 x2 x3 x4 x8 x9 x10 x11 x12 x13 r hz hc, two1 x0 x2 x3 x4 x8 x9 x10 x11 x12 x13 r hz hc]
  simp only [Ideal.maximumf_def, Ideal.ofBits_def, neg_inf, max_bot_left]

/-- The exponential of a score less the maximum, at either column. -/
private theorem ex (c : Fin 2) :
    val_main_v64 (F := Ideal) x0 x2 x3 x4 x8 x9 x10 x11 x12 x13 (ix2 r c) = Ideal.exp (val_main_v57 (F := Ideal) x0 x2 x3 x4 x8 x9 x10 x11 x12 x13 (ix2 r c) - max sz sc) := by
  have e : idx_main_v61 (idx_main_v62 (ix2 r c)) = ix1 r :=
    funext fun a => Fin.ext (by match a with | ⟨0, _⟩ => rfl)
  rw [val_main_v64_apply, val_main_v63_apply, val_main_v62_apply, val_main_v61_apply, e, mx x0 x2 x3 x4 x8 x9 x10 x11 x12 x13 r hz hc]
  simp only [Ideal.hostUnary_exp_def, Ideal.subf_def]

/-- The sum of the two exponentials, taken from zero. -/
private theorem den :
    val_main_v65 (F := Ideal) x0 x2 x3 x4 x8 x9 x10 x11 x12 x13 (ix1 r) = Ideal.exp (sz - max sz sc) + Ideal.exp (sc - max sz sc) := by
  have e : ∀ k : Fin 2, idx_main_v65 (ix1 r) k = ix2 r k := fun k =>
    funext fun a => Fin.ext (by match a with | ⟨0, _⟩ => rfl | ⟨1, _⟩ => rfl)
  rw [val_main_v65_apply, val_main_cst_6_apply, Fin.sum_univ_two, e, e, ex x0 x2 x3 x4 x8 x9 x10 x11 x12 x13 r hz hc, ex x0 x2 x3 x4 x8 x9 x10 x11 x12 x13 r hz hc,
    two0 x0 x2 x3 x4 x8 x9 x10 x11 x12 x13 r hz hc, two1 x0 x2 x3 x4 x8 x9 x10 x11 x12 x13 r hz hc]
  simp only [Ideal.ofBits_def, Ideal.ofBits_zero_f32, zero_add]

/-- A softmax weight: the exponential over the sum, at either column. -/
private theorem wt (c : Fin 2) :
    val_main_v68 (F := Ideal) x0 x2 x3 x4 x8 x9 x10 x11 x12 x13 (ix2 r c)
      = Ideal.div (Ideal.exp (val_main_v57 (F := Ideal) x0 x2 x3 x4 x8 x9 x10 x11 x12 x13 (ix2 r c) - max sz sc))
          (Ideal.exp (sz - max sz sc) + Ideal.exp (sc - max sz sc)) := by
  have e : idx_main_v66 (idx_main_v67 (ix2 r c)) = ix1 r :=
    funext fun a => Fin.ext (by match a with | ⟨0, _⟩ => rfl)
  rw [val_main_v68_apply, val_main_v67_apply, val_main_v66_apply, e, den x0 x2 x3 x4 x8 x9 x10 x11 x12 x13 r hz hc, ex x0 x2 x3 x4 x8 x9 x10 x11 x12 x13 r hz hc]
  simp only [Ideal.hostDivf_def]

/-- The fused entry: the two weights, each across the row's 512 columns, times z and c, added. -/
private theorem fused (d : Fin 512) :
    val_main_v75 (F := Ideal) x0 x2 x3 x4 x8 x9 x10 x11 x12 x13 (ix2 r d)
      = Ideal.div (Ideal.exp (sz - max sz sc)) (Ideal.exp (sz - max sz sc) + Ideal.exp (sc - max sz sc))
            * val_main_v6 (F := Ideal) x0 x2 (ix2 r d)
          + Ideal.div (Ideal.exp (sc - max sz sc)) (Ideal.exp (sz - max sz sc) + Ideal.exp (sc - max sz sc))
            * val_main_v13 (F := Ideal) x0 x3 (ix2 r d) := by
  have e0 : idx_main_v69 (idx_main_v70 (ix2 r d)) = ix2 r (0 : Fin 2) :=
    funext fun a => Fin.ext (by match a with | ⟨0, _⟩ => rfl | ⟨1, _⟩ => rfl)
  have e1 : idx_main_v72 (idx_main_v73 (ix2 r d)) = ix2 r (1 : Fin 2) :=
    funext fun a => Fin.ext (by match a with | ⟨0, _⟩ => rfl | ⟨1, _⟩ => rfl)
  rw [val_main_v75_apply, val_main_v71_apply, val_main_v74_apply, val_main_v70_apply, val_main_v69_apply,
    val_main_v73_apply, val_main_v72_apply, e0, e1, wt x0 x2 x3 x4 x8 x9 x10 x11 x12 x13 r hz hc, wt x0 x2 x3 x4 x8 x9 x10 x11 x12 x13 r hz hc,
    two0 x0 x2 x3 x4 x8 x9 x10 x11 x12 x13 r hz hc, two1 x0 x2 x3 x4 x8 x9 x10 x11 x12 x13 r hz hc]
  simp only [Ideal.addf_def, Ideal.mulf_def]

end Soft

/-- Entry (r, d) of the reference's fused user-side array is the fused row of the three gathered rows r, at d. -/
theorem fuse_u (x0 : (⟨S16384, .i32⟩ : BufTy).Contents (Elt Ideal)) (x2 x3 x4 : (⟨S100000x512, .f32⟩ : BufTy).Contents (Elt Ideal)) (x8 : (⟨S512x1024, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x12 : (⟨S1x512, .f32⟩ : BufTy).Contents (Elt Ideal)) (x13 : (⟨S1, .f32⟩ : BufTy).Contents (Elt Ideal))
    (r : Fin 16384) (d : Fin 512) :
    val_main_v75 (F := Ideal) x0 x2 x3 x4 x8 x9 x10 x11 x12 x13 (ix2 r d)
      = Cert.Spec.fuseRow (fun l p => x8 (ix2 l p)) (fun l => x9 (ix1 l)) (fun k l => x10 (ix2 k l)) (fun k => x11 (ix1 k))
        (fun k => x12 (ix2 (0 : Fin 1) k)) (x13 (ix1 (0 : Fin 1)))
        (fun e => val_main_v6 (F := Ideal) x0 x2 (ix2 r e)) (fun e => val_main_v13 (F := Ideal) x0 x3 (ix2 r e))
        (fun e => val_main_v20 (F := Ideal) x0 x4 (ix2 r e)) d :=
  fused x0 x2 x3 x4 x8 x9 x10 x11 x12 x13 r (z_att x0 x2 x4 x8 x9 x10 x11 x12 x13 r) (c_att x0 x3 x4 x8 x9 x10 x11 x12 x13 r) d

end Cert.ReferenceIdeal.RefValue

end
-- ==== Proof.RefFuseV.lean ====
/-
  The reference's fused row of the item side, read at an entry: the two attention scores of the gathered rows z and c
  beside the gathered "full" row (a product with the whole 512 × 1024 first-layer weight over the concatenated row,
  split into its two halves of 512), their two-way softmax, and the weighted sum of z and c.
-/
import proofs.«418101_j13168369729717_3_alg».proof.Proof.RefRead
import proofs.«418101_j13168369729717_3_alg».proof.Proof.Spec
import Mathlib.Data.Finset.Fold
import Mathlib.Data.Fintype.Basic
import Mathlib.Order.BoundedOrder.Lattice

noncomputable section

namespace Cert.ReferenceIdeal.RefValue

open Cert.ReferenceIdeal Cert.ReferenceIdeal.Gen Cert.ReferenceIdeal.ReadP Idealize.ShloMosaic Idealize.SL.Sem
open Idealize.ShloMosaic.ValueIdx (ix1 ix2)
open scoped BigOperators

section Layout
variable {α : Type}

/-- Two blocks of 512 columns set side by side: an entry whose column p lies in the first 512 is the first block's
    entry (r, p). The entry is named by its two coordinates' values. -/
private theorem beside_left (a b : S16384x512.Idx → α) (j : S16384x1024.Idx) (r : Fin 16384) (p : Fin 512)
    (h0 : (j 0).val = r.val) (h1 : (j 1).val = p.val) :
    concatenate S16384x1024 1 [⟨S16384x512, a⟩, ⟨S16384x512, b⟩] concatenates_S16384x512_S16384x512_S16384x1024_d1 j
      = a (ix2 r p) :=
  concatenate_pair_apply_left 1 a b concatenates_S16384x512_S16384x512_S16384x1024_d1 j rfl (ix2 r p)
    (fun c => by match c with | ⟨0, _⟩ => exact h0.symm | ⟨1, _⟩ => exact h1.symm)

/-- An entry whose column is 512 + p is the second block's entry (r, p). -/
private theorem beside_right (a b : S16384x512.Idx → α) (j : S16384x1024.Idx) (r : Fin 16384) (p : Fin 512)
    (h0 : (j 0).val = r.val) (h1 : (j 1).val = 512 + p.val) :
    concatenate S16384x1024 1 [⟨S16384x512, a⟩, ⟨S16384x512, b⟩] concatenates_S16384x512_S16384x512_S16384x1024_d1 j
      = b (ix2 r p) :=
  concatenate_pair_apply_right 1 a b concatenates_S16384x512_S16384x512_S16384x1024_d1 j rfl rfl (ix2 r p)
    (fun c hc => by match c with | ⟨0, _⟩ => exact h0.symm | ⟨1, _⟩ => exact absurd rfl hc)
    (by show p.val + 512 = (j 1).val; omega)

/-- Two columns set side by side: column 0 of the pair is the first column. -/
private theorem pair_left (a b : S16384x1.Idx → α) (r : Fin 16384) :
    concatenate S16384x2 1 [⟨S16384x1, a⟩, ⟨S16384x1, b⟩] concatenates_S16384x1_S16384x1_S16384x2_d1 (ix2 r (0 : Fin 2))
      = a (ix2 r (0 : Fin 1)) :=
  concatenate_pair_apply_left 1 a b concatenates_S16384x1_S16384x1_S16384x2_d1 _ rfl (ix2 r (0 : Fin 1))
    (fun c => by match c with | ⟨0, _⟩ => rfl | ⟨1, _⟩ => rfl)

/-- Column 1 of the pair is the second column. -/
private theorem pair_right (a b : S16384x1.Idx → α) (r : Fin 16384) :
    concatenate S16384x2 1 [⟨S16384x1, a⟩, ⟨S16384x1, b⟩] concatenates_S16384x1_S16384x1_S16384x2_d1 (ix2 r (1 : Fin 2))
      = b (ix2 r (0 : Fin 1)) :=
  concatenate_pair_apply_right 1 a b concatenates_S16384x1_S16384x1_S16384x2_d1 _ rfl rfl (ix2 r (0 : Fin 1))
    (fun c hc => by match c with | ⟨0, _⟩ => rfl | ⟨1, _⟩ => exact absurd rfl hc)
    rfl

/-- A fold of a commutative, associative operation over two values. -/
private theorem fold_pair (f : α → α → α) [Std.Commutative f] [Std.Associative f] (b : α) (g : Fin 2 → α) :
    (Finset.univ : Finset (Fin 2)).fold f b g = f (g 0) (f (g 1) b) := by
  simp only [Fin.univ_succ, Finset.fold_cons, Finset.fold_map, Finset.univ_unique, Finset.fold_singleton]
  rfl

end Layout

/-- The maximum over the pair of columns, from an initial value: row r's is the larger of its two entries and the
    initial value. -/
private theorem pair_max (x : (⟨S16384x2, .f32⟩ : BufTy).Contents (Elt Ideal)) (init : (⟨S_, .f32⟩ : BufTy).Contents (Elt Ideal)) (r : Fin 16384) :
    Host.reduce (FloatOps.maximumf (F := Ideal) (φ := .f32)) x init reducesTo_S16384x2_S16384_d1 h_S_ (ix1 r)
      = max (x (ix2 r (0 : Fin 2))) (max (x (ix2 r (1 : Fin 2))) (init (Shape.Idx.first h_S_))) := by
  rw [Host.reduce_eq_fold_single (FloatOps.maximumf (F := Ideal) (φ := .f32)) x init reducesTo_S16384x2_S16384_d1 (by decide) h_S_ (ix1 r)]
  refine (fold_pair _ _ _).trans ?_
  exact congrArg₂ max
    (congrArg x (funext fun a => Fin.ext (by match a with | ⟨0, _⟩ => rfl | ⟨1, _⟩ => rfl)))
    (congrArg (fun y => max y (init (Shape.Idx.first h_S_)))
      (congrArg x (funext fun a => Fin.ext (by match a with | ⟨0, _⟩ => rfl | ⟨1, _⟩ => rfl))))

section Chain
variable (x1 : (⟨S16384, .i32⟩ : BufTy).Contents (Elt Ideal)) (x5 x6 x7 : (⟨S50000x512, .f32⟩ : BufTy).Contents (Elt Ideal))
  (x8 : (⟨S512x1024, .f32⟩ : BufTy).Contents (Elt Ideal)) (x9 : (⟨S512, .f32⟩ : BufTy).Contents (Elt Ideal))
  (x10 : (⟨S512x512, .f32⟩ : BufTy).Contents (Elt Ideal)) (x11 : (⟨S512, .f32⟩ : BufTy).Contents (Elt Ideal))
  (x12 : (⟨S1x512, .f32⟩ : BufTy).Contents (Elt Ideal)) (x13 : (⟨S1, .f32⟩ : BufTy).Contents (Elt Ideal))

/-- First layer, z beside the full row: hidden unit l of row r. The product with the 512 × 1024 weight over the
    concatenated row of width 1024 is the sum of its two halves: the first 512 columns meet z, the last 512 the
    full row. -/
private theorem z_layer1 (r : Fin 16384) (l : Fin 512) :
    val_main_v103 (F := Ideal) x1 x5 x7 x8 x9 (ix2 r l)
      = max (((∑ p : Fin 512, val_main_v82 (F := Ideal) x1 x5 (ix2 r p) * x8 (ix2 l (Fin.castAdd 512 p)))
          + ∑ p : Fin 512, val_main_v96 (F := Ideal) x1 x7 (ix2 r p) * x8 (ix2 l (Fin.natAdd 512 p))) + x9 (ix1 l)) 0 := by
  have eL : ∀ p : Fin 512, val_main_v97 (F := Ideal) x1 x5 x7 (lidx_main_v99 (ix2 r l) (Fin.castAdd 512 p))
      = val_main_v82 (F := Ideal) x1 x5 (ix2 r p) := fun p => beside_left _ _ _ r p rfl rfl
  have eR : ∀ p : Fin 512, val_main_v97 (F := Ideal) x1 x5 x7 (lidx_main_v99 (ix2 r l) (Fin.natAdd 512 p))
      = val_main_v96 (F := Ideal) x1 x7 (ix2 r p) := fun p => beside_right _ _ _ r p rfl rfl
  have eW : ∀ k : Fin 1024, val_main_v98 (F := Ideal) x8 (ridx_main_v99 (ix2 r l) k) = x8 (ix2 l k) := fun k => by
    rw [val_main_v98_apply]
    exact congrArg x8 (funext fun a => Fin.ext (by match a with | ⟨0, _⟩ => rfl | ⟨1, _⟩ => rfl))
  have eB : x9 (idx_main_v100 (idx_main_v101 (ix2 r l))) = x9 (ix1 l) :=
    congrArg x9 (funext fun a => Fin.ext (by match a with | ⟨0, _⟩ => rfl))
  rw [val_main_v103_apply, val_main_v102_apply, val_main_v99_apply, val_main_v101_apply, val_main_v100_apply,
    val_main_call4_v0_apply, val_main_call4_cst_apply, Cert.Spec.sum_halves]
  simp only [eL, eR, eW, eB, Ideal.addf_def, Ideal.maximumf_def, Ideal.ofBits_def, Ideal.ofBits_zero_f32]

/-- Second layer: hidden unit k of row r. -/
private theorem z_layer2 (r : Fin 16384) (k : Fin 512) :
    val_main_v109 (F := Ideal) x1 x5 x7 x8 x9 x10 x11 (ix2 r k)
      = max ((∑ l : Fin 512, val_main_v103 (F := Ideal) x1 x5 x7 x8 x9 (ix2 r l) * x10 (ix2 k l)) + x11 (ix1 k)) 0 := by
  have eX : ∀ l : Fin 512, val_main_v103 (F := Ideal) x1 x5 x7 x8 x9 (lidx_main_v105 (ix2 r k) l)
      = val_main_v103 (F := Ideal) x1 x5 x7 x8 x9 (ix2 r l) := fun l =>
    congrArg _ (funext fun a => Fin.ext (by match a with | ⟨0, _⟩ => rfl | ⟨1, _⟩ => rfl))
  have eW : ∀ l : Fin 512, val_main_v104 (F := Ideal) x10 (ridx_main_v105 (ix2 r k) l) = x10 (ix2 k l) := fun l => by
    rw [val_main_v104_apply]
    exact congrArg x10 (funext fun a => Fin.ext (by match a with | ⟨0, _⟩ => rfl | ⟨1, _⟩ => rfl))
  have eB : x11 (idx_main_v106 (idx_main_v107 (ix2 r k))) = x11 (ix1 k) :=
    congrArg x11 (funext fun a => Fin.ext (by match a with | ⟨0, _⟩ => rfl))
  rw [val_main_v109_apply, val_main_v108_apply, val_main_v105_apply, val_main_v107_apply, val_main_v106_apply,
    val_main_call5_v0_apply, val_main_call5_cst_apply]
  simp only [eX, eW, eB, Ideal.addf_def, Ideal.maximumf_def, Ideal.ofBits_def, Ideal.ofBits_zero_f32]

/-- The read-out: the score of row r. -/
private theorem z_layer3 (r : Fin 16384) :
    val_main_v114 (F := Ideal) x1 x5 x7 x8 x9 x10 x11 x12 x13 (ix2 r (0 : Fin 1))
      = (∑ k : Fin 512, val_main_v109 (F := Ideal) x1 x5 x7 x8 x9 x10 x11 (ix2 r k) * x12 (ix2 (0 : Fin 1) k)) + x13 (ix1 (0 : Fin 1)) := by
  have eX : ∀ k : Fin 512, val_main_v109 (F := Ideal) x1 x5 x7 x8 x9 x10 x11 (lidx_main_v111 (ix2 r (0 : Fin 1)) k)
      = val_main_v109 (F := Ideal) x1 x5 x7 x8 x9 x10 x11 (ix2 r k) := fun k =>
    congrArg _ (funext fun a => Fin.ext (by match a with | ⟨0, _⟩ => rfl | ⟨1, _⟩ => rfl))
  have eW : ∀ k : Fin 512, val_main_v110 (F := Ideal) x12 (ridx_main_v111 (ix2 r (0 : Fin 1)) k) = x12 (ix2 (0 : Fin 1) k) :=
    fun k => by
      rw [val_main_v110_apply]
      exact congrArg x12 (funext fun a => Fin.ext (by match a with | ⟨0, _⟩ => rfl | ⟨1, _⟩ => rfl))
  have eB : x13 (idx_main_v112 (idx_main_v113 (ix2 r (0 : Fin 1)))) = x13 (ix1 (0 : Fin 1)) :=
    congrArg x13 (funext fun a => Fin.ext (by match a with | ⟨0, _⟩ => rfl))
  rw [val_main_v114_apply, val_main_v111_apply, val_main_v113_apply, val_main_v112_apply]
  simp only [eX, eW, eB, Ideal.addf_def]

/-- The reference's score of z beside the full row, at row r, is the specification's attention score of the two
    gathered rows r. -/
private theorem z_score (r : Fin 16384) :
    val_main_v114 (F := Ideal) x1 x5 x7 x8 x9 x10 x11 x12 x13 (ix2 r (0 : Fin 1))
      = Cert.Spec.attScore (fun l p => x8 (ix2 l p)) (fun l => x9 (ix1 l)) (fun k l => x10 (ix2 k l)) (fun k => x11 (ix1 k))
          (fun k => x12 (ix2 (0 : Fin 1) k)) (x13 (ix1 (0 : Fin 1)))
          (fun e => val_main_v82 (F := Ideal) x1 x5 (ix2 r e)) (fun e => val_main_v96 (F := Ideal) x1 x7 (ix2 r e)) := by
  rw [z_layer3]
  simp only [z_layer2, z_layer1, Cert.Spec.attScore]

/-- First layer, c beside the full row: hidden unit l of row r. The product with the 512 × 1024 weight over the
    concatenated row of width 1024 is the sum of its two halves: the first 512 columns meet c, the last 512 the
    full row. -/
private theorem c_layer1 (r : Fin 16384) (l : Fin 512) :
    val_main_v121 (F := Ideal) x1 x6 x7 x8 x9 (ix2 r l)
      = max (((∑ p : Fin 512, val_main_v89 (F := Ideal) x1 x6 (ix2 r p) * x8 (ix2 l (Fin.castAdd 512 p)))
          + ∑ p : Fin 512, val_main_v96 (F := Ideal) x1 x7 (ix2 r p) * x8 (ix2 l (Fin.natAdd 512 p))) + x9 (ix1 l)) 0 := by
  have eL : ∀ p : Fin 512, val_main_v115 (F := Ideal) x1 x6 x7 (lidx_main_v117 (ix2 r l) (Fin.castAdd 512 p))
      = val_main_v89 (F := Ideal) x1 x6 (ix2 r p) := fun p => beside_left _ _ _ r p rfl rfl
  have eR : ∀ p : Fin 512, val_main_v115 (F := Ideal) x1 x6 x7 (lidx_main_v117 (ix2 r l) (Fin.natAdd 512 p))
      = val_main_v96 (F := Ideal) x1 x7 (ix2 r p) := fun p => beside_right _ _ _ r p rfl rfl
  have eW : ∀ k : Fin 1024, val_main_v116 (F := Ideal) x8 (ridx_main_v117 (ix2 r l) k) = x8 (ix2 l k) := fun k => by
    rw [val_main_v116_apply]
    exact congrArg x8 (funext fun a => Fin.ext (by match a with | ⟨0, _⟩ => rfl | ⟨1, _⟩ => rfl))
  have eB : x9 (idx_main_v118 (idx_main_v119 (ix2 r l))) = x9 (ix1 l) :=
    congrArg x9 (funext fun a => Fin.ext (by match a with | ⟨0, _⟩ => rfl))
  rw [val_main_v121_apply, val_main_v120_apply, val_main_v117_apply, val_main_v119_apply, val_main_v118_apply,
    val_main_call6_v0_apply, val_main_call6_cst_apply, Cert.Spec.sum_halves]
  simp only [eL, eR, eW, eB, Ideal.addf_def, Ideal.maximumf_def, Ideal.ofBits_def, Ideal.ofBits_zero_f32]

/-- Second layer: hidden unit k of row r. -/
private theorem c_layer2 (r : Fin 16384) (k : Fin 512) :
    val_main_v127 (F := Ideal) x1 x6 x7 x8 x9 x10 x11 (ix2 r k)
      = max ((∑ l : Fin 512, val_main_v121 (F := Ideal) x1 x6 x7 x8 x9 (ix2 r l) * x10 (ix2 k l)) + x11 (ix1 k)) 0 := by
  have eX : ∀ l : Fin 512, val_main_v121 (F := Ideal) x1 x6 x7 x8 x9 (lidx_main_v123 (ix2 r k) l)
      = val_main_v121 (F := Ideal) x1 x6 x7 x8 x9 (ix2 r l) := fun l =>
    congrArg _ (funext fun a => Fin.ext (by match a with | ⟨0, _⟩ => rfl | ⟨1, _⟩ => rfl))
  have eW : ∀ l : Fin 512, val_main_v122 (F := Ideal) x10 (ridx_main_v123 (ix2 r k) l) = x10 (ix2 k l) := fun l => by
    rw [val_main_v122_apply]
    exact congrArg x10 (funext fun a => Fin.ext (by match a with | ⟨0, _⟩ => rfl | ⟨1, _⟩ => rfl))
  have eB : x11 (idx_main_v124 (idx_main_v125 (ix2 r k))) = x11 (ix1 k) :=
    congrArg x11 (funext fun a => Fin.ext (by match a with | ⟨0, _⟩ => rfl))
  rw [val_main_v127_apply, val_main_v126_apply, val_main_v123_apply, val_main_v125_apply, val_main_v124_apply,
    val_main_call7_v0_apply, val_main_call7_cst_apply]
  simp only [eX, eW, eB, Ideal.addf_def, Ideal.maximumf_def, Ideal.ofBits_def, Ideal.ofBits_zero_f32]

/-- The read-out: the score of row r. -/
private theorem c_layer3 (r : Fin 16384) :
    val_main_v132 (F := Ideal) x1 x6 x7 x8 x9 x10 x11 x12 x13 (ix2 r (0 : Fin 1))
      = (∑ k : Fin 512, val_main_v127 (F := Ideal) x1 x6 x7 x8 x9 x10 x11 (ix2 r k) * x12 (ix2 (0 : Fin 1) k)) + x13 (ix1 (0 : Fin 1)) := by
  have eX : ∀ k : Fin 512, val_main_v127 (F := Ideal) x1 x6 x7 x8 x9 x10 x11 (lidx_main_v129 (ix2 r (0 : Fin 1)) k)
      = val_main_v127 (F := Ideal) x1 x6 x7 x8 x9 x10 x11 (ix2 r k) := fun k =>
    congrArg _ (funext fun a => Fin.ext (by match a with | ⟨0, _⟩ => rfl | ⟨1, _⟩ => rfl))
  have eW : ∀ k : Fin 512, val_main_v128 (F := Ideal) x12 (ridx_main_v129 (ix2 r (0 : Fin 1)) k) = x12 (ix2 (0 : Fin 1) k) :=
    fun k => by
      rw [val_main_v128_apply]
      exact congrArg x12 (funext fun a => Fin.ext (by match a with | ⟨0, _⟩ => rfl | ⟨1, _⟩ => rfl))
  have eB : x13 (idx_main_v130 (idx_main_v131 (ix2 r (0 : Fin 1)))) = x13 (ix1 (0 : Fin 1)) :=
    congrArg x13 (funext fun a => Fin.ext (by match a with | ⟨0, _⟩ => rfl))
  rw [val_main_v132_apply, val_main_v129_apply, val_main_v131_apply, val_main_v130_apply]
  simp only [eX, eW, eB, Ideal.addf_def]

/-- The reference's score of c beside the full row, at row r, is the specification's attention score of the two
    gathered rows r. -/
private theorem c_score (r : Fin 16384) :
    val_main_v132 (F := Ideal) x1 x6 x7 x8 x9 x10 x11 x12 x13 (ix2 r (0 : Fin 1))
      = Cert.Spec.attScore (fun l p => x8 (ix2 l p)) (fun l => x9 (ix1 l)) (fun k l => x10 (ix2 k l)) (fun k => x11 (ix1 k))
          (fun k => x12 (ix2 (0 : Fin 1) k)) (x13 (ix1 (0 : Fin 1)))
          (fun e => val_main_v89 (F := Ideal) x1 x6 (ix2 r e)) (fun e => val_main_v96 (F := Ideal) x1 x7 (ix2 r e)) := by
  rw [c_layer3]
  simp only [c_layer2, c_layer1, Cert.Spec.attScore]

/-- Column 0 of the pair of scores is the score of z. -/
private theorem scores_fst (r : Fin 16384) :
    val_main_v133 (F := Ideal) x1 x5 x6 x7 x8 x9 x10 x11 x12 x13 (ix2 r (0 : Fin 2)) = val_main_v114 (F := Ideal) x1 x5 x7 x8 x9 x10 x11 x12 x13 (ix2 r (0 : Fin 1)) :=
  pair_left _ _ r

/-- Column 1 of the pair of scores is the score of c. -/
private theorem scores_snd (r : Fin 16384) :
    val_main_v133 (F := Ideal) x1 x5 x6 x7 x8 x9 x10 x11 x12 x13 (ix2 r (1 : Fin 2)) = val_main_v132 (F := Ideal) x1 x6 x7 x8 x9 x10 x11 x12 x13 (ix2 r (0 : Fin 1)) :=
  pair_right _ _ r

/-- The row's maximum as the reference takes it — a maximum from −∞ over the pair, and once more against −∞ — is the
    larger of the two scores: −∞ is the least extended real. -/
private theorem row_max (r : Fin 16384) :
    val_main_v136 (F := Ideal) x1 x5 x6 x7 x8 x9 x10 x11 x12 x13 (ix1 r)
      = max (val_main_v114 (F := Ideal) x1 x5 x7 x8 x9 x10 x11 x12 x13 (ix2 r (0 : Fin 1))) (val_main_v132 (F := Ideal) x1 x6 x7 x8 x9 x10 x11 x12 x13 (ix2 r (0 : Fin 1))) := by
  have hbot : Ideal.ofBits .f32 0xFF800000#32 = (⊥ : EReal) := by simp [Ideal.ofBits, Ideal.ieee]
  rw [val_main_v136_apply, val_main_v135_apply, val_main_cst_14_apply]
  unfold val_main_v134
  rw [pair_max, val_main_cst_13_apply, scores_fst, scores_snd]
  simp only [Ideal.maximumf_def, Ideal.ofBits_def, hbot, max_bot_left, max_bot_right]

/-- Entry (r, j) of the exponentials: exp of the score less the row's maximum. -/
private theorem expo (r : Fin 16384) (j : Fin 2) :
    val_main_v140 (F := Ideal) x1 x5 x6 x7 x8 x9 x10 x11 x12 x13 (ix2 r j)
      = Ideal.exp (val_main_v133 (F := Ideal) x1 x5 x6 x7 x8 x9 x10 x11 x12 x13 (ix2 r j) - val_main_v136 (F := Ideal) x1 x5 x6 x7 x8 x9 x10 x11 x12 x13 (ix1 r)) := by
  have e : val_main_v136 (F := Ideal) x1 x5 x6 x7 x8 x9 x10 x11 x12 x13 (idx_main_v137 (idx_main_v138 (ix2 r j)))
      = val_main_v136 (F := Ideal) x1 x5 x6 x7 x8 x9 x10 x11 x12 x13 (ix1 r) :=
    congrArg _ (funext fun a => Fin.ext (by match a with | ⟨0, _⟩ => rfl))
  rw [val_main_v140_apply, val_main_v139_apply, val_main_v138_apply, val_main_v137_apply, e]
  rfl

/-- The row's sum of the two exponentials, from the initial value 0. -/
private theorem denom (r : Fin 16384) :
    val_main_v141 (F := Ideal) x1 x5 x6 x7 x8 x9 x10 x11 x12 x13 (ix1 r)
      = val_main_v140 (F := Ideal) x1 x5 x6 x7 x8 x9 x10 x11 x12 x13 (ix2 r (0 : Fin 2)) + val_main_v140 (F := Ideal) x1 x5 x6 x7 x8 x9 x10 x11 x12 x13 (ix2 r (1 : Fin 2)) := by
  have e0 : val_main_v140 (F := Ideal) x1 x5 x6 x7 x8 x9 x10 x11 x12 x13 (idx_main_v141 (ix1 r) (0 : Fin 2))
      = val_main_v140 (F := Ideal) x1 x5 x6 x7 x8 x9 x10 x11 x12 x13 (ix2 r (0 : Fin 2)) :=
    congrArg _ (funext fun a => Fin.ext (by match a with | ⟨0, _⟩ => rfl | ⟨1, _⟩ => rfl))
  have e1 : val_main_v140 (F := Ideal) x1 x5 x6 x7 x8 x9 x10 x11 x12 x13 (idx_main_v141 (ix1 r) (1 : Fin 2))
      = val_main_v140 (F := Ideal) x1 x5 x6 x7 x8 x9 x10 x11 x12 x13 (ix2 r (1 : Fin 2)) :=
    congrArg _ (funext fun a => Fin.ext (by match a with | ⟨0, _⟩ => rfl | ⟨1, _⟩ => rfl))
  rw [val_main_v141_apply, val_main_cst_15_apply, Fin.sum_univ_two, e0, e1, Ideal.ofBits_def, Ideal.ofBits_zero_f32, zero_add]

/-- Entry (r, j) of the softmax weights: the exponential over the row's sum. -/
private theorem weight (r : Fin 16384) (j : Fin 2) :
    val_main_v144 (F := Ideal) x1 x5 x6 x7 x8 x9 x10 x11 x12 x13 (ix2 r j)
      = Ideal.div (val_main_v140 (F := Ideal) x1 x5 x6 x7 x8 x9 x10 x11 x12 x13 (ix2 r j)) (val_main_v141 (F := Ideal) x1 x5 x6 x7 x8 x9 x10 x11 x12 x13 (ix1 r)) := by
  have e : val_main_v141 (F := Ideal) x1 x5 x6 x7 x8 x9 x10 x11 x12 x13 (idx_main_v142 (idx_main_v143 (ix2 r j)))
      = val_main_v141 (F := Ideal) x1 x5 x6 x7 x8 x9 x10 x11 x12 x13 (ix1 r) :=
    congrArg _ (funext fun a => Fin.ext (by match a with | ⟨0, _⟩ => rfl))
  rw [val_main_v144_apply, val_main_v143_apply, val_main_v142_apply, e]
  rfl

end Chain

/-- Entry (r, d) of the reference's fused item-side array is the fused row of the three gathered rows r, at d. -/
theorem fuse_v (x1 : (⟨S16384, .i32⟩ : BufTy).Contents (Elt Ideal)) (x5 x6 x7 : (⟨S50000x512, .f32⟩ : BufTy).Contents (Elt Ideal)) (x8 : (⟨S512x1024, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x12 : (⟨S1x512, .f32⟩ : BufTy).Contents (Elt Ideal)) (x13 : (⟨S1, .f32⟩ : BufTy).Contents (Elt Ideal))
    (r : Fin 16384) (d : Fin 512) :
    val_main_v151 (F := Ideal) x1 x5 x6 x7 x8 x9 x10 x11 x12 x13 (ix2 r d)
      = Cert.Spec.fuseRow (fun l p => x8 (ix2 l p)) (fun l => x9 (ix1 l)) (fun k l => x10 (ix2 k l)) (fun k => x11 (ix1 k))
        (fun k => x12 (ix2 (0 : Fin 1) k)) (x13 (ix1 (0 : Fin 1)))
        (fun e => val_main_v82 (F := Ideal) x1 x5 (ix2 r e)) (fun e => val_main_v89 (F := Ideal) x1 x6 (ix2 r e))
        (fun e => val_main_v96 (F := Ideal) x1 x7 (ix2 r e)) d := by
  -- the two weights of row r, spread across the 512 lanes
  have w0 : val_main_v144 (F := Ideal) x1 x5 x6 x7 x8 x9 x10 x11 x12 x13 (idx_main_v145 (idx_main_v146 (ix2 r d)))
      = val_main_v144 (F := Ideal) x1 x5 x6 x7 x8 x9 x10 x11 x12 x13 (ix2 r (0 : Fin 2)) :=
    congrArg _ (funext fun a => Fin.ext (by match a with | ⟨0, _⟩ => rfl | ⟨1, _⟩ => rfl))
  have w1 : val_main_v144 (F := Ideal) x1 x5 x6 x7 x8 x9 x10 x11 x12 x13 (idx_main_v148 (idx_main_v149 (ix2 r d)))
      = val_main_v144 (F := Ideal) x1 x5 x6 x7 x8 x9 x10 x11 x12 x13 (ix2 r (1 : Fin 2)) :=
    congrArg _ (funext fun a => Fin.ext (by match a with | ⟨0, _⟩ => rfl | ⟨1, _⟩ => rfl))
  rw [val_main_v151_apply, val_main_v147_apply, val_main_v150_apply, val_main_v146_apply, val_main_v145_apply,
    val_main_v149_apply, val_main_v148_apply, w0, w1, weight, weight, denom, expo, expo, row_max, scores_fst, scores_snd,
    z_score, c_score]
  rfl

end Cert.ReferenceIdeal.RefValue

end
-- ==== Proof.RefValue.lean ====
/-
  The reference's whole result as the specification's function of the six gathered arrays and the weights: the head
  of each batch row (RefHead) over the two fused rows (RefFuseU, RefFuseV).
-/
import proofs.«418101_j13168369729717_3_alg».proof.Proof.RefHead
import proofs.«418101_j13168369729717_3_alg».proof.Proof.RefFuseU
import proofs.«418101_j13168369729717_3_alg».proof.Proof.RefFuseV

noncomputable section

namespace Cert.ReferenceIdeal.RefValue

open Cert.ReferenceIdeal Cert.ReferenceIdeal.Gen Cert.ReferenceIdeal.ReadP Idealize.ShloMosaic Idealize.SL.Sem
open Idealize.ShloMosaic.ValueIdx (ix1 ix2)
open scoped BigOperators

/-- The reference's result array is `Spec.G` of its six gathered arrays and the weight arguments. -/
theorem result_eq (x0 x1 : (⟨S16384, .i32⟩ : BufTy).Contents (Elt Ideal)) (x2 x3 x4 : (⟨S100000x512, .f32⟩ : BufTy).Contents (Elt Ideal)) (x5 x6 x7 : (⟨S50000x512, .f32⟩ : BufTy).Contents (Elt Ideal)) (x8 : (⟨S512x1024, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x12 : (⟨S1x512, .f32⟩ : BufTy).Contents (Elt Ideal)) (x13 : (⟨S1, .f32⟩ : BufTy).Contents (Elt Ideal))
    (x14 : (⟨S512x1024, .f32⟩ : BufTy).Contents (Elt Ideal)) (x15 x16 x17 x18 x19 : (⟨S512, .f32⟩ : BufTy).Contents (Elt Ideal)) (x20 : (⟨S1x512, .f32⟩ : BufTy).Contents (Elt Ideal)) (x21 : (⟨S1, .f32⟩ : BufTy).Contents (Elt Ideal)) :
    val_main_v179 (F := Ideal) x0 x1 x2 x3 x4 x5 x6 x7 x8 x9 x10 x11 x12 x13 x14 x15 x16 x17 x18 x19 x20 x21
      = Cert.Spec.G (val_main_v6 (F := Ideal) x0 x2) (val_main_v13 (F := Ideal) x0 x3) (val_main_v20 (F := Ideal) x0 x4)
          (val_main_v82 (F := Ideal) x1 x5) (val_main_v89 (F := Ideal) x1 x6) (val_main_v96 (F := Ideal) x1 x7)
          x8 x9 x10 x11 x12 x13 x14 x15 x16 x17 x18 x19 x20 x21 := by
  funext i
  obtain ⟨R, rfl⟩ : ∃ R : Fin 16384, i = ix1 R := ⟨i 0, ValueIdx.eq_ix1 i⟩
  rw [head]
  unfold Cert.Spec.G
  simp only [fuse_u, fuse_v]

end Cert.ReferenceIdeal.RefValue

end
-- ==== Proof.KOps.lean ====
/-
  The kernel body's matrix products read at an entry. Each product of the body multiplies a block of rows of width
  512 by a weight block with 512 rows into a zero accumulator, so on the extended reals its entry (p, q) is the plain
  sum over the 512 inner positions k of (left block at (p, k)) · (right block at (k, q)).
-/
import proofs.«418101_j13168369729717_3_alg».proof.Proof.Gen.KernelIdeal.Skeleton
import Idealize.ShloMosaic.Lib.ValueIdx
import Idealize.ShloMosaic.PureOps.Ideal.Laws

noncomputable section

namespace Cert.KernelIdeal.RowValue

open Cert.KernelIdeal Cert.KernelIdeal.Gen Idealize.ShloMosaic Idealize.SL.Sem
open Idealize.ShloMosaic.ValueIdx (ix1 ix2)
open scoped BigOperators

/-! ### The product of a 2048 × 512 block with a 512 × 512 block -/

theorem lhs_2048x512_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem lhs_2048x512_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem rhs_2048x512_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem rhs_2048x512_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- Entry (p, q) of the product into a zero accumulator is the sum over the 512 inner positions of row p of the
    left block times column q of the right block. -/
theorem matmul_2048x512 {φ₁ φ₂ : FTy} (l : FVec Ideal S2048x512 φ₁) (r : FVec Ideal S512x512 φ₂) (p : Fin 2048) (q : Fin 512) :
    matmul (F := Ideal) dot_S2048x512_S512x512_S2048x512_1_0_0_1_n_n none l r (constant S2048x512 .f32 0x00000000#32) (ix2 p q)
      = ∑ k : Fin 512, l (ix2 p k) * r (ix2 k q) := by
  show FloatOps.matmul dot_S2048x512_S512x512_S2048x512_1_0_0_1_n_n none l r (constant S2048x512 .f32 0x00000000#32) (ix2 p q) = _
  rw [Ideal.matmul_constant_zero_apply, ← Equiv.sum_comp (ValueIdx.contrEquiv1 dot_S2048x512_S512x512_S2048x512_1_0_0_1_n_n 512 rfl rfl).symm]
  refine Finset.sum_congr rfl fun k _ => ?_
  have hk := ValueIdx.contrEquiv1_symm_val dot_S2048x512_S512x512_S2048x512_1_0_0_1_n_n 512 rfl rfl k
  have el : dot_S2048x512_S512x512_S2048x512_1_0_0_1_n_n.lhsIdx (ix2 p q) ((ValueIdx.contrEquiv1 dot_S2048x512_S512x512_S2048x512_1_0_0_1_n_n 512 rfl rfl).symm k) = ix2 p k := funext fun a => Fin.ext (by
    match a with
    | ⟨0, _⟩ => exact lhs_2048x512_0 _ _
    | ⟨1, _⟩ => exact (lhs_2048x512_1 _ _).trans hk)
  have er : dot_S2048x512_S512x512_S2048x512_1_0_0_1_n_n.rhsIdx (ix2 p q) ((ValueIdx.contrEquiv1 dot_S2048x512_S512x512_S2048x512_1_0_0_1_n_n 512 rfl rfl).symm k) = ix2 k q := funext fun a => Fin.ext (by
    match a with
    | ⟨0, _⟩ => exact (rhs_2048x512_0 _ _).trans hk
    | ⟨1, _⟩ => exact rhs_2048x512_1 _ _)
  rw [el, er]

/-! ### The product of a 2048 × 512 block with a 512 × 1 block -/

theorem lhs_2048x1_0 (i : S2048x1.Idx) (q : dot_S2048x512_S512x1_S2048x1_1_0_0_1_n_n.contr.Idx) :
    (dot_S2048x512_S512x1_S2048x1_1_0_0_1_n_n.lhsIdx i q 0).val = (i 0).val := by
  unfold DotDims.lhsIdx
  rw [dif_neg (show ¬(0 : Fin S2048x512.rank) ∈ dot_S2048x512_S512x1_S2048x1_1_0_0_1_n_n.lhsBatch by decide), dif_pos (show (0 : Fin S2048x512.rank) ∈ dot_S2048x512_S512x1_S2048x1_1_0_0_1_n_n.lhsNonContracting by decide)]
  rfl
theorem lhs_2048x1_1 (i : S2048x1.Idx) (q : dot_S2048x512_S512x1_S2048x1_1_0_0_1_n_n.contr.Idx) :
    (dot_S2048x512_S512x1_S2048x1_1_0_0_1_n_n.lhsIdx i q 1).val = (q ⟨0, by decide⟩).val :=
  dot_S2048x512_S512x1_S2048x1_1_0_0_1_n_n.lhsIdx_val_of_single rfl i q
theorem rhs_2048x1_0 (i : S2048x1.Idx) (q : dot_S2048x512_S512x1_S2048x1_1_0_0_1_n_n.contr.Idx) :
    (dot_S2048x512_S512x1_S2048x1_1_0_0_1_n_n.rhsIdx i q 0).val = (q ⟨0, by decide⟩).val :=
  dot_S2048x512_S512x1_S2048x1_1_0_0_1_n_n.rhsIdx_val_of_single rfl i q
theorem rhs_2048x1_1 (i : S2048x1.Idx) (q : dot_S2048x512_S512x1_S2048x1_1_0_0_1_n_n.contr.Idx) :
    (dot_S2048x512_S512x1_S2048x1_1_0_0_1_n_n.rhsIdx i q 1).val = (i 1).val := by
  unfold DotDims.rhsIdx
  rw [dif_neg (show ¬(1 : Fin S512x1.rank) ∈ dot_S2048x512_S512x1_S2048x1_1_0_0_1_n_n.rhsBatch by decide), dif_pos (show (1 : Fin S512x1.rank) ∈ dot_S2048x512_S512x1_S2048x1_1_0_0_1_n_n.rhsNonContracting by decide)]
  rfl

/-- Entry (p, q) of the product into a zero accumulator is the sum over the 512 inner positions of row p of the
    left block times column q of the right block. -/
theorem matmul_2048x1 {φ₁ φ₂ : FTy} (l : FVec Ideal S2048x512 φ₁) (r : FVec Ideal S512x1 φ₂) (p : Fin 2048) (q : Fin 1) :
    matmul (F := Ideal) dot_S2048x512_S512x1_S2048x1_1_0_0_1_n_n none l r (constant S2048x1 .f32 0x00000000#32) (ix2 p q)
      = ∑ k : Fin 512, l (ix2 p k) * r (ix2 k q) := by
  show FloatOps.matmul dot_S2048x512_S512x1_S2048x1_1_0_0_1_n_n none l r (constant S2048x1 .f32 0x00000000#32) (ix2 p q) = _
  rw [Ideal.matmul_constant_zero_apply, ← Equiv.sum_comp (ValueIdx.contrEquiv1 dot_S2048x512_S512x1_S2048x1_1_0_0_1_n_n 512 rfl rfl).symm]
  refine Finset.sum_congr rfl fun k _ => ?_
  have hk := ValueIdx.contrEquiv1_symm_val dot_S2048x512_S512x1_S2048x1_1_0_0_1_n_n 512 rfl rfl k
  have el : dot_S2048x512_S512x1_S2048x1_1_0_0_1_n_n.lhsIdx (ix2 p q) ((ValueIdx.contrEquiv1 dot_S2048x512_S512x1_S2048x1_1_0_0_1_n_n 512 rfl rfl).symm k) = ix2 p k := funext fun a => Fin.ext (by
    match a with
    | ⟨0, _⟩ => exact lhs_2048x1_0 _ _
    | ⟨1, _⟩ => exact (lhs_2048x1_1 _ _).trans hk)
  have er : dot_S2048x512_S512x1_S2048x1_1_0_0_1_n_n.rhsIdx (ix2 p q) ((ValueIdx.contrEquiv1 dot_S2048x512_S512x1_S2048x1_1_0_0_1_n_n 512 rfl rfl).symm k) = ix2 k q := funext fun a => Fin.ext (by
    match a with
    | ⟨0, _⟩ => exact (rhs_2048x1_0 _ _).trans hk
    | ⟨1, _⟩ => exact rhs_2048x1_1 _ _)
  rw [el, er]

/-! ### The product of a 1024 × 512 block with a 512 × 512 block -/

theorem lhs_1024x512_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_1024x512_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_1024x512_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_1024x512_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- Entry (p, q) of the product into a zero accumulator is the sum over the 512 inner positions of row p of the
    left block times column q of the right block. -/
theorem matmul_1024x512 {φ₁ φ₂ : FTy} (l : FVec Ideal S1024x512 φ₁) (r : FVec Ideal S512x512 φ₂) (p : Fin 1024) (q : Fin 512) :
    matmul (F := Ideal) dot_S1024x512_S512x512_S1024x512_1_0_0_1_n_n none l r (constant S1024x512 .f32 0x00000000#32) (ix2 p q)
      = ∑ k : Fin 512, l (ix2 p k) * r (ix2 k q) := by
  show FloatOps.matmul dot_S1024x512_S512x512_S1024x512_1_0_0_1_n_n none l r (constant S1024x512 .f32 0x00000000#32) (ix2 p q) = _
  rw [Ideal.matmul_constant_zero_apply, ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 p q) ((ValueIdx.contrEquiv1 dot_S1024x512_S512x512_S1024x512_1_0_0_1_n_n 512 rfl rfl).symm k) = ix2 p k := funext fun a => Fin.ext (by
    match a with
    | ⟨0, _⟩ => exact lhs_1024x512_0 _ _
    | ⟨1, _⟩ => exact (lhs_1024x512_1 _ _).trans hk)
  have er : dot_S1024x512_S512x512_S1024x512_1_0_0_1_n_n.rhsIdx (ix2 p q) ((ValueIdx.contrEquiv1 dot_S1024x512_S512x512_S1024x512_1_0_0_1_n_n 512 rfl rfl).symm k) = ix2 k q := funext fun a => Fin.ext (by
    match a with
    | ⟨0, _⟩ => exact (rhs_1024x512_0 _ _).trans hk
    | ⟨1, _⟩ => exact rhs_1024x512_1 _ _)
  rw [el, er]

/-! ### The product of a 1024 × 512 block with a 512 × 1 block -/

theorem lhs_1024x1_0 (i : S1024x1.Idx) (q : dot_S1024x512_S512x1_S1024x1_1_0_0_1_n_n.contr.Idx) :
    (dot_S1024x512_S512x1_S1024x1_1_0_0_1_n_n.lhsIdx i q 0).val = (i 0).val := by
  unfold DotDims.lhsIdx
  rw [dif_neg (show ¬(0 : Fin S1024x512.rank) ∈ dot_S1024x512_S512x1_S1024x1_1_0_0_1_n_n.lhsBatch by decide), dif_pos (show (0 : Fin S1024x512.rank) ∈ dot_S1024x512_S512x1_S1024x1_1_0_0_1_n_n.lhsNonContracting by decide)]
  rfl
theorem lhs_1024x1_1 (i : S1024x1.Idx) (q : dot_S1024x512_S512x1_S1024x1_1_0_0_1_n_n.contr.Idx) :
    (dot_S1024x512_S512x1_S1024x1_1_0_0_1_n_n.lhsIdx i q 1).val = (q ⟨0, by decide⟩).val :=
  dot_S1024x512_S512x1_S1024x1_1_0_0_1_n_n.lhsIdx_val_of_single rfl i q
theorem rhs_1024x1_0 (i : S1024x1.Idx) (q : dot_S1024x512_S512x1_S1024x1_1_0_0_1_n_n.contr.Idx) :
    (dot_S1024x512_S512x1_S1024x1_1_0_0_1_n_n.rhsIdx i q 0).val = (q ⟨0, by decide⟩).val :=
  dot_S1024x512_S512x1_S1024x1_1_0_0_1_n_n.rhsIdx_val_of_single rfl i q
theorem rhs_1024x1_1 (i : S1024x1.Idx) (q : dot_S1024x512_S512x1_S1024x1_1_0_0_1_n_n.contr.Idx) :
    (dot_S1024x512_S512x1_S1024x1_1_0_0_1_n_n.rhsIdx i q 1).val = (i 1).val := by
  unfold DotDims.rhsIdx
  rw [dif_neg (show ¬(1 : Fin S512x1.rank) ∈ dot_S1024x512_S512x1_S1024x1_1_0_0_1_n_n.rhsBatch by decide), dif_pos (show (1 : Fin S512x1.rank) ∈ dot_S1024x512_S512x1_S1024x1_1_0_0_1_n_n.rhsNonContracting by decide)]
  rfl

/-- Entry (p, q) of the product into a zero accumulator is the sum over the 512 inner positions of row p of the
    left block times column q of the right block. -/
theorem matmul_1024x1 {φ₁ φ₂ : FTy} (l : FVec Ideal S1024x512 φ₁) (r : FVec Ideal S512x1 φ₂) (p : Fin 1024) (q : Fin 1) :
    matmul (F := Ideal) dot_S1024x512_S512x1_S1024x1_1_0_0_1_n_n none l r (constant S1024x1 .f32 0x00000000#32) (ix2 p q)
      = ∑ k : Fin 512, l (ix2 p k) * r (ix2 k q) := by
  show FloatOps.matmul dot_S1024x512_S512x1_S1024x1_1_0_0_1_n_n none l r (constant S1024x1 .f32 0x00000000#32) (ix2 p q) = _
  rw [Ideal.matmul_constant_zero_apply, ← Equiv.sum_comp (ValueIdx.contrEquiv1 dot_S1024x512_S512x1_S1024x1_1_0_0_1_n_n 512 rfl rfl).symm]
  refine Finset.sum_congr rfl fun k _ => ?_
  have hk := ValueIdx.contrEquiv1_symm_val dot_S1024x512_S512x1_S1024x1_1_0_0_1_n_n 512 rfl rfl k
  have el : dot_S1024x512_S512x1_S1024x1_1_0_0_1_n_n.lhsIdx (ix2 p q) ((ValueIdx.contrEquiv1 dot_S1024x512_S512x1_S1024x1_1_0_0_1_n_n 512 rfl rfl).symm k) = ix2 p k := funext fun a => Fin.ext (by
    match a with
    | ⟨0, _⟩ => exact lhs_1024x1_0 _ _
    | ⟨1, _⟩ => exact (lhs_1024x1_1 _ _).trans hk)
  have er : dot_S1024x512_S512x1_S1024x1_1_0_0_1_n_n.rhsIdx (ix2 p q) ((ValueIdx.contrEquiv1 dot_S1024x512_S512x1_S1024x1_1_0_0_1_n_n 512 rfl rfl).symm k) = ix2 k q := funext fun a => Fin.ext (by
    match a with
    | ⟨0, _⟩ => exact (rhs_1024x1_0 _ _).trans hk
    | ⟨1, _⟩ => exact rhs_1024x1_1 _ _)
  rw [el, er]

end Cert.KernelIdeal.RowValue

end
-- ==== Proof.KLayout.lean ====
/-
  The kernel body's layout operations read at an entry: stacking two blocks of 1024 rows into 2048 rows, cutting a
  block of rows back out, and repeating a row, a column or a single cell across a block.
-/
import proofs.«418101_j13168369729717_3_alg».proof.Proof.Gen.KernelIdeal.Skeleton
import Idealize.ShloMosaic.Lib.ValueIdx
import Idealize.ShloMosaic.Lib.Pipeline.Value

noncomputable section

namespace Cert.KernelIdeal.RowValue

open Cert.KernelIdeal Cert.KernelIdeal.Gen Idealize.ShloMosaic Idealize.SL.Sem
open Idealize.ShloMosaic.ValueIdx (ix1 ix2)

variable {α : Type}

/-- Row r of the first 1024 rows of two stacked blocks is row r of the first block. -/
theorem stack_top (a b : S1024x512.Idx → α) (r : Fin 1024) (l : Fin 512) :
    concatenate S2048x512 0 [⟨S1024x512, a⟩, ⟨S1024x512, b⟩] concatenates_S1024x512_S1024x512_S2048x512_d0
        (ix2 (⟨r.val, by omega⟩ : Fin 2048) l) = a (ix2 r l) :=
  concatenate_pair_apply_left 0 a b concatenates_S1024x512_S1024x512_S2048x512_d0 _ rfl (ix2 r l)
    (fun b => by match b with | ⟨0, _⟩ => rfl | ⟨1, _⟩ => rfl)

/-- Row 1024 + r of two stacked blocks is row r of the second block. -/
theorem stack_bot (a b : S1024x512.Idx → α) (r : Fin 1024) (l : Fin 512) :
    concatenate S2048x512 0 [⟨S1024x512, a⟩, ⟨S1024x512, b⟩] concatenates_S1024x512_S1024x512_S2048x512_d0
        (ix2 (⟨1024 + r.val, by omega⟩ : Fin 2048) l) = b (ix2 r l) :=
  concatenate_pair_apply_right 0 a b concatenates_S1024x512_S1024x512_S2048x512_d0 _ rfl rfl (ix2 r l)
    (fun b hb => by match b with | ⟨0, _⟩ => exact absurd rfl hb | ⟨1, _⟩ => rfl)
    (by show r.val + 1024 = 1024 + r.val; omega)

/-- The first 1024 rows cut out of 2048: entry (r, l) is the whole block's entry (r, l). -/
theorem cut_top (x : S2048x512.Idx → α) (r : Fin 1024) (l : Fin 512) :
    extractStridedSlice S1024x512 ![0, 0] x slices_S2048x512_o0_0_S1024x512 (ix2 r l) = x (ix2 (⟨r.val, by omega⟩ : Fin 2048) l) :=
  extractStridedSlice_apply _ x _ _ _ (fun a => by match a with | ⟨0, _⟩ => simp | ⟨1, _⟩ => simp)

/-- The last 1024 rows cut out of 2048: entry (r, l) is the whole block's entry (1024 + r, l). -/
theorem cut_bot (x : S2048x512.Idx → α) (r : Fin 1024) (l : Fin 512) :
    extractStridedSlice S1024x512 ![1024, 0] x slices_S2048x512_o1024_0_S1024x512 (ix2 r l) = x (ix2 (⟨1024 + r.val, by omega⟩ : Fin 2048) l) :=
  extractStridedSlice_apply _ x _ _ _ (fun a => by match a with | ⟨0, _⟩ => simp | ⟨1, _⟩ => simp)

/-- A row of width 512 repeated down 1024 rows. -/
theorem rep_row_1024 (v : S1x512.Idx → α) (r : Fin 1024) (l : Fin 512) :
    broadcastTo S1024x512 v broadcasts_S1x512_S1024x512 (ix2 r l) = v (ix2 (0 : Fin 1) l) :=
  broadcastTo_apply v _ _ _ (fun a => by match a with | ⟨0, _⟩ => simp | ⟨1, _⟩ => simp)

/-- The first 1024 entries cut out of a column of 2048. -/
theorem cutcol_top (x : S2048x1.Idx → α) (r : Fin 1024) :
    extractStridedSlice S1024x1 ![0, 0] x slices_S2048x1_o0_0_S1024x1 (ix2 r (0 : Fin 1)) = x (ix2 (⟨r.val, by omega⟩ : Fin 2048) (0 : Fin 1)) :=
  extractStridedSlice_apply _ x _ _ _ (fun a => by match a with | ⟨0, _⟩ => simp | ⟨1, _⟩ => simp)

/-- The last 1024 entries cut out of a column of 2048. -/
theorem cutcol_bot (x : S2048x1.Idx → α) (r : Fin 1024) :
    extractStridedSlice S1024x1 ![1024, 0] x slices_S2048x1_o1024_0_S1024x1 (ix2 r (0 : Fin 1)) = x (ix2 (⟨1024 + r.val, by omega⟩ : Fin 2048) (0 : Fin 1)) :=
  extractStridedSlice_apply _ x _ _ _ (fun a => by match a with | ⟨0, _⟩ => simp | ⟨1, _⟩ => simp)

/-- The first 512 rows of a 1024 × 512 weight block. -/
theorem half_top (x : S1024x512.Idx → α) (p : Fin 512) (l : Fin 512) :
    extractStridedSlice S512x512 ![0, 0] x slices_S1024x512_o0_0_S512x512 (ix2 p l) = x (ix2 (⟨p.val, by omega⟩ : Fin 1024) l) :=
  extractStridedSlice_apply _ x _ _ _ (fun a => by match a with | ⟨0, _⟩ => simp | ⟨1, _⟩ => simp)

/-- The last 512 rows of a 1024 × 512 weight block. -/
theorem half_bot (x : S1024x512.Idx → α) (p : Fin 512) (l : Fin 512) :
    extractStridedSlice S512x512 ![512, 0] x slices_S1024x512_o512_0_S512x512 (ix2 p l) = x (ix2 (⟨512 + p.val, by omega⟩ : Fin 1024) l) :=
  extractStridedSlice_apply _ x _ _ _ (fun a => by match a with | ⟨0, _⟩ => simp | ⟨1, _⟩ => simp)

/-- A row of width 512 repeated down 2048 rows. -/
theorem rep_row_2048 (v : S1x512.Idx → α) (r : Fin 2048) (l : Fin 512) :
    broadcastTo S2048x512 v broadcasts_S1x512_S2048x512 (ix2 r l) = v (ix2 (0 : Fin 1) l) :=
  broadcastTo_apply v _ _ _ (fun a => by match a with | ⟨0, _⟩ => simp | ⟨1, _⟩ => simp)

/-- A single cell repeated down a column of 2048. -/
theorem rep_cell_2048 (v : S1x1.Idx → α) (r : Fin 2048) :
    broadcastTo S2048x1 v broadcasts_S1x1_S2048x1 (ix2 r (0 : Fin 1)) = v (ix2 (0 : Fin 1) (0 : Fin 1)) :=
  broadcastTo_apply v _ _ _ (fun a => by match a with | ⟨0, _⟩ => simp | ⟨1, _⟩ => simp)

/-- A single cell repeated down a column of 1024. -/
theorem rep_cell_1024 (v : S1x1.Idx → α) (r : Fin 1024) :
    broadcastTo S1024x1 v broadcasts_S1x1_S1024x1 (ix2 r (0 : Fin 1)) = v (ix2 (0 : Fin 1) (0 : Fin 1)) :=
  broadcastTo_apply v _ _ _ (fun a => by match a with | ⟨0, _⟩ => simp | ⟨1, _⟩ => simp)

/-- A column of 1024 repeated across 512 lanes. -/
theorem rep_col (v : S1024x1.Idx → α) (r : Fin 1024) (l : Fin 512) :
    broadcastTo S1024x512 v broadcasts_S1024x1_S1024x512 (ix2 r l) = v (ix2 r (0 : Fin 1)) :=
  broadcastTo_apply v _ _ _ (fun a => by match a with | ⟨0, _⟩ => simp | ⟨1, _⟩ => simp)

end Cert.KernelIdeal.RowValue

end
-- ==== Proof.KLayer1.lean ====
/-
  The first attention layer of the kernel body read at an entry. The body stacks the rows of z over the rows of c
  (2048 rows), multiplies the stack by the half of the first-layer weight that meets z or c, adds to each half of the
  result the product of the "full" rows with the other half of the weight (computed once), adds the bias and applies
  the relu. So at stacked row r (< 1024) and hidden unit l it holds
  max ((∑ₚ z[r,p]·W[p,l] + ∑ₚ f[r,p]·W[512+p,l]) + b[l]) 0, and at row 1024 + r the same with c in place of z. On the
  second side of the body the two weight halves and the bias arrive already cut and the two halves of the stack are
  separate values.
-/
import proofs.«418101_j13168369729717_3_alg».proof.Proof.KOps
import proofs.«418101_j13168369729717_3_alg».proof.Proof.KLayout
import Idealize.ShloMosaic.Lib.ValueIdx
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.SL.Sem
open Idealize.ShloMosaic.ValueIdx
open scoped BigOperators

/-- The first attention layer at row r of the top half (the rows of z) and hidden unit l. -/
theorem layer1_top (aw1t : Vec Ideal S1024x512 .bf16) (ab1 : Vec Ideal S1x512 .f32) (z c f : Vec Ideal S1024x512 .bf16)
    (r : Fin 1024) (l : Fin 512) :
    k0_pay12 (F := Ideal) aw1t ab1 z c f (ix2 (⟨r.val, by omega⟩ : Fin 2048) l)
      = max (((∑ p : Fin 512, z (ix2 r p) * aw1t (ix2 (⟨p.val, by omega⟩ : Fin 1024) l))
              + ∑ p : Fin 512, f (ix2 r p) * aw1t (ix2 (⟨512 + p.val, by omega⟩ : Fin 1024) l)) + ab1 (ix2 (0 : Fin 1) l)) 0 := by
  unfold k0_pay12 k0_pay10 k0_pay11 k0_pay5 k0_pay4 k0_pay3 k0_pay2
  rw [truncf_apply, stack_top, maximumf_apply, addf_apply, addf_apply, cut_top, matmul_2048x512, matmul_1024x512, rep_row_1024,
    broadcast_apply]
  simp only [stack_top, half_top, half_bot]
  simp only [shapeCast_self, Ideal.ofBits_def, Ideal.ofBits_zero_f32]

/-- The first attention layer at row 1024 + r of the stacked block (the rows of c) and hidden unit l. -/
theorem layer1_bot (aw1t : Vec Ideal S1024x512 .bf16) (ab1 : Vec Ideal S1x512 .f32) (z c f : Vec Ideal S1024x512 .bf16)
    (r : Fin 1024) (l : Fin 512) :
    k0_pay12 (F := Ideal) aw1t ab1 z c f (ix2 (⟨1024 + r.val, by omega⟩ : Fin 2048) l)
      = max (((∑ p : Fin 512, c (ix2 r p) * aw1t (ix2 (⟨p.val, by omega⟩ : Fin 1024) l))
              + ∑ p : Fin 512, f (ix2 r p) * aw1t (ix2 (⟨512 + p.val, by omega⟩ : Fin 1024) l)) + ab1 (ix2 (0 : Fin 1) l)) 0 := by
  unfold k0_pay12 k0_pay10 k0_pay11 k0_pay5 k0_pay4 k0_pay3 k0_pay2
  rw [truncf_apply, stack_bot, maximumf_apply, addf_apply, addf_apply, cut_bot, matmul_2048x512, matmul_1024x512, rep_row_1024,
    broadcast_apply]
  simp only [stack_bot, half_top, half_bot]
  simp only [shapeCast_self, Ideal.ofBits_def, Ideal.ofBits_zero_f32]

/-- The same layer on the second side of the body, where the two weight halves and the bias arrive already cut:
    the rows of z. -/
theorem layer1v_top (w_zc w_f : FVec Ideal S512x512 .bf16) (ab1 : FVec Ideal S1x512 .f32) (z c f : Vec Ideal S1024x512 .bf16)
    (r : Fin 1024) (l : Fin 512) :
    k0_pay18 (F := Ideal) w_zc w_f ab1 z c f (ix2 r l)
      = max (((∑ p : Fin 512, z (ix2 r p) * w_zc (ix2 p l)) + ∑ p : Fin 512, f (ix2 r p) * w_f (ix2 p l)) + ab1 (ix2 (0 : Fin 1) l)) 0 := by
  unfold k0_pay18 k0_pay17 k0_pay16 k0_pay15 k0_pay14
  rw [maximumf_apply, addf_apply, addf_apply, cut_top, matmul_2048x512, matmul_1024x512, rep_row_1024, broadcast_apply]
  simp only [stack_top]
  simp only [shapeCast_self, Ideal.ofBits_def, Ideal.ofBits_zero_f32]

/-- … and the rows of c. -/
theorem layer1v_bot (w_zc w_f : FVec Ideal S512x512 .bf16) (ab1 : FVec Ideal S1x512 .f32) (z c f : Vec Ideal S1024x512 .bf16)
    (r : Fin 1024) (l : Fin 512) :
    k0_pay19 (F := Ideal) w_zc w_f ab1 z c f (ix2 r l)
      = max (((∑ p : Fin 512, c (ix2 r p) * w_zc (ix2 p l)) + ∑ p : Fin 512, f (ix2 r p) * w_f (ix2 p l)) + ab1 (ix2 (0 : Fin 1) l)) 0 := by
  unfold k0_pay19 k0_pay17 k0_pay16 k0_pay15 k0_pay14
  rw [maximumf_apply, addf_apply, addf_apply, cut_bot, matmul_2048x512, matmul_1024x512, rep_row_1024, broadcast_apply]
  simp only [stack_bot]
  simp only [shapeCast_self, Ideal.ofBits_def, Ideal.ofBits_zero_f32]

end Cert.KernelIdeal.RowValue

end
-- ==== Proof.KTail.lean ====
/-
  The rest of the fusion in the kernel body, read at an entry, from the stacked first-layer outputs h (rows of z on top,
  rows of c below): the second relu layer and the linear read-out give one score per stacked row; the scores s_z, s_c of
  rows r and 1024 + r become the softmax weights e^{s − m} / (e^{s_z − m} + e^{s_c − m}) with m = max s_z s_c; the
  fused entry (r, d) is the weighted sum of z[r,d] and c[r,d].
-/
import proofs.«418101_j13168369729717_3_alg».proof.Proof.KOps
import proofs.«418101_j13168369729717_3_alg».proof.Proof.KLayout
import Idealize.ShloMosaic.Lib.ValueIdx
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.SL.Sem
open Idealize.ShloMosaic.ValueIdx
open scoped BigOperators

/-- One attention score from a row `h1` of first-layer outputs: the second relu layer and the linear read-out. -/
def scoreOf (w2 : FVec Ideal S512x512 .bf16) (b2 : FVec Ideal S1x512 .f32) (w3 : FVec Ideal S512x1 .bf16) (b3 : FVec Ideal S1x1 .f32)
    (h1 : Fin 512 → EReal) : EReal :=
  (∑ k : Fin 512, max ((∑ l : Fin 512, h1 l * w2 (ix2 l k)) + b2 (ix2 (0 : Fin 1) k)) 0 * w3 (ix2 k (0 : Fin 1))) + b3 (ix2 (0 : Fin 1) (0 : Fin 1))

/-- The score column at any of the 2048 stacked rows. -/
theorem score_apply (w2 : FVec Ideal S512x512 .bf16) (b2 : FVec Ideal S1x512 .f32) (w3 : FVec Ideal S512x1 .bf16) (b3 : FVec Ideal S1x1 .f32)
    (h : FVec Ideal S2048x512 .bf16) (ρ : Fin 2048) :
    addf (matmul (F := Ideal) dot_S2048x512_S512x1_S2048x1_1_0_0_1_n_n none
        (truncf .bf16 (maximumf (addf (matmul (F := Ideal) dot_S2048x512_S512x512_S2048x512_1_0_0_1_n_n none h w2 (constant S2048x512 .f32 0x00000000#32))
            (broadcastTo S2048x512 b2 broadcasts_S1x512_S2048x512)) (broadcast S2048x512 (Scalar.ofBits .f32 0x00000000#32))) bitsLt_bf16_f32)
        w3 (constant S2048x1 .f32 0x00000000#32)) (broadcastTo S2048x1 b3 broadcasts_S1x1_S2048x1) (ix2 ρ (0 : Fin 1))
      = scoreOf w2 b2 w3 b3 (fun l => h (ix2 ρ l)) := by
  unfold scoreOf
  rw [addf_apply, matmul_2048x1, rep_cell_2048]
  simp only [truncf_apply, maximumf_apply, addf_apply, matmul_2048x512, rep_row_2048, broadcast_apply, Ideal.ofBits_def, Ideal.ofBits_zero_f32]

theorem exp_apply {s : Shape} {φ : FTy} (x : FVec Ideal s φ) (i : s.Idx) : exp x i = Ideal.exp (x i) := rfl
theorem rsqrt_apply {s : Shape} {φ : FTy} (x : FVec Ideal s φ) (i : s.Idx) : rsqrt x i = Ideal.rsqrt (x i) := rfl

/-- The fused row from the stacked first-layer outputs `h` (rows of z on top, rows of c below): the two scores of row
    r, their softmax weights, and the weighted sum of z and c at (r, d). -/
theorem tail_apply (w2 : FVec Ideal S512x512 .bf16) (b2 : FVec Ideal S1x512 .f32) (w3 : FVec Ideal S512x1 .bf16) (b3 : FVec Ideal S1x1 .f32)
    (z c : FVec Ideal S1024x512 .bf16) (h : FVec Ideal S2048x512 .bf16) (r : Fin 1024) (d : Fin 512) :
    k0_pay13 (F := Ideal) w2 b2 w3 b3 z c h (ix2 r d)
      = Ideal.div (Ideal.exp (scoreOf w2 b2 w3 b3 (fun l => h (ix2 (⟨r.val, by omega⟩ : Fin 2048) l))
              - max (scoreOf w2 b2 w3 b3 (fun l => h (ix2 (⟨r.val, by omega⟩ : Fin 2048) l)))
                  (scoreOf w2 b2 w3 b3 (fun l => h (ix2 (⟨1024 + r.val, by omega⟩ : Fin 2048) l)))))
          (Ideal.exp (scoreOf w2 b2 w3 b3 (fun l => h (ix2 (⟨r.val, by omega⟩ : Fin 2048) l))
              - max (scoreOf w2 b2 w3 b3 (fun l => h (ix2 (⟨r.val, by omega⟩ : Fin 2048) l)))
                  (scoreOf w2 b2 w3 b3 (fun l => h (ix2 (⟨1024 + r.val, by omega⟩ : Fin 2048) l))))
            + Ideal.exp (scoreOf w2 b2 w3 b3 (fun l => h (ix2 (⟨1024 + r.val, by omega⟩ : Fin 2048) l))
              - max (scoreOf w2 b2 w3 b3 (fun l => h (ix2 (⟨r.val, by omega⟩ : Fin 2048) l)))
                  (scoreOf w2 b2 w3 b3 (fun l => h (ix2 (⟨1024 + r.val, by omega⟩ : Fin 2048) l))))) * z (ix2 r d)
        + Ideal.div (Ideal.exp (scoreOf w2 b2 w3 b3 (fun l => h (ix2 (⟨1024 + r.val, by omega⟩ : Fin 2048) l))
              - max (scoreOf w2 b2 w3 b3 (fun l => h (ix2 (⟨r.val, by omega⟩ : Fin 2048) l)))
                  (scoreOf w2 b2 w3 b3 (fun l => h (ix2 (⟨1024 + r.val, by omega⟩ : Fin 2048) l)))))
          (Ideal.exp (scoreOf w2 b2 w3 b3 (fun l => h (ix2 (⟨r.val, by omega⟩ : Fin 2048) l))
              - max (scoreOf w2 b2 w3 b3 (fun l => h (ix2 (⟨r.val, by omega⟩ : Fin 2048) l)))
                  (scoreOf w2 b2 w3 b3 (fun l => h (ix2 (⟨1024 + r.val, by omega⟩ : Fin 2048) l))))
            + Ideal.exp (scoreOf w2 b2 w3 b3 (fun l => h (ix2 (⟨1024 + r.val, by omega⟩ : Fin 2048) l))
              - max (scoreOf w2 b2 w3 b3 (fun l => h (ix2 (⟨r.val, by omega⟩ : Fin 2048) l)))
                  (scoreOf w2 b2 w3 b3 (fun l => h (ix2 (⟨1024 + r.val, by omega⟩ : Fin 2048) l))))) * c (ix2 r d) := by
  unfold k0_pay13
  rw [addf_apply, mulf_apply, mulf_apply, rep_col, rep_col, extf_apply, extf_apply, divf_apply, divf_apply, addf_apply,
    exp_apply, exp_apply, subf_apply, subf_apply, maximumf_apply, cutcol_top, cutcol_bot, score_apply, score_apply]

end Cert.KernelIdeal.RowValue

end
-- ==== Proof.KHead.lean ====
/-
  The score head of the kernel body read at an entry: the linear layer over the two fused rows (each meeting its half of
  the 1024 × 512 weight), the bias, the centring by the mean; then the scale γ · x · rsqrt (σ² + ε) + β, the relu and
  the read-out to one score per row.
-/
import proofs.«418101_j13168369729717_3_alg».proof.Proof.KTail
import Idealize.ShloMosaic.Lib.ValueIdx
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.SL.Sem
open Idealize.ShloMosaic.ValueIdx
open scoped BigOperators

/-- The head's linear layer at (r, j): the half of the weight that meets the first fused row `u`, the half that meets the
    second side's fused row (the fuse tail over that side's stacked first-layer outputs), the bias, less the mean. -/
theorem head1_apply (w2 : FVec Ideal S512x512 .bf16) (b2 : FVec Ideal S1x512 .f32) (w3 : FVec Ideal S512x1 .bf16) (b3 : FVec Ideal S1x1 .f32)
    (u : FVec Ideal S1024x512 .f32) (zv cv : FVec Ideal S1024x512 .bf16) (ht hb : FVec Ideal S1024x512 .f32)
    (w1t : Vec Ideal S1024x512 .bf16) (b1 mu : Vec Ideal S1x512 .f32) (r : Fin 1024) (j : Fin 512) :
    k0_pay21 (F := Ideal) w2 b2 w3 b3 u zv cv ht hb w1t b1 mu (ix2 r j)
      = (((∑ k : Fin 512, u (ix2 r k) * w1t (ix2 (⟨k.val, by omega⟩ : Fin 1024) j))
          + ∑ k : Fin 512, k0_pay13 (F := Ideal) w2 b2 w3 b3 zv cv
                (truncf .bf16 (concatenate S2048x512 0 [⟨S1024x512, ht⟩, ⟨S1024x512, hb⟩] concatenates_S1024x512_S1024x512_S2048x512_d0) bitsLt_bf16_f32)
                (ix2 r k) * w1t (ix2 (⟨512 + k.val, by omega⟩ : Fin 1024) j))
          + b1 (ix2 (0 : Fin 1) j)) - mu (ix2 (0 : Fin 1) j) := by
  unfold k0_pay21
  rw [subf_apply, addf_apply, addf_apply, matmul_1024x512, matmul_1024x512, rep_row_1024, rep_row_1024]
  simp only [truncf_apply, half_top, half_bot, shapeCast_self]
  unfold k0_pay13
  rfl

/-- The normalisation, the relu and the read-out at row r: from the centred head layer `x`. -/
theorem head2_apply (g : FVec Ideal S1x512 .f32) (x : FVec Ideal S1024x512 .f32) (va be : Vec Ideal S1x512 .f32)
    (w2t : Vec Ideal S512x1 .bf16) (b2 : Vec Ideal S1x1 .f32) (r : Fin 1024) :
    k0_pay1 (F := Ideal) g x va be w2t b2 (ix2 r (0 : Fin 1))
      = (∑ j : Fin 512, max (g (ix2 (0 : Fin 1) j) * x (ix2 r j) * Ideal.rsqrt (va (ix2 (0 : Fin 1) j) + Ideal.ofBits .f32 0x3727C5AC#32)
            + be (ix2 (0 : Fin 1) j)) 0 * w2t (ix2 j (0 : Fin 1))) + b2 (ix2 (0 : Fin 1) (0 : Fin 1)) := by
  unfold k0_pay1
  rw [addf_apply, matmul_1024x1, rep_cell_1024]
  simp only [truncf_apply, maximumf_apply, addf_apply, mulf_apply, rep_row_1024, rsqrt_apply, broadcast_apply, shapeCast_self,
    Ideal.ofBits_def, Ideal.ofBits_zero_f32]

end Cert.KernelIdeal.RowValue

end
-- ==== Proof.KBlock.lean ====
/-
  What one grid point of the kernel writes, row by row: the body's single store holds, at row r of its 1024 × 1 block, the
  specification's score head of the two fused rows r of the point's six input blocks. The weight blocks arrive
  transposed, so the specification's weight entry (l, p) is the block's entry (p, l).
-/
import proofs.«418101_j13168369729717_3_alg».proof.Proof.Gen.KernelIdeal.Frame
import proofs.«418101_j13168369729717_3_alg».proof.Proof.KLayer1
import proofs.«418101_j13168369729717_3_alg».proof.Proof.KTail
import proofs.«418101_j13168369729717_3_alg».proof.Proof.KHead
import proofs.«418101_j13168369729717_3_alg».proof.Proof.Spec

noncomputable section

namespace Cert.KernelIdeal.RowValue

open Cert.KernelIdeal Cert.KernelIdeal.Gen Idealize.ShloMosaic Idealize.SL.Sem
open Idealize.ShloMosaic.ValueIdx
open scoped BigOperators

theorem hz : (![0, 0] : Fin 2 → Nat) = fun _ => 0 := funext fun a => by fin_cases a <;> rfl

/-- Row r of the block a grid point writes: the specification's score head of the two fused rows r of that point's six
    input blocks, with the weight blocks read transposed (they arrive transposed). -/
theorem block_row (x0 : Vec Ideal S1024x512 .bf16) (x1 : Vec Ideal S1024x512 .bf16) (x2 : Vec Ideal S1024x512 .bf16) (x3 : Vec Ideal S1024x512 .bf16) (x4 : Vec Ideal S1024x512 .bf16) (x5 : Vec Ideal S1024x512 .bf16) (x6 : Vec Ideal S1024x512 .bf16) (x7 : Vec Ideal S1x512 .f32) (x8 : Vec Ideal S512x512 .bf16) (x9 : Vec Ideal S1x512 .f32) (x10 : Vec Ideal S512x1 .bf16) (x11 : Vec Ideal S1x1 .f32) (x12 : Vec Ideal S1024x512 .bf16) (x13 : Vec Ideal S1x512 .f32) (x14 : Vec Ideal S1x512 .f32) (x15 : Vec Ideal S1x512 .f32) (x16 : Vec Ideal S1x512 .f32) (x17 : Vec Ideal S1x512 .f32) (x18 : Vec Ideal S512x1 .bf16) (x19 : Vec Ideal S1x1 .f32) (r : Fin 1024) :
    out0_20 (F := Ideal) x0 x1 x2 x3 x4 x5 x6 x7 x8 x9 x10 x11 x12 x13 x14 x15 x16 x17 x18 x19 (ix2 r (0 : Fin 1))
      = Cert.Spec.headRow (fun j p => x12 (ix2 p j)) (fun j => x13 (ix2 (0 : Fin 1) j)) (fun j => x14 (ix2 (0 : Fin 1) j))
          (fun j => x15 (ix2 (0 : Fin 1) j)) (fun j => x16 (ix2 (0 : Fin 1) j)) (fun j => x17 (ix2 (0 : Fin 1) j))
          (Ideal.ofBits .f32 0x3727C5AC#32) (fun j => x18 (ix2 j (0 : Fin 1))) (x19 (ix2 (0 : Fin 1) (0 : Fin 1)))
          (Cert.Spec.fuseRow (fun l p => x6 (ix2 p l)) (fun l => x7 (ix2 (0 : Fin 1) l)) (fun k l => x8 (ix2 l k)) (fun k => x9 (ix2 (0 : Fin 1) k))
        (fun k => x10 (ix2 k (0 : Fin 1))) (x11 (ix2 (0 : Fin 1) (0 : Fin 1)))
            (fun e => x0 (ix2 r e)) (fun e => x1 (ix2 r e)) (fun e => x2 (ix2 r e)))
          (Cert.Spec.fuseRow (fun l p => x6 (ix2 p l)) (fun l => x7 (ix2 (0 : Fin 1) l)) (fun k l => x8 (ix2 l k)) (fun k => x9 (ix2 (0 : Fin 1) k))
        (fun k => x10 (ix2 k (0 : Fin 1))) (x11 (ix2 (0 : Fin 1) (0 : Fin 1)))
            (fun e => x3 (ix2 r e)) (fun e => x4 (ix2 r e)) (fun e => x5 (ix2 r e))) := by
  unfold out0_20
  rw [View.canon_unit_zero hz]
  simp only [View.ld_unit_zero (S := S1024x512) hz, View.ld_unit_zero (S := S1x512) hz, View.ld_unit_zero (S := S512x512) hz,
    View.ld_unit_zero (S := S512x1) hz, View.ld_unit_zero (S := S1x1) hz]
  rw [head2_apply]
  simp only [head1_apply]
  simp only [tail_apply, truncf_apply, stack_top, stack_bot, layer1_top, layer1_bot, layer1v_top, layer1v_bot]
  simp only [k0_pay20, k0_pay6, k0_pay7, k0_pay8, k0_pay9, k0_pay10, k0_pay11, k0_pay14, k0_pay15, k0_pay5, k0_pay3, k0_pay4,
    k0_pay2, shapeCast_self, half_top, half_bot]
  unfold Cert.Spec.headRow Cert.Spec.fuseRow Cert.Spec.attScore scoreOf
  rfl

end Cert.KernelIdeal.RowValue

end
-- ==== Proof.KRun.lean ====
/-
  The kernel program's value. The one region runs its body at 16 grid points; point t reads rows 1024·t … 1024·t + 1023 of
  the six gathered arrays and the whole of every weight array, and writes rows 1024·t … 1024·t + 1023 of a 16384 × 1
  output. Row r of what point t writes is the specification's score head of the two fused rows 1024·t + r (the body's
  value, row by row); the sixteen blocks are disjoint and cover the output, so the output array ends as one function of
  the arrays the windows stage, batch row by batch row; the program's result is the host's reshape of it to one axis.
-/
import proofs.«418101_j13168369729717_3_alg».proof.Proof.Gen.KernelIdeal.Frame
import proofs.«418101_j13168369729717_3_alg».proof.Proof.KBlock
import Idealize.ShloMosaic.Lib.StableHlo.Run

set_option maxRecDepth 16384

noncomputable section

namespace Cert.KernelIdeal.RunValue

open Cert.KernelIdeal Cert.KernelIdeal.Gen Cert.KernelIdeal.RowValue Idealize.ShloMosaic Idealize.ShloMosaic.TcCoe Idealize.SL.Sem Idealize.ShloMosaic.StableHlo
open Idealize.ShloMosaic.ValueIdx
open Idealize.ShloMosaic.Pipeline (Dat Cfg Window)

variable (m : (ℓ : Loc nD τ sig) → Buf (Elt Ideal) ℓ) (ρ : Dev nD → PrngReg)

theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_2 : ∀ t : Fin cfg0.N, win0_2.index t (0 : Fin 2) = t.val ∧ win0_2.index t (1 : Fin 2) = 0 :=
  (by decide +kernel : ∀ t : Fin grid0.N, _)
theorem idx_3 : ∀ t : Fin cfg0.N, win0_3.index t (0 : Fin 2) = t.val ∧ win0_3.index t (1 : Fin 2) = 0 :=
  (by decide +kernel : ∀ t : Fin grid0.N, _)
theorem idx_4 : ∀ t : Fin cfg0.N, win0_4.index t (0 : Fin 2) = t.val ∧ win0_4.index t (1 : Fin 2) = 0 :=
  (by decide +kernel : ∀ t : Fin grid0.N, _)
theorem idx_5 : ∀ t : Fin cfg0.N, win0_5.index t (0 : Fin 2) = t.val ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)
theorem idx_10 : ∀ t : Fin cfg0.N, win0_10.index t (0 : Fin 2) = 0 ∧ win0_10.index t (1 : Fin 2) = 0 :=
  (by decide +kernel : ∀ t : Fin grid0.N, _)
theorem idx_11 : ∀ t : Fin cfg0.N, win0_11.index t (0 : Fin 2) = 0 ∧ win0_11.index t (1 : Fin 2) = 0 :=
  (by decide +kernel : ∀ t : Fin grid0.N, _)
theorem idx_12 : ∀ t : Fin cfg0.N, win0_12.index t (0 : Fin 2) = 0 ∧ win0_12.index t (1 : Fin 2) = 0 :=
  (by decide +kernel : ∀ t : Fin grid0.N, _)
theorem idx_13 : ∀ t : Fin cfg0.N, win0_13.index t (0 : Fin 2) = 0 ∧ win0_13.index t (1 : Fin 2) = 0 :=
  (by decide +kernel : ∀ t : Fin grid0.N, _)
theorem idx_14 : ∀ t : Fin cfg0.N, win0_14.index t (0 : Fin 2) = 0 ∧ win0_14.index t (1 : Fin 2) = 0 :=
  (by decide +kernel : ∀ t : Fin grid0.N, _)
theorem idx_15 : ∀ t : Fin cfg0.N, win0_15.index t (0 : Fin 2) = 0 ∧ win0_15.index t (1 : Fin 2) = 0 :=
  (by decide +kernel : ∀ t : Fin grid0.N, _)
theorem idx_16 : ∀ t : Fin cfg0.N, win0_16.index t (0 : Fin 2) = 0 ∧ win0_16.index t (1 : Fin 2) = 0 :=
  (by decide +kernel : ∀ t : Fin grid0.N, _)
theorem idx_17 : ∀ t : Fin cfg0.N, win0_17.index t (0 : Fin 2) = 0 ∧ win0_17.index t (1 : Fin 2) = 0 :=
  (by decide +kernel : ∀ t : Fin grid0.N, _)
theorem idx_18 : ∀ t : Fin cfg0.N, win0_18.index t (0 : Fin 2) = 0 ∧ win0_18.index t (1 : Fin 2) = 0 :=
  (by decide +kernel : ∀ t : Fin grid0.N, _)
theorem idx_19 : ∀ t : Fin cfg0.N, win0_19.index t (0 : Fin 2) = 0 ∧ win0_19.index t (1 : Fin 2) = 0 :=
  (by decide +kernel : ∀ t : Fin grid0.N, _)
theorem idx_20 : ∀ t : Fin cfg0.N, win0_20.index t (0 : Fin 2) = t.val ∧ win0_20.index t (1 : Fin 2) = 0 :=
  (by decide +kernel : ∀ t : Fin grid0.N, _)

theorem t_lt (t : Fin cfg0.N) : t.val < 16 := by
  have h1 := t.isLt
  have h2 : cfg0.N = 16 := N_0
  omega

theorem iblk_0 (c : Dev nD) (t : Fin cfg0.N) (r : Fin 1024) (e : Fin 512) :
    iblk m c 0 t (ix2 r e) = (V m c main_v1 : S16384x512.Idx → EReal) (ix2 (⟨t.val * 1024 + r.val, by have := t_lt t; omega⟩ : Fin 16384) e) := by
  show (V m c main_v1 : S16384x512.Idx → EReal) (((cfg0.win 0).blk t).view.emb (ix2 r e)) = _
  refine congrArg _ (funext fun a => Fin.ext ?_)
  obtain ⟨e0, e1⟩ := idx_0 t
  match a with
  | ⟨0, _⟩ => show win0_0.index t (0 : Fin 2) * 1024 + 1 * r.val = t.val * 1024 + r.val; omega
  | ⟨1, _⟩ => show win0_0.index t (1 : Fin 2) * 512 + 1 * e.val = e.val; omega

theorem iblk_1 (c : Dev nD) (t : Fin cfg0.N) (r : Fin 1024) (e : Fin 512) :
    iblk m c 1 t (ix2 r e) = (V m c main_v3 : S16384x512.Idx → EReal) (ix2 (⟨t.val * 1024 + r.val, by have := t_lt t; omega⟩ : Fin 16384) e) := by
  show (V m c main_v3 : S16384x512.Idx → EReal) (((cfg0.win 1).blk t).view.emb (ix2 r e)) = _
  refine congrArg _ (funext fun a => Fin.ext ?_)
  obtain ⟨e0, e1⟩ := idx_1 t
  match a with
  | ⟨0, _⟩ => show win0_1.index t (0 : Fin 2) * 1024 + 1 * r.val = t.val * 1024 + r.val; omega
  | ⟨1, _⟩ => show win0_1.index t (1 : Fin 2) * 512 + 1 * e.val = e.val; omega

theorem iblk_2 (c : Dev nD) (t : Fin cfg0.N) (r : Fin 1024) (e : Fin 512) :
    iblk m c 2 t (ix2 r e) = (V m c main_v5 : S16384x512.Idx → EReal) (ix2 (⟨t.val * 1024 + r.val, by have := t_lt t; omega⟩ : Fin 16384) e) := by
  show (V m c main_v5 : S16384x512.Idx → EReal) (((cfg0.win 2).blk t).view.emb (ix2 r e)) = _
  refine congrArg _ (funext fun a => Fin.ext ?_)
  obtain ⟨e0, e1⟩ := idx_2 t
  match a with
  | ⟨0, _⟩ => show win0_2.index t (0 : Fin 2) * 1024 + 1 * r.val = t.val * 1024 + r.val; omega
  | ⟨1, _⟩ => show win0_2.index t (1 : Fin 2) * 512 + 1 * e.val = e.val; omega

theorem iblk_3 (c : Dev nD) (t : Fin cfg0.N) (r : Fin 1024) (e : Fin 512) :
    iblk m c 3 t (ix2 r e) = (V m c main_v7 : S16384x512.Idx → EReal) (ix2 (⟨t.val * 1024 + r.val, by have := t_lt t; omega⟩ : Fin 16384) e) := by
  show (V m c main_v7 : S16384x512.Idx → EReal) (((cfg0.win 3).blk t).view.emb (ix2 r e)) = _
  refine congrArg _ (funext fun a => Fin.ext ?_)
  obtain ⟨e0, e1⟩ := idx_3 t
  match a with
  | ⟨0, _⟩ => show win0_3.index t (0 : Fin 2) * 1024 + 1 * r.val = t.val * 1024 + r.val; omega
  | ⟨1, _⟩ => show win0_3.index t (1 : Fin 2) * 512 + 1 * e.val = e.val; omega

theorem iblk_4 (c : Dev nD) (t : Fin cfg0.N) (r : Fin 1024) (e : Fin 512) :
    iblk m c 4 t (ix2 r e) = (V m c main_v9 : S16384x512.Idx → EReal) (ix2 (⟨t.val * 1024 + r.val, by have := t_lt t; omega⟩ : Fin 16384) e) := by
  show (V m c main_v9 : S16384x512.Idx → EReal) (((cfg0.win 4).blk t).view.emb (ix2 r e)) = _
  refine congrArg _ (funext fun a => Fin.ext ?_)
  obtain ⟨e0, e1⟩ := idx_4 t
  match a with
  | ⟨0, _⟩ => show win0_4.index t (0 : Fin 2) * 1024 + 1 * r.val = t.val * 1024 + r.val; omega
  | ⟨1, _⟩ => show win0_4.index t (1 : Fin 2) * 512 + 1 * e.val = e.val; omega

theorem iblk_5 (c : Dev nD) (t : Fin cfg0.N) (r : Fin 1024) (e : Fin 512) :
    iblk m c 5 t (ix2 r e) = (V m c main_v11 : S16384x512.Idx → EReal) (ix2 (⟨t.val * 1024 + r.val, by have := t_lt t; omega⟩ : Fin 16384) e) := by
  show (V m c main_v11 : S16384x512.Idx → EReal) (((cfg0.win 5).blk t).view.emb (ix2 r e)) = _
  refine congrArg _ (funext fun a => Fin.ext ?_)
  obtain ⟨e0, e1⟩ := idx_5 t
  match a with
  | ⟨0, _⟩ => show win0_5.index t (0 : Fin 2) * 1024 + 1 * r.val = t.val * 1024 + r.val; omega
  | ⟨1, _⟩ => show win0_5.index t (1 : Fin 2) * 512 + 1 * e.val = e.val; omega

theorem iblk_6 (c : Dev nD) (t : Fin cfg0.N) (p : Fin 1024) (l : Fin 512) :
    iblk m c 6 t (ix2 p l) = (V m c main_v13 : S1024x512.Idx → EReal) (ix2 p l) := by
  show (V m c main_v13 : S1024x512.Idx → EReal) (((cfg0.win 6).blk t).view.emb (ix2 p l)) = _
  refine congrArg _ (funext fun a => Fin.ext ?_)
  obtain ⟨e0, e1⟩ := idx_6 t
  match a with
  | ⟨0, _⟩ => show win0_6.index t (0 : Fin 2) * 1024 + 1 * p.val = p.val; omega
  | ⟨1, _⟩ => show win0_6.index t (1 : Fin 2) * 512 + 1 * l.val = l.val; omega

theorem iblk_7 (c : Dev nD) (t : Fin cfg0.N) (p : Fin 1) (l : Fin 512) :
    iblk m c 7 t (ix2 p l) = (V m c main_v22 : S1x512.Idx → EReal) (ix2 p l) := by
  show (V m c main_v22 : S1x512.Idx → EReal) (((cfg0.win 7).blk t).view.emb (ix2 p l)) = _
  refine congrArg _ (funext fun a => Fin.ext ?_)
  obtain ⟨e0, e1⟩ := idx_7 t
  match a with
  | ⟨0, _⟩ => show win0_7.index t (0 : Fin 2) * 1 + 1 * p.val = p.val; omega
  | ⟨1, _⟩ => show win0_7.index t (1 : Fin 2) * 512 + 1 * l.val = l.val; omega

theorem iblk_8 (c : Dev nD) (t : Fin cfg0.N) (p : Fin 512) (l : Fin 512) :
    iblk m c 8 t (ix2 p l) = (V m c main_v15 : S512x512.Idx → EReal) (ix2 p l) := by
  show (V m c main_v15 : S512x512.Idx → EReal) (((cfg0.win 8).blk t).view.emb (ix2 p l)) = _
  refine congrArg _ (funext fun a => Fin.ext ?_)
  obtain ⟨e0, e1⟩ := idx_8 t
  match a with
  | ⟨0, _⟩ => show win0_8.index t (0 : Fin 2) * 512 + 1 * p.val = p.val; omega
  | ⟨1, _⟩ => show win0_8.index t (1 : Fin 2) * 512 + 1 * l.val = l.val; omega

theorem iblk_9 (c : Dev nD) (t : Fin cfg0.N) (p : Fin 1) (l : Fin 512) :
    iblk m c 9 t (ix2 p l) = (V m c main_v23 : S1x512.Idx → EReal) (ix2 p l) := by
  show (V m c main_v23 : S1x512.Idx → EReal) (((cfg0.win 9).blk t).view.emb (ix2 p l)) = _
  refine congrArg _ (funext fun a => Fin.ext ?_)
  obtain ⟨e0, e1⟩ := idx_9 t
  match a with
  | ⟨0, _⟩ => show win0_9.index t (0 : Fin 2) * 1 + 1 * p.val = p.val; omega
  | ⟨1, _⟩ => show win0_9.index t (1 : Fin 2) * 512 + 1 * l.val = l.val; omega

theorem iblk_10 (c : Dev nD) (t : Fin cfg0.N) (p : Fin 512) (l : Fin 1) :
    iblk m c 10 t (ix2 p l) = (V m c main_v17 : S512x1.Idx → EReal) (ix2 p l) := by
  show (V m c main_v17 : S512x1.Idx → EReal) (((cfg0.win 10).blk t).view.emb (ix2 p l)) = _
  refine congrArg _ (funext fun a => Fin.ext ?_)
  obtain ⟨e0, e1⟩ := idx_10 t
  match a with
  | ⟨0, _⟩ => show win0_10.index t (0 : Fin 2) * 512 + 1 * p.val = p.val; omega
  | ⟨1, _⟩ => show win0_10.index t (1 : Fin 2) * 1 + 1 * l.val = l.val; omega

theorem iblk_11 (c : Dev nD) (t : Fin cfg0.N) (p : Fin 1) (l : Fin 1) :
    iblk m c 11 t (ix2 p l) = (V m c main_v24 : S1x1.Idx → EReal) (ix2 p l) := by
  show (V m c main_v24 : S1x1.Idx → EReal) (((cfg0.win 11).blk t).view.emb (ix2 p l)) = _
  refine congrArg _ (funext fun a => Fin.ext ?_)
  obtain ⟨e0, e1⟩ := idx_11 t
  match a with
  | ⟨0, _⟩ => show win0_11.index t (0 : Fin 2) * 1 + 1 * p.val = p.val; omega
  | ⟨1, _⟩ => show win0_11.index t (1 : Fin 2) * 1 + 1 * l.val = l.val; omega

theorem iblk_12 (c : Dev nD) (t : Fin cfg0.N) (p : Fin 1024) (l : Fin 512) :
    iblk m c 12 t (ix2 p l) = (V m c main_v19 : S1024x512.Idx → EReal) (ix2 p l) := by
  show (V m c main_v19 : S1024x512.Idx → EReal) (((cfg0.win 12).blk t).view.emb (ix2 p l)) = _
  refine congrArg _ (funext fun a => Fin.ext ?_)
  obtain ⟨e0, e1⟩ := idx_12 t
  match a with
  | ⟨0, _⟩ => show win0_12.index t (0 : Fin 2) * 1024 + 1 * p.val = p.val; omega
  | ⟨1, _⟩ => show win0_12.index t (1 : Fin 2) * 512 + 1 * l.val = l.val; omega

theorem iblk_13 (c : Dev nD) (t : Fin cfg0.N) (p : Fin 1) (l : Fin 512) :
    iblk m c 13 t (ix2 p l) = (V m c main_v25 : S1x512.Idx → EReal) (ix2 p l) := by
  show (V m c main_v25 : S1x512.Idx → EReal) (((cfg0.win 13).blk t).view.emb (ix2 p l)) = _
  refine congrArg _ (funext fun a => Fin.ext ?_)
  obtain ⟨e0, e1⟩ := idx_13 t
  match a with
  | ⟨0, _⟩ => show win0_13.index t (0 : Fin 2) * 1 + 1 * p.val = p.val; omega
  | ⟨1, _⟩ => show win0_13.index t (1 : Fin 2) * 512 + 1 * l.val = l.val; omega

theorem iblk_14 (c : Dev nD) (t : Fin cfg0.N) (p : Fin 1) (l : Fin 512) :
    iblk m c 14 t (ix2 p l) = (V m c main_v26 : S1x512.Idx → EReal) (ix2 p l) := by
  show (V m c main_v26 : S1x512.Idx → EReal) (((cfg0.win 14).blk t).view.emb (ix2 p l)) = _
  refine congrArg _ (funext fun a => Fin.ext ?_)
  obtain ⟨e0, e1⟩ := idx_14 t
  match a with
  | ⟨0, _⟩ => show win0_14.index t (0 : Fin 2) * 1 + 1 * p.val = p.val; omega
  | ⟨1, _⟩ => show win0_14.index t (1 : Fin 2) * 512 + 1 * l.val = l.val; omega

theorem iblk_15 (c : Dev nD) (t : Fin cfg0.N) (p : Fin 1) (l : Fin 512) :
    iblk m c 15 t (ix2 p l) = (V m c main_v27 : S1x512.Idx → EReal) (ix2 p l) := by
  show (V m c main_v27 : S1x512.Idx → EReal) (((cfg0.win 15).blk t).view.emb (ix2 p l)) = _
  refine congrArg _ (funext fun a => Fin.ext ?_)
  obtain ⟨e0, e1⟩ := idx_15 t
  match a with
  | ⟨0, _⟩ => show win0_15.index t (0 : Fin 2) * 1 + 1 * p.val = p.val; omega
  | ⟨1, _⟩ => show win0_15.index t (1 : Fin 2) * 512 + 1 * l.val = l.val; omega

theorem iblk_16 (c : Dev nD) (t : Fin cfg0.N) (p : Fin 1) (l : Fin 512) :
    iblk m c 16 t (ix2 p l) = (V m c main_v28 : S1x512.Idx → EReal) (ix2 p l) := by
  show (V m c main_v28 : S1x512.Idx → EReal) (((cfg0.win 16).blk t).view.emb (ix2 p l)) = _
  refine congrArg _ (funext fun a => Fin.ext ?_)
  obtain ⟨e0, e1⟩ := idx_16 t
  match a with
  | ⟨0, _⟩ => show win0_16.index t (0 : Fin 2) * 1 + 1 * p.val = p.val; omega
  | ⟨1, _⟩ => show win0_16.index t (1 : Fin 2) * 512 + 1 * l.val = l.val; omega

theorem iblk_17 (c : Dev nD) (t : Fin cfg0.N) (p : Fin 1) (l : Fin 512) :
    iblk m c 17 t (ix2 p l) = (V m c main_v29 : S1x512.Idx → EReal) (ix2 p l) := by
  show (V m c main_v29 : S1x512.Idx → EReal) (((cfg0.win 17).blk t).view.emb (ix2 p l)) = _
  refine congrArg _ (funext fun a => Fin.ext ?_)
  obtain ⟨e0, e1⟩ := idx_17 t
  match a with
  | ⟨0, _⟩ => show win0_17.index t (0 : Fin 2) * 1 + 1 * p.val = p.val; omega
  | ⟨1, _⟩ => show win0_17.index t (1 : Fin 2) * 512 + 1 * l.val = l.val; omega

theorem iblk_18 (c : Dev nD) (t : Fin cfg0.N) (p : Fin 512) (l : Fin 1) :
    iblk m c 18 t (ix2 p l) = (V m c main_v21 : S512x1.Idx → EReal) (ix2 p l) := by
  show (V m c main_v21 : S512x1.Idx → EReal) (((cfg0.win 18).blk t).view.emb (ix2 p l)) = _
  refine congrArg _ (funext fun a => Fin.ext ?_)
  obtain ⟨e0, e1⟩ := idx_18 t
  match a with
  | ⟨0, _⟩ => show win0_18.index t (0 : Fin 2) * 512 + 1 * p.val = p.val; omega
  | ⟨1, _⟩ => show win0_18.index t (1 : Fin 2) * 1 + 1 * l.val = l.val; omega

theorem iblk_19 (c : Dev nD) (t : Fin cfg0.N) (p : Fin 1) (l : Fin 1) :
    iblk m c 19 t (ix2 p l) = (V m c main_v30 : S1x1.Idx → EReal) (ix2 p l) := by
  show (V m c main_v30 : S1x1.Idx → EReal) (((cfg0.win 19).blk t).view.emb (ix2 p l)) = _
  refine congrArg _ (funext fun a => Fin.ext ?_)
  obtain ⟨e0, e1⟩ := idx_19 t
  match a with
  | ⟨0, _⟩ => show win0_19.index t (0 : Fin 2) * 1 + 1 * p.val = p.val; omega
  | ⟨1, _⟩ => show win0_19.index t (1 : Fin 2) * 1 + 1 * l.val = l.val; omega

/-- The array the region's output window ends holding, as one function of the arrays its input windows stage: at batch
    row R the specification's score head of the two fused rows R. -/
def rowOut (c : Dev nD) : S16384x1.Idx → EReal := fun i =>
  Cert.Spec.headRow (fun j p => (V m c main_v19 : S1024x512.Idx → EReal) (ix2 p j)) (fun j => (V m c main_v25 : S1x512.Idx → EReal) (ix2 (0 : Fin 1) j)) (fun j => (V m c main_v26 : S1x512.Idx → EReal) (ix2 (0 : Fin 1) j))
      (fun j => (V m c main_v27 : S1x512.Idx → EReal) (ix2 (0 : Fin 1) j)) (fun j => (V m c main_v28 : S1x512.Idx → EReal) (ix2 (0 : Fin 1) j)) (fun j => (V m c main_v29 : S1x512.Idx → EReal) (ix2 (0 : Fin 1) j))
      (Ideal.ofBits .f32 0x3727C5AC#32) (fun j => (V m c main_v21 : S512x1.Idx → EReal) (ix2 j (0 : Fin 1))) ((V m c main_v30 : S1x1.Idx → EReal) (ix2 (0 : Fin 1) (0 : Fin 1)))
      (Cert.Spec.fuseRow (fun l p => (V m c main_v13 : S1024x512.Idx → EReal) (ix2 p l)) (fun l => (V m c main_v22 : S1x512.Idx → EReal) (ix2 (0 : Fin 1) l)) (fun k l => (V m c main_v15 : S512x512.Idx → EReal) (ix2 l k)) (fun k => (V m c main_v23 : S1x512.Idx → EReal) (ix2 (0 : Fin 1) k))
        (fun k => (V m c main_v17 : S512x1.Idx → EReal) (ix2 k (0 : Fin 1))) ((V m c main_v24 : S1x1.Idx → EReal) (ix2 (0 : Fin 1) (0 : Fin 1)))
        (fun e => (V m c main_v1 : S16384x512.Idx → EReal) (ix2 (i 0) e)) (fun e => (V m c main_v3 : S16384x512.Idx → EReal) (ix2 (i 0) e)) (fun e => (V m c main_v5 : S16384x512.Idx → EReal) (ix2 (i 0) e)))
      (Cert.Spec.fuseRow (fun l p => (V m c main_v13 : S1024x512.Idx → EReal) (ix2 p l)) (fun l => (V m c main_v22 : S1x512.Idx → EReal) (ix2 (0 : Fin 1) l)) (fun k l => (V m c main_v15 : S512x512.Idx → EReal) (ix2 l k)) (fun k => (V m c main_v23 : S1x512.Idx → EReal) (ix2 (0 : Fin 1) k))
        (fun k => (V m c main_v17 : S512x1.Idx → EReal) (ix2 k (0 : Fin 1))) ((V m c main_v24 : S1x1.Idx → EReal) (ix2 (0 : Fin 1) (0 : Fin 1)))
        (fun e => (V m c main_v7 : S16384x512.Idx → EReal) (ix2 (i 0) e)) (fun e => (V m c main_v9 : S16384x512.Idx → EReal) (ix2 (i 0) e)) (fun e => (V m c main_v11 : S16384x512.Idx → EReal) (ix2 (i 0) e)))

/-- Row r of what grid point t writes is row 1024·t + r of that array. -/
theorem flushed_at (c : Dev nD) (t : Fin cfg0.N) (r : Fin 1024) :
    out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (ix2 r (0 : Fin 1))
      = rowOut m c (ix2 (⟨t.val * 1024 + r.val, by have := t_lt t; omega⟩ : Fin 16384) (0 : Fin 1)) := by
  refine (block_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) r).trans ?_
  unfold rowOut
  simp only [iblk_0, iblk_1, iblk_2, iblk_3, iblk_4, iblk_5, iblk_6, iblk_7, iblk_8, iblk_9, iblk_10, iblk_11, iblk_12, iblk_13, iblk_14, iblk_15, iblk_16, iblk_17, iblk_18, iblk_19]

/-- What grid point t writes back is block t of that array. -/
theorem flushed_eq (c : Dev nD) (t : Fin cfg0.N) :
    (dats m 0 c).flushed 20 t = ((cfg0.win 20).blk t).view.read (Elt Ideal) (rowOut m c) := by
  show (cfg0.win 20).cut (grid0.coords t) ((dats m 0 c).after 20 t) = _
  rw [after0_20]
  funext j
  show out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) j = rowOut m c (((cfg0.win 20).blk t).view.emb j)
  have hj1 : (j 1).val < 1 := (j 1).isLt
  have hj : j = ix2 (⟨(j 0).val, (j 0).isLt⟩ : Fin 1024) (0 : Fin 1) := funext fun a => Fin.ext (by
    match a with
    | ⟨0, _⟩ => rfl
    | ⟨1, _⟩ => show (j 1).val = 0; omega)
  rw [hj, flushed_at]
  refine congrArg _ (funext fun a => Fin.ext ?_)
  obtain ⟨e0, e1⟩ := idx_20 t
  match a with
  | ⟨0, _⟩ => show t.val * 1024 + (j 0).val = win0_20.index t (0 : Fin 2) * 1024 + 1 * (j 0).val; omega
  | ⟨1, _⟩ => show 0 = win0_20.index t (1 : Fin 2) * 1 + 1 * 0; omega

/-- An index of the output array is in point t's block iff each coordinate is in the block's range on its axis. -/
theorem mem_blk (t : Fin cfg0.N) (i : S16384x1.Idx) :
    i ∈ ((cfg0.win 20).blk t).view.set ↔ ∀ a : Fin 2, win0_20.index t a * S1024x1.size a ≤ (i a).val ∧ (i a).val < win0_20.index t a * S1024x1.size a + S1024x1.size a := by
  show i ∈ ((View.whole main_v31).slice (win0_20.rect t)).set ↔ _
  rw [View.set_slice_whole, Rect.mem_set_unit]
  exact Iff.rfl

/-- The output array after the region: batch row R is written by point R / 1024, so the sixteen blocks cover it. -/
theorem final (c : Dev nD) : (dats m 0 c).arrAt 20 cfg0.N = rowOut m c :=
  (dats m 0 c).arrAt_eq_of_cover 20 (rowOut m c) (fun t _ => flushed_eq m c t) fun i => by
    have hi0 : (i 0).val < 16384 := (i 0).isLt
    have hi1 : (i 1).val < 1 := (i 1).isLt
    have hN : cfg0.N = 16 := N_0
    refine ⟨⟨(i 0).val / 1024, by omega⟩, flush0_20 _, ?_⟩
    rw [mem_blk]
    obtain ⟨e0, e1⟩ := idx_20 ⟨(i 0).val / 1024, by omega⟩
    intro a
    match a with
    | ⟨0, _⟩ =>
      show win0_20.index ⟨(i 0).val / 1024, _⟩ (0 : Fin 2) * 1024 ≤ (i 0).val ∧ (i 0).val < win0_20.index ⟨(i 0).val / 1024, _⟩ (0 : Fin 2) * 1024 + 1024
      rw [e0]; show (i 0).val / 1024 * 1024 ≤ (i 0).val ∧ (i 0).val < (i 0).val / 1024 * 1024 + 1024; omega
    | ⟨1, _⟩ =>
      show win0_20.index ⟨(i 0).val / 1024, _⟩ (1 : Fin 2) * 1 ≤ (i 1).val ∧ (i 1).val < win0_20.index ⟨(i 0).val / 1024, _⟩ (1 : Fin 2) * 1 + 1
      rw [e1]; omega

/-- The program's result: the host's reshape of the output array to one axis. -/
theorem tail_eq (c : Dev nD) :
    (Pipeline.afterTail₀ cfgs (dats m) 0 (V0 m) [hostOps1] c main_v32 : S16384.Idx → EReal)
      = shapeCast S16384 (rowOut m c) shapeCasts_S16384x1_S16384 := by
  unfold Pipeline.afterTail₀
  show StableHlo.after hostOps1 _ (Proc.devRef .tc main_v32) = _
  after_results
  have e : Pipeline.withArrays (cfgs 0).spec c (V0 m c) (fun w => (dats m 0 c).arrAt w (cfgs 0).N) (Proc.tc.devRef main_v31)
      = rowOut m c := (Pipeline.withArrays_arr spec0 launch0.win.arr_inj c _ _ 20).trans (final m c)
  rw [e]
  rfl

/-- The kernel program's run, read: every weakly fair execution terminates with the result buffer at the reshape of that
    output array and every argument array unchanged. -/
theorem run : θ_run defs (onTc (τ := τ) (main (F := Ideal))) ⟨m, fun _ => 0, ρ⟩ fun r => ∀ c : Dev nD,
      r.2.mem ((c.tc : Thread nD τ).loc main_v32) = (shapeCast S16384 (rowOut m c) shapeCasts_S16384x1_S16384 : S16384.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c => ⟨(((h c).2 main_v32 (Pipeline.mem_restRefs_of main_v32 (by decide) (by decide))).trans (tail_eq m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c)),
      (((h c).2 main_arg17 (Pipeline.mem_restRefs_of main_arg17 (by decide) (by decide))).trans (W_main_arg17 m (dats m) c)),
      (((h c).2 main_arg18 (Pipeline.mem_restRefs_of main_arg18 (by decide) (by decide))).trans (W_main_arg18 m (dats m) c)),
      (((h c).2 main_arg19 (Pipeline.mem_restRefs_of main_arg19 (by decide) (by decide))).trans (W_main_arg19 m (dats m) c)),
      (((h c).2 main_arg20 (Pipeline.mem_restRefs_of main_arg20 (by decide) (by decide))).trans (W_main_arg20 m (dats m) c)),
      (((h c).2 main_arg21 (Pipeline.mem_restRefs_of main_arg21 (by decide) (by decide))).trans (W_main_arg21 m (dats m) c))⟩)
    (run_main m ρ)

end Cert.KernelIdeal.RunValue

end
-- ==== Proof.KTake.lean ====
/-
  A take of rows from an embedding table as the kernel's program computes it on the host, and what it is on the index
  range the precondition gives. The program normalises each index (a negative one counts from the end of the table),
  tests 0 ≤ index ≤ rows − 1, gathers the rows, and keeps the gathered row where the test holds and a fill value
  elsewhere. When every index lies in [−rows, rows) the normalised index lies in [0, rows), the test holds on every
  row, and the take is the plain gather.
-/
import proofs.«418101_j13168369729717_3_alg».proof.KernelIdeal
import proofs.«418101_j13168369729717_3_alg».proof.Proof.Gen.KernelIdeal
import Idealize.ShloMosaic.PureOps.Ideal
import Idealize.ShloMosaic.Lib.ValueIdx
import Idealize.ShloMosaic.Lib.Pipeline.Value
import Idealize.ShloMosaic.Lib.StableHlo.Predicate

noncomputable section

namespace Cert.KernelIdeal.HostValue

open Cert.KernelIdeal Cert.KernelIdeal.Gen Idealize.ShloMosaic Idealize.SL.Sem

/-- The index column a take reads with: a negative entry counts from the end of a table of `N` rows. -/
def normIdx (N : BitVec 32) (idx : IVec S16384 32) : IVec S16384x1 32 :=
  broadcastInDim S16384x1 ![0] bcast_S16384_S16384x1_0
    (select (cmpi .slt idx (broadcastInDim S16384 ![] bcast_S_S16384 (constantI S_ 32 0#32)))
      (addi idx (broadcastInDim S16384 ![] bcast_S_S16384 (constantI S_ 32 N))) idx)

/-- The take's range test, spread over the 512 lanes of each row: 0 ≤ index ≤ `hi` as signed integers. -/
def inRange (hi : BitVec 32) (J : IVec S16384x1 32) : IVec S16384x512 1 :=
  broadcastInDim S16384x512 ![0] bcast_S16384_S16384x512_0
    (Host.reduce IntOp.andi
      (andi (cmpi .sge J (broadcastInDim S16384x1 ![] bcast_S_S16384x1 (constantI S_ 32 0#32)))
        (cmpi .sle J (broadcastInDim S16384x1 ![0, 1] bcast_S1x1_S16384x1_0_1 (broadcastInDim S1x1 ![1] bcast_S1_S1x1_1 (constantI S1 32 hi)))))
      (constantI S_ 1 1#1) reducesTo_S16384x1_S16384_d1 h_S_)

/-- A take from a table of 100000 rows: the gathered rows where the index is in range, a fill value elsewhere; then
    the change of format, which is the identity on the extended reals. -/
def takeU (x : FVec Ideal S100000x512 .f32) (idx : IVec S16384 32) : FVec Ideal S16384x512 .bf16 :=
  truncf .bf16 (select (inRange 99999#32 (normIdx 100000#32 idx))
    (Host.gather gather_S100000x512_S16384x1_S16384x512_1_0_n_n_0_1_1512 x (normIdx 100000#32 idx))
    (broadcastInDim S16384x512 ![] bcast_S_S16384x512 (constant S_ .f32 0x7FC00000#32))) bitsLt_bf16_f32

/-- A take from a table of 50000 rows. -/
def takeV (x : FVec Ideal S50000x512 .f32) (idx : IVec S16384 32) : FVec Ideal S16384x512 .bf16 :=
  truncf .bf16 (select (inRange 49999#32 (normIdx 50000#32 idx))
    (Host.gather gather_S50000x512_S16384x1_S16384x512_1_0_n_n_0_1_1512 x (normIdx 50000#32 idx))
    (broadcastInDim S16384x512 ![] bcast_S_S16384x512 (constant S_ .f32 0x7FC00000#32))) bitsLt_bf16_f32

/-! ## One word -/

/-- A word a with −n ≤ a < n as a signed integer, n at most 2³⁰, normalised (a + n if a is negative, a itself if not, and
    the sum does not wrap around) lies in [0, n − 1]: both of the take's range tests are true of it. -/
private theorem norm_in_range (N hi a : BitVec 32) (n : Int) (hn : n ≤ 2 ^ 30) (hN : N.toInt = n) (hhi : hi.toInt = n - 1)
    (ha : -n ≤ a.toInt ∧ a.toInt < n) :
    IntOp.andi (IntOp.cmpi .sge (Scalar.select (IntOp.cmpi .slt a 0#32) (IntOp.addi a N) a) 0#32)
      (IntOp.cmpi .sle (Scalar.select (IntOp.cmpi .slt a 0#32) (IntOp.addi a N) a) hi) = 1#1 := by
  have z : (0#32 : BitVec 32).toInt = 0 := by decide
  obtain ⟨ha1, ha2⟩ := ha
  rw [IntOp.andi_eq_one, IntOp.cmpi_sge, IntOp.cmpi_sle, z, hhi]
  by_cases hneg : a.toInt < 0
  · -- a negative: the normalised word is a + n, whose signed value is the integer sum
    have c : IntOp.cmpi .slt a 0#32 = 1#1 := IntOp.cmpi_slt.2 (by rw [z]; exact hneg)
    have e1 : Scalar.select (IntOp.cmpi .slt a 0#32) (IntOp.addi a N) a = IntOp.addi a N := if_pos c
    have e2 : (IntOp.addi a N).toInt = a.toInt + n := by
      show (a + N).toInt = a.toInt + n
      rw [BitVec.toInt_add, hN]
      exact Int.bmod_eq_of_le_mul_two (by omega) (by omega)
    rw [e1, e2]
    omega
  · -- a nonnegative: the normalised word is a
    have c : ¬ IntOp.cmpi .slt a 0#32 = 1#1 := fun h => hneg (by have := IntOp.cmpi_slt.1 h; rwa [z] at this)
    have e1 : Scalar.select (IntOp.cmpi .slt a 0#32) (IntOp.addi a N) a = a := if_neg c
    rw [e1]
    omega

/-! ## The test on every row -/

/-- A left fold by `and` from 1 over bits that are all 1 is 1. -/
private theorem foldl_andi_ones {ι : Type} (f : ι → BitVec 1) (hf : ∀ n, f n = 1#1) :
    ∀ (l : List ι) (init : BitVec 1), init = 1#1 → l.foldl (fun r n => IntOp.andi r (f n)) init = 1#1
  | [], _, h => h
  | a :: l, _, h => foldl_andi_ones f hf l _ (IntOp.andi_eq_one.2 ⟨h, hf a⟩)

/-- A reduction by `and` from the constant 1 of an array of bits that are all 1 is 1 at every index. -/
private theorem reduce_andi_ones {s t : Shape} {axes : List (Fin s.rank)} (x : s.Idx → BitVec 1) (h : s.ReducesTo axes t)
    (hu : 0 < S_.numel) (hx : ∀ k, x k = 1#1) (j : t.Idx) :
    Host.reduce IntOp.andi x (constantI S_ 1 1#1) h hu j = 1#1 := by
  rw [Host.reduce_eq_foldl]
  exact foldl_andi_ones x hx _ _ rfl

/-- A broadcast of an array with one value at every index has that value at every index. -/
private theorem bcast_of_forall {α : Type} {s t : Shape} (dims : Fin s.rank → Fin t.rank) (h : s.BroadcastsInDim t dims)
    (v : s.Idx → α) (c : α) (hv : ∀ r, v r = c) (j : t.Idx) : broadcastInDim t dims h v j = c := hv _

/-- With every index in [−n, n) the take's range test is true at every entry: each entry of the normalised index
    column is the normalisation of some entry of the index array, and that entry is in [−n, n). -/
private theorem inRange_one (N hi : BitVec 32) (n : Int) (hn : n ≤ 2 ^ 30) (hN : N.toInt = n) (hhi : hi.toInt = n - 1)
    (idx : IVec S16384 32) (hb : ∀ i : S16384.Idx, -n ≤ (idx i).toInt ∧ (idx i).toInt < n) (i : S16384x512.Idx) :
    inRange hi (normIdx N idx) i = 1#1 := by
  unfold inRange
  apply bcast_of_forall
  intro r
  apply reduce_andi_ones
  intro k
  obtain ⟨q, hq⟩ : ∃ q : S16384.Idx,
      normIdx N idx k = Scalar.select (IntOp.cmpi .slt (idx q) 0#32) (IntOp.addi (idx q) N) (idx q) := ⟨_, rfl⟩
  show IntOp.andi (IntOp.cmpi .sge (normIdx N idx k) 0#32) (IntOp.cmpi .sle (normIdx N idx k) hi) = 1#1
  rw [hq]
  exact norm_in_range N hi (idx q) n hn hN hhi (hb q)

/-! ## The two takes -/

/-- With every index in [−100000, 100000) the take from 100000 rows is the plain gather at the normalised indices. -/
theorem takeU_eq (x : FVec Ideal S100000x512 .f32) (idx : IVec S16384 32)
    (hb : ∀ i : S16384.Idx, (-100000 : Int) ≤ (idx i).toInt ∧ (idx i).toInt < 100000) :
    takeU x idx = fun i => Host.gather gather_S100000x512_S16384x1_S16384x512_1_0_n_n_0_1_1512 x (normIdx 100000#32 idx) i := by
  funext i
  unfold takeU
  rw [ValueIdx.truncf_apply, ValueIdx.select_apply,
    inRange_one 100000#32 99999#32 100000 (by omega) (by decide) (by decide) idx hb i]
  exact if_pos rfl

/-- With every index in [−50000, 50000) the take from 50000 rows is the plain gather at the normalised indices. -/
theorem takeV_eq (x : FVec Ideal S50000x512 .f32) (idx : IVec S16384 32)
    (hb : ∀ i : S16384.Idx, (-50000 : Int) ≤ (idx i).toInt ∧ (idx i).toInt < 50000) :
    takeV x idx = fun i => Host.gather gather_S50000x512_S16384x1_S16384x512_1_0_n_n_0_1_1512 x (normIdx 50000#32 idx) i := by
  funext i
  unfold takeV
  rw [ValueIdx.truncf_apply, ValueIdx.select_apply,
    inRange_one 50000#32 49999#32 50000 (by omega) (by decide) (by decide) idx hb i]
  exact if_pos rfl

end Cert.KernelIdeal.HostValue

end
-- ==== Proof.KHost.lean ====
/-
  What each window of the kernel's one region stages: the array the host operations before the region leave in the
  window's buffer, as a term of the argument arrays. The six data windows hold the takes of the six embedding tables
  at the index arrays; the weight windows hold the transposed weights; the bias and normalisation windows hold the
  vectors laid out as one row (or one cell). Changes of float format are the identity on the extended reals and are
  kept as written.
-/
import proofs.«418101_j13168369729717_3_alg».proof.Proof.Gen.KernelIdeal.Frame
import proofs.«418101_j13168369729717_3_alg».proof.Proof.KTake
import Idealize.ShloMosaic.Lib.StableHlo.Run
import Idealize.ShloMosaic.PureOps.Ideal

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxHeartbeats 4000000 in
/-- Window 0 stages the take of the first user table at the user indices. -/
theorem V_v1 (c : Dev nD) : (V m c main_v1 : S16384x512.Idx → EReal) = takeU (m ((c : Thread nD τ).loc main_arg2)) (m ((c : Thread nD τ).loc main_arg0)) := by
  unfold takeU inRange normIdx
  dsimp only [Gen.V, Gen.V0]
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp
  simp only [TRef.ofBuf, TRef.toBuf, cast_eq]

set_option maxHeartbeats 4000000 in
/-- Window 1: the second user table. -/
theorem V_v3 (c : Dev nD) : (V m c main_v3 : S16384x512.Idx → EReal) = takeU (m ((c : Thread nD τ).loc main_arg3)) (m ((c : Thread nD τ).loc main_arg0)) := by
  unfold takeU inRange normIdx
  dsimp only [Gen.V, Gen.V0]
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp
  simp only [TRef.ofBuf, TRef.toBuf, cast_eq]

set_option maxHeartbeats 4000000 in
/-- Window 2: the third user table. -/
theorem V_v5 (c : Dev nD) : (V m c main_v5 : S16384x512.Idx → EReal) = takeU (m ((c : Thread nD τ).loc main_arg4)) (m ((c : Thread nD τ).loc main_arg0)) := by
  unfold takeU inRange normIdx
  dsimp only [Gen.V, Gen.V0]
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp
  simp only [TRef.ofBuf, TRef.toBuf, cast_eq]

set_option maxHeartbeats 4000000 in
/-- Window 3: the first item table at the item indices. -/
theorem V_v7 (c : Dev nD) : (V m c main_v7 : S16384x512.Idx → EReal) = takeV (m ((c : Thread nD τ).loc main_arg5)) (m ((c : Thread nD τ).loc main_arg1)) := by
  unfold takeV inRange normIdx
  dsimp only [Gen.V, Gen.V0]
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp
  simp only [TRef.ofBuf, TRef.toBuf, cast_eq]

set_option maxHeartbeats 4000000 in
/-- Window 4: the second item table. -/
theorem V_v9 (c : Dev nD) : (V m c main_v9 : S16384x512.Idx → EReal) = takeV (m ((c : Thread nD τ).loc main_arg6)) (m ((c : Thread nD τ).loc main_arg1)) := by
  unfold takeV inRange normIdx
  dsimp only [Gen.V, Gen.V0]
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp
  simp only [TRef.ofBuf, TRef.toBuf, cast_eq]

set_option maxHeartbeats 4000000 in
/-- Window 5: the third item table. -/
theorem V_v11 (c : Dev nD) : (V m c main_v11 : S16384x512.Idx → EReal) = takeV (m ((c : Thread nD τ).loc main_arg7)) (m ((c : Thread nD τ).loc main_arg1)) := by
  unfold takeV inRange normIdx
  dsimp only [Gen.V, Gen.V0]
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp
  simp only [TRef.ofBuf, TRef.toBuf, cast_eq]

set_option maxHeartbeats 4000000 in
/-- Window 6: the first attention weight, transposed. -/
theorem V_v13 (c : Dev nD) : (V m c main_v13 : S1024x512.Idx → EReal) = (truncf (F := Ideal) .bf16 (transpose S1024x512 [1, 0] ((m ((c : Thread nD τ).loc main_arg8)) : S512x1024.Idx → EReal) transposes_S512x1024_S1024x512_1_0) bitsLt_bf16_f32 : S1024x512.Idx → EReal) := by
  dsimp only [Gen.V, Gen.V0]
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp

set_option maxHeartbeats 4000000 in
/-- Window 7: the first attention bias as a row. -/
theorem V_v22 (c : Dev nD) : (V m c main_v22 : S1x512.Idx → EReal) = (shapeCast S1x512 ((m ((c : Thread nD τ).loc main_arg9)) : S512.Idx → EReal) shapeCasts_S512_S1x512 : S1x512.Idx → EReal) := by
  dsimp only [Gen.V, Gen.V0]
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp
  rfl

set_option maxHeartbeats 4000000 in
/-- Window 8: the second attention weight, transposed. -/
theorem V_v15 (c : Dev nD) : (V m c main_v15 : S512x512.Idx → EReal) = (truncf (F := Ideal) .bf16 (transpose S512x512 [1, 0] ((m ((c : Thread nD τ).loc main_arg10)) : S512x512.Idx → EReal) transposes_S512x512_S512x512_1_0) bitsLt_bf16_f32 : S512x512.Idx → EReal) := by
  dsimp only [Gen.V, Gen.V0]
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp

set_option maxHeartbeats 4000000 in
/-- Window 9: the second attention bias as a row. -/
theorem V_v23 (c : Dev nD) : (V m c main_v23 : S1x512.Idx → EReal) = (shapeCast S1x512 ((m ((c : Thread nD τ).loc main_arg11)) : S512.Idx → EReal) shapeCasts_S512_S1x512 : S1x512.Idx → EReal) := by
  dsimp only [Gen.V, Gen.V0]
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp
  rfl

set_option maxHeartbeats 4000000 in
/-- Window 10: the attention read-out weight, transposed. -/
theorem V_v17 (c : Dev nD) : (V m c main_v17 : S512x1.Idx → EReal) = (truncf (F := Ideal) .bf16 (transpose S512x1 [1, 0] ((m ((c : Thread nD τ).loc main_arg12)) : S1x512.Idx → EReal) transposes_S1x512_S512x1_1_0) bitsLt_bf16_f32 : S512x1.Idx → EReal) := by
  dsimp only [Gen.V, Gen.V0]
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp

set_option maxHeartbeats 4000000 in
/-- Window 11: the attention read-out bias as a cell. -/
theorem V_v24 (c : Dev nD) : (V m c main_v24 : S1x1.Idx → EReal) = (shapeCast S1x1 ((m ((c : Thread nD τ).loc main_arg13)) : S1.Idx → EReal) shapeCasts_S1_S1x1 : S1x1.Idx → EReal) := by
  dsimp only [Gen.V, Gen.V0]
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp
  rfl

set_option maxHeartbeats 4000000 in
/-- Window 12: the head weight, transposed. -/
theorem V_v19 (c : Dev nD) : (V m c main_v19 : S1024x512.Idx → EReal) = (truncf (F := Ideal) .bf16 (transpose S1024x512 [1, 0] ((m ((c : Thread nD τ).loc main_arg14)) : S512x1024.Idx → EReal) transposes_S512x1024_S1024x512_1_0) bitsLt_bf16_f32 : S1024x512.Idx → EReal) := by
  dsimp only [Gen.V, Gen.V0]
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp

set_option maxHeartbeats 4000000 in
/-- Window 13: the head bias as a row. -/
theorem V_v25 (c : Dev nD) : (V m c main_v25 : S1x512.Idx → EReal) = (shapeCast S1x512 ((m ((c : Thread nD τ).loc main_arg15)) : S512.Idx → EReal) shapeCasts_S512_S1x512 : S1x512.Idx → EReal) := by
  dsimp only [Gen.V, Gen.V0]
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp
  rfl

set_option maxHeartbeats 4000000 in
/-- Window 14: the normalisation scale as a row. -/
theorem V_v26 (c : Dev nD) : (V m c main_v26 : S1x512.Idx → EReal) = (shapeCast S1x512 ((m ((c : Thread nD τ).loc main_arg16)) : S512.Idx → EReal) shapeCasts_S512_S1x512 : S1x512.Idx → EReal) := by
  dsimp only [Gen.V, Gen.V0]
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp
  rfl

set_option maxHeartbeats 4000000 in
/-- Window 15: the normalisation shift as a row. -/
theorem V_v27 (c : Dev nD) : (V m c main_v27 : S1x512.Idx → EReal) = (shapeCast S1x512 ((m ((c : Thread nD τ).loc main_arg17)) : S512.Idx → EReal) shapeCasts_S512_S1x512 : S1x512.Idx → EReal) := by
  dsimp only [Gen.V, Gen.V0]
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp
  rfl

set_option maxHeartbeats 4000000 in
/-- Window 16: the normalisation mean as a row. -/
theorem V_v28 (c : Dev nD) : (V m c main_v28 : S1x512.Idx → EReal) = (shapeCast S1x512 ((m ((c : Thread nD τ).loc main_arg18)) : S512.Idx → EReal) shapeCasts_S512_S1x512 : S1x512.Idx → EReal) := by
  dsimp only [Gen.V, Gen.V0]
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp
  rfl

set_option maxHeartbeats 4000000 in
/-- Window 17: the normalisation variance as a row. -/
theorem V_v29 (c : Dev nD) : (V m c main_v29 : S1x512.Idx → EReal) = (shapeCast S1x512 ((m ((c : Thread nD τ).loc main_arg19)) : S512.Idx → EReal) shapeCasts_S512_S1x512 : S1x512.Idx → EReal) := by
  dsimp only [Gen.V, Gen.V0]
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp
  rfl

set_option maxHeartbeats 4000000 in
/-- Window 18: the score read-out weight, transposed. -/
theorem V_v21 (c : Dev nD) : (V m c main_v21 : S512x1.Idx → EReal) = (truncf (F := Ideal) .bf16 (transpose S512x1 [1, 0] ((m ((c : Thread nD τ).loc main_arg20)) : S1x512.Idx → EReal) transposes_S1x512_S512x1_1_0) bitsLt_bf16_f32 : S512x1.Idx → EReal) := by
  dsimp only [Gen.V, Gen.V0]
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp

set_option maxHeartbeats 4000000 in
/-- Window 19: the score read-out bias as a cell. -/
theorem V_v30 (c : Dev nD) : (V m c main_v30 : S1x1.Idx → EReal) = (shapeCast S1x1 ((m ((c : Thread nD τ).loc main_arg21)) : S1.Idx → EReal) shapeCasts_S1_S1x1 : S1x1.Idx → EReal) := by
  dsimp only [Gen.V, Gen.V0]
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp
  rfl

end Cert.KernelIdeal.HostValue

end
-- ==== Proof.PreDecode.lean ====
/-
  What the precondition says about the two index arrays. Its last two conjuncts are, for every entry of the first index
  array, −100000 ≤ entry < 100000 as signed 32-bit integers, and for every entry of the second, −50000 ≤ entry < 50000:
  the range in which an index into a table of 100000 (50000) rows is defined, negative values counting from the end.
-/
import proofs.«418101_j13168369729717_3_alg».proof.Pre_finite_inputs
import proofs.«418101_j13168369729717_3_alg».proof.Proof.Gen.Pre_finite_inputs
import Idealize.ShloMosaic.Lib.ReduceAll
import Idealize.ShloMosaic.Lib.StableHlo.Predicate

noncomputable section

namespace Cert.Pre_finite_inputs.Decode

open Cert.Pre_finite_inputs Idealize.ShloMosaic

/-- The shape of rank 0 has exactly one index. -/
private instance : Subsingleton S_.Idx := ⟨fun a b => funext fun d => d.elim0⟩

/-- A constant of rank 0, broadcast to any shape, reads that constant at every index. -/
private theorem bcast_const {t : Shape} (hb : S_.BroadcastsInDim t (![] : Fin 0 → Fin t.rank)) (c : BitVec 32) (j : t.Idx) :
    broadcastInDim t ![] hb (constantI S_ 32 c) j = c := rfl

/-- Where the conjunction of the two signed compares "entry ≥ lo" and "entry < hi" against broadcast constants is
    true at an index, the entry there, read as a signed integer, lies in [lo, hi). -/
private theorem range_at {t : Shape} (hb : S_.BroadcastsInDim t (![] : Fin 0 → Fin t.rank)) (a : IVec t 32)
    (lo hi : BitVec 32) (j : t.Idx)
    (h : andi (cmpi .sge a (broadcastInDim t ![] hb (constantI S_ 32 lo)))
          (cmpi .slt a (broadcastInDim t ![] hb (constantI S_ 32 hi))) j = 1#1) :
    lo.toInt ≤ (a j).toInt ∧ (a j).toInt < hi.toInt := by
  have h' : IntOp.andi (IntOp.cmpi .sge (a j) lo) (IntOp.cmpi .slt (a j) hi) = 1#1 := h
  obtain ⟨h1, h2⟩ := IntOp.andi_eq_one.1 h'
  exact ⟨IntOp.cmpi_sge.1 h1, IntOp.cmpi_slt.1 h2⟩

/-- The four bounds as signed integers: the words 4294867296 and 4294917296 are −100000 and −50000. -/
private theorem lo0 : (4294867296#32 : BitVec 32).toInt = -100000 := by decide
private theorem hi0 : (100000#32 : BitVec 32).toInt = 100000 := by decide
private theorem lo1 : (4294917296#32 : BitVec 32).toInt = -50000 := by decide
private theorem hi1 : (50000#32 : BitVec 32).toInt = 50000 := by decide

/-- If the precondition holds of the argument arrays, every entry of the first index array lies in [−100000, 100000)
    and every entry of the second in [−50000, 50000), read as signed integers. -/
theorem index_bounds {F : FTy → Type} [FloatOps F] (a0 a1 : IVec S16384 32) (a2 a3 a4 : FVec F S100000x512 .f32) (a5 a6 a7 : FVec F S50000x512 .f32) (a8 : FVec F S512x1024 .f32) (a9 : FVec F S512 .f32) (a10 : FVec F S512x512 .f32) (a11 : FVec F S512 .f32) (a12 : FVec F S1x512 .f32) (a13 : FVec F S1 .f32) (a14 : FVec F S512x1024 .f32) (a15 a16 a17 a18 a19 : FVec F S512 .f32) (a20 : FVec F S1x512 .f32) (a21 : FVec F S1 .f32)
    (h : Cert.Pre_finite_inputs.fn (F := F) a0 a1 a2 a3 a4 a5 a6 a7 a8 a9 a10 a11 a12 a13 a14 a15 a16 a17 a18 a19 a20 a21 = fun _ => 1#1) :
    (∀ i : S16384.Idx, (-100000 : Int) ≤ (a0 i).toInt ∧ (a0 i).toInt < 100000)
      ∧ (∀ i : S16384.Idx, (-50000 : Int) ≤ (a1 i).toInt ∧ (a1 i).toInt < 50000) := by
  -- the precondition's value at the one index of the rank-0 result
  have h0 := congrFun h (fun d => d.elim0)
  dsimp only [fn, fn_part1, fn_part2, fn_part3, fn_part4, fn_part5, fn_part6] at h0
  -- it is (finiteness ∧ range of the first index array) ∧ range of the second: keep the two range conjuncts
  obtain ⟨h1, hv⟩ := IntOp.andi_eq_one.1 h0
  obtain ⟨-, hu⟩ := IntOp.andi_eq_one.1 h1
  clear h1 h0 h
  -- each is a conjunction over all 16384 entries, so it holds at every entry
  refine ⟨fun i => ?_, fun i => ?_⟩
  · have p := range_at _ a0 _ _ i (Host.reduce_andi_all _ _ _ _ _ hu i)
    rw [lo0, hi0] at p
    exact p
  · have p := range_at _ a1 _ _ i (Host.reduce_andi_all _ _ _ _ _ hv i)
    rw [lo1, hi1] at p
    exact p

end Cert.Pre_finite_inputs.Decode

end
-- ==== Proof.KValue.lean ====
/-
  The kernel program's result as the specification's function of the ARGUMENT arrays. The windows of its one region
  stage the six takes of embedding rows (plain gathers at the normalised indices once the indices are in range), the
  weight matrices transposed, and the bias and normalisation vectors laid out as rows. Read back entry by entry — a
  transposed weight at (p, l) is the weight at (l, p), a row at (0, l) is the vector at l — the output array is the
  specification's score of every batch row from the six gathered arrays and the weights as the program receives them.
-/
import proofs.«418101_j13168369729717_3_alg».proof.Proof.KRun
import proofs.«418101_j13168369729717_3_alg».proof.Proof.KHost
import proofs.«418101_j13168369729717_3_alg».proof.Proof.KTake
import proofs.«418101_j13168369729717_3_alg».proof.Proof.PreDecode

set_option maxRecDepth 16384

noncomputable section

namespace Cert.KernelIdeal.RunValue

open Cert.KernelIdeal Cert.KernelIdeal.Gen Cert.KernelIdeal.RowValue Cert.KernelIdeal.HostValue Idealize.ShloMosaic Idealize.ShloMosaic.TcCoe Idealize.SL.Sem
open Idealize.ShloMosaic.ValueIdx

/-- A transposed 512 × 1024 weight at (p, l) is the weight at (l, p). -/
theorem wT_1024x512 (x : S512x1024.Idx → EReal) (p : Fin 1024) (l : Fin 512) :
    (truncf (F := Ideal) .bf16 (transpose S1024x512 [1, 0] x transposes_S512x1024_S1024x512_1_0) bitsLt_bf16_f32 : S1024x512.Idx → EReal) (ix2 p l)
      = x (ix2 l p) :=
  transpose_apply _ x _ _ (ix2 l p) (fun b => by match b with | ⟨0, _⟩ => rfl | ⟨1, _⟩ => rfl)

/-- A transposed 512 × 512 weight at (l, k) is the weight at (k, l). -/
theorem wT_512x512 (x : S512x512.Idx → EReal) (l k : Fin 512) :
    (truncf (F := Ideal) .bf16 (transpose S512x512 [1, 0] x transposes_S512x512_S512x512_1_0) bitsLt_bf16_f32 : S512x512.Idx → EReal) (ix2 l k)
      = x (ix2 k l) :=
  transpose_apply _ x _ _ (ix2 k l) (fun b => by match b with | ⟨0, _⟩ => rfl | ⟨1, _⟩ => rfl)

/-- A transposed 1 × 512 weight at (k, 0) is the weight at (0, k). -/
theorem wT_512x1 (x : S1x512.Idx → EReal) (k : Fin 512) :
    (truncf (F := Ideal) .bf16 (transpose S512x1 [1, 0] x transposes_S1x512_S512x1_1_0) bitsLt_bf16_f32 : S512x1.Idx → EReal) (ix2 k (0 : Fin 1))
      = x (ix2 (0 : Fin 1) k) :=
  transpose_apply _ x _ _ (ix2 (0 : Fin 1) k) (fun b => by match b with | ⟨0, _⟩ => rfl | ⟨1, _⟩ => rfl)

/-- A vector of 512 laid out as one row, at (0, l), is the vector at l. -/
theorem row_512 (x : S512.Idx → EReal) (l : Fin 512) :
    (shapeCast S1x512 x shapeCasts_S512_S1x512 : S1x512.Idx → EReal) (ix2 (0 : Fin 1) l) = x (ix1 l) :=
  shapeCast_apply x _ _ (ix1 l) (by simp [Shape.rowMajor_val_one, Shape.rowMajor_val_two])

/-- A vector of 1 laid out as one cell. -/
theorem cell_1 (x : S1.Idx → EReal) :
    (shapeCast S1x1 x shapeCasts_S1_S1x1 : S1x1.Idx → EReal) (ix2 (0 : Fin 1) (0 : Fin 1)) = x (ix1 (0 : Fin 1)) :=
  shapeCast_apply x _ _ (ix1 (0 : Fin 1)) (by simp [Shape.rowMajor_val_one, Shape.rowMajor_val_two])

/-- The 16384 × 1 output read as a vector of 16384: at R it is the output at (R, 0). -/
theorem col_16384 (y : S16384x1.Idx → EReal) (R : Fin 16384) :
    (shapeCast S16384 y shapeCasts_S16384x1_S16384 : S16384.Idx → EReal) (ix1 R) = y (ix2 R (0 : Fin 1)) :=
  shapeCast_apply y _ _ (ix2 R (0 : Fin 1)) (by simp [Shape.rowMajor_val_one, Shape.rowMajor_val_two])

variable (m : (ℓ : Loc nD τ sig) → Buf (Elt Ideal) ℓ)

/-- The plain gather of rows of a table of 100000 rows at the normalised indices. -/
abbrev gatherU (x : FVec Ideal S100000x512 .f32) (idx : IVec S16384 32) : S16384x512.Idx → EReal :=
  fun i => Host.gather gather_S100000x512_S16384x1_S16384x512_1_0_n_n_0_1_1512 x (normIdx 100000#32 idx) i
/-- The plain gather of rows of a table of 50000 rows at the normalised indices. -/
abbrev gatherV (x : FVec Ideal S50000x512 .f32) (idx : IVec S16384 32) : S16384x512.Idx → EReal :=
  fun i => Host.gather gather_S50000x512_S16384x1_S16384x512_1_0_n_n_0_1_1512 x (normIdx 50000#32 idx) i

/-- With the two index arrays in range, the kernel program's result is the specification's function of the six plain
    gathers and the weight arguments: the windows stage the takes (plain gathers on that range), the transposed weights
    and the vectors laid out as rows, and the specification reads the weights back untransposed. -/
theorem result_eq (c : Dev nD)
    (hu : ∀ i : S16384.Idx, (-100000 : Int) ≤ (((m ((c : Thread nD τ).loc main_arg0)) : S16384.Idx → BitVec 32) i).toInt ∧ (((m ((c : Thread nD τ).loc main_arg0)) : S16384.Idx → BitVec 32) i).toInt < 100000)
    (hv : ∀ i : S16384.Idx, (-50000 : Int) ≤ (((m ((c : Thread nD τ).loc main_arg1)) : S16384.Idx → BitVec 32) i).toInt ∧ (((m ((c : Thread nD τ).loc main_arg1)) : S16384.Idx → BitVec 32) i).toInt < 50000) :
    (shapeCast S16384 (rowOut m c) shapeCasts_S16384x1_S16384 : S16384.Idx → EReal)
      = Cert.Spec.G (gatherU (m ((c : Thread nD τ).loc main_arg2)) (m ((c : Thread nD τ).loc main_arg0))) (gatherU (m ((c : Thread nD τ).loc main_arg3)) (m ((c : Thread nD τ).loc main_arg0))) (gatherU (m ((c : Thread nD τ).loc main_arg4)) (m ((c : Thread nD τ).loc main_arg0)))
          (gatherV (m ((c : Thread nD τ).loc main_arg5)) (m ((c : Thread nD τ).loc main_arg1))) (gatherV (m ((c : Thread nD τ).loc main_arg6)) (m ((c : Thread nD τ).loc main_arg1))) (gatherV (m ((c : Thread nD τ).loc main_arg7)) (m ((c : Thread nD τ).loc main_arg1)))
          (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  funext i
  obtain ⟨R, rfl⟩ : ∃ R : Fin 16384, i = ix1 R := ⟨i 0, eq_ix1 i⟩
  rw [col_16384]
  unfold rowOut Cert.Spec.G
  simp only [V_v1 m c, V_v3 m c, V_v5 m c, V_v7 m c, V_v9 m c, V_v11 m c, V_v13 m c, V_v22 m c, V_v15 m c, V_v23 m c, V_v17 m c, V_v24 m c, V_v19 m c, V_v25 m c, V_v26 m c, V_v27 m c, V_v28 m c, V_v29 m c, V_v21 m c, V_v30 m c,
    takeU_eq _ _ hu, takeV_eq _ _ hv, row_512, cell_1,
    wT_1024x512 (m ((c : Thread nD τ).loc main_arg8)), wT_1024x512 (m ((c : Thread nD τ).loc main_arg14)), wT_512x512 (m ((c : Thread nD τ).loc main_arg10)), wT_512x1 (m ((c : Thread nD τ).loc main_arg12)), wT_512x1 (m ((c : Thread nD τ).loc main_arg20))]

end Cert.KernelIdeal.RunValue

end
-- ==== Proof.lean ====
/-
  Two programs score 16384 (user, item) pairs. Each gathers three embedding rows per side from its tables at the pair's
  indices, fuses the first two by a softmax over two attention scores (each a three-layer perceptron of the row beside
  the third, "full", row), and feeds the two fused rows to a head: a linear layer, an affine normalisation
  γ · (h − μ) · rsqrt (σ² + ε) + β with the same ε in both programs, a relu and a linear read-out. One program does it
  with whole-array host operations; the other gathers on the host, changes the float format (the identity on the
  extended reals) and runs one pipelined region of 16 grid points over blocks of 1024 rows, in which the product with a
  512 × 1024 weight over a concatenated row is computed as the sum of the two products with the weight's halves.

  On the extended reals the two results are one function (Proof/Spec.lean) of the six gathered arrays and the weights:
  the only law between the two arrangements is that a sum over 1024 terms is the sum of its two halves, which needs no
  finiteness. The two gathers differ outside the index range only: the pipelined program's take fills a row whose index
  is out of range, the other program's indexing clamps it. The precondition therefore asks, besides finite float inputs,
  that every index lies in [−rows, rows) of its table (negative indices count from the end in both programs); on that
  range both gathers are the same plain gather at the normalised indices.

  The three frames: the two kernel programs' are the generated frame certificates; the reference's is its run with the
  result dropped. The idealization rewrote nothing, so `preserves` is trivial.
-/
import proofs.«418101_j13168369729717_3_alg».proof.Defs
import proofs.«418101_j13168369729717_3_alg».proof.Proof.Gen.Kernel
import proofs.«418101_j13168369729717_3_alg».proof.Proof.Gen.Kernel.Skeleton
import proofs.«418101_j13168369729717_3_alg».proof.Proof.Gen.Kernel.Launch
import proofs.«418101_j13168369729717_3_alg».proof.Proof.Gen.Kernel.Points
import proofs.«418101_j13168369729717_3_alg».proof.Proof.Gen.Kernel.Frame
import proofs.«418101_j13168369729717_3_alg».proof.Proof.Gen.KernelIdeal
import proofs.«418101_j13168369729717_3_alg».proof.Proof.Gen.KernelIdeal.Skeleton
import proofs.«418101_j13168369729717_3_alg».proof.Proof.Gen.KernelIdeal.Launch
import proofs.«418101_j13168369729717_3_alg».proof.Proof.Gen.KernelIdeal.Points
import proofs.«418101_j13168369729717_3_alg».proof.Proof.Gen.KernelIdeal.Frame
import proofs.«418101_j13168369729717_3_alg».proof.Proof.Gen.ReferenceIdeal
import proofs.«418101_j13168369729717_3_alg».proof.Proof.Gen.Pre_finite_inputs
import proofs.«418101_j13168369729717_3_alg».proof.Proof.RefRun
import proofs.«418101_j13168369729717_3_alg».proof.Proof.RefRead
import proofs.«418101_j13168369729717_3_alg».proof.Proof.RefValue
import proofs.«418101_j13168369729717_3_alg».proof.Proof.KValue
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end at the specification's function of the six plain gathers and the weights: the pipelined program by
    its region's value and the index range, the other by its run read operation by operation; the arguments agree. -/
theorem algebraic : Cert.algebraic_KernelIdeal_ReferenceIdeal := by
  intro m ρ m' ρ' hpre hagree
  have hb := fun c : Dev Cert.KernelIdeal.nD => Cert.Pre_finite_inputs.Decode.index_bounds (F := Ideal) _ _ _ _ _ _ _ _ _ _ _ _ _ _ _ _ _ _ _ _ _ _ (hpre c)
  refine ⟨fun c => Cert.Spec.G
      (Cert.KernelIdeal.RunValue.gatherU (m ((c.tc : Thread Cert.KernelIdeal.nD Cert.KernelIdeal.τ).loc Cert.KernelIdeal.main_arg2)) (m ((c.tc : Thread Cert.KernelIdeal.nD Cert.KernelIdeal.τ).loc Cert.KernelIdeal.main_arg0))) (Cert.KernelIdeal.RunValue.gatherU (m ((c.tc : Thread Cert.KernelIdeal.nD Cert.KernelIdeal.τ).loc Cert.KernelIdeal.main_arg3)) (m ((c.tc : Thread Cert.KernelIdeal.nD Cert.KernelIdeal.τ).loc Cert.KernelIdeal.main_arg0)))
      (Cert.KernelIdeal.RunValue.gatherU (m ((c.tc : Thread Cert.KernelIdeal.nD Cert.KernelIdeal.τ).loc Cert.KernelIdeal.main_arg4)) (m ((c.tc : Thread Cert.KernelIdeal.nD Cert.KernelIdeal.τ).loc Cert.KernelIdeal.main_arg0))) (Cert.KernelIdeal.RunValue.gatherV (m ((c.tc : Thread Cert.KernelIdeal.nD Cert.KernelIdeal.τ).loc Cert.KernelIdeal.main_arg5)) (m ((c.tc : Thread Cert.KernelIdeal.nD Cert.KernelIdeal.τ).loc Cert.KernelIdeal.main_arg1)))
      (Cert.KernelIdeal.RunValue.gatherV (m ((c.tc : Thread Cert.KernelIdeal.nD Cert.KernelIdeal.τ).loc Cert.KernelIdeal.main_arg6)) (m ((c.tc : Thread Cert.KernelIdeal.nD Cert.KernelIdeal.τ).loc Cert.KernelIdeal.main_arg1))) (Cert.KernelIdeal.RunValue.gatherV (m ((c.tc : Thread Cert.KernelIdeal.nD Cert.KernelIdeal.τ).loc Cert.KernelIdeal.main_arg7)) (m ((c.tc : Thread Cert.KernelIdeal.nD Cert.KernelIdeal.τ).loc Cert.KernelIdeal.main_arg1)))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)), ?_, ?_⟩
  · exact (θ_run Cert.KernelIdeal.defs _ _).mono
      (fun r h c => ⟨(h c).1.trans (Cert.KernelIdeal.RunValue.result_eq m c (hb c).1 (hb c).2), (h c).2⟩)
      (Cert.KernelIdeal.RunValue.run m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v179_eq, Cert.ReferenceIdeal.RefValue.result_eq]
    obtain ⟨h0, h1, h2, h3, h4, h5, h6, h7, h8, h9, h10, h11, h12, h13, h14, h15, h16, h17, h18, h19, h20, h21⟩ := hagree c
    rw [h0, h1, h2, h3, h4, h5, h6, h7, h8, h9, h10, h11, h12, h13, h14, h15, h16, h17, h18, h19, h20, h21]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
